-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S64x512 : Shape := ⟨2, ![64, 512]⟩
abbrev S64 : Shape := ⟨1, ![64]⟩
abbrev S512x512x64 : Shape := ⟨3, ![512, 512, 64]⟩
abbrev S512x512 : Shape := ⟨2, ![512, 512]⟩
abbrev S1x512x512x64 : Shape := ⟨4, ![1, 512, 512, 64]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S64x512 : S_.BroadcastsInDim S64x512 (![] : Fin 0 → Fin S64x512.rank)
  reducesTo_S64x512_S_d0_1 : S64x512.ReducesTo [0, 1] S_
  bcast_S_S64 : S_.BroadcastsInDim S64 (![] : Fin 0 → Fin S64.rank)
  reducesTo_S64_S_d0 : S64.ReducesTo [0] S_
  bcast_S_S512x512x64 : S_.BroadcastsInDim S512x512x64 (![] : Fin 0 → Fin S512x512x64.rank)
  reducesTo_S512x512x64_S_d0_1_2 : S512x512x64.ReducesTo [0, 1, 2] S_
  bcast_S_S512x512 : S_.BroadcastsInDim S512x512 (![] : Fin 0 → Fin S512x512.rank)
  reducesTo_S512x512_S_d0_1 : S512x512.ReducesTo [0, 1] S_
  bcast_S_S1x512x512x64 : S_.BroadcastsInDim S1x512x512x64 (![] : Fin 0 → Fin S1x512x512x64.rank)
  reducesTo_S1x512x512x64_S_d0_1_2_3 : S1x512x512x64.ReducesTo [0, 1, 2, 3] S_

variable [Facts]

def fn_part1 {F : FTy → Type} [FloatOps F] (main_arg4 : FVec F S512x512x64 .f32) (main_arg5 : FVec F S512x512 .f32) (main_arg6 : FVec F S1x512x512x64 .f32) (main_v13 : IVec S_ 1) (main_v16 : IVec S512x512x64 1) : IVec S_ 1 :=
  let main_c_5 : IVec S_ 1 := constantI S_ 1 1#1
  let main_v17 : IVec S_ 1 := (fun x v => Host.reduce IntOp.andi x v reducesTo_S512x512x64_S_d0_1_2 h_S_) main_v16 main_c_5
  let main_v18 : IVec S_ 1 := andi main_v13 main_v17
  let main_v19 : FVec F S512x512x64 .f32 := Host.absf main_arg4
  let main_cst_6 : FVec F S_ .f32 := constant S_ .f32 0x7F800000#32
  let main_v20 : FVec F S512x512x64 .f32 := broadcastInDim S512x512x64 ![] bcast_S_S512x512x64 main_cst_6
  let main_v21 : IVec S512x512x64 1 := cmpf .olt main_v19 main_v20
  let main_c_7 : IVec S_ 1 := constantI S_ 1 1#1
  let main_v22 : IVec S_ 1 := (fun x v => Host.reduce IntOp.andi x v reducesTo_S512x512x64_S_d0_1_2 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S1x512x512x64 .f32 := Host.absf main_arg6
  let main_cst_10 : FVec F S_ .f32 := constant S_ .f32 0x7F800000#32
  let main_v30 : FVec F S1x512x512x64 .f32 := broadcastInDim S1x512x512x64 ![] bcast_S_S1x512x512x64 main_cst_10
  let main_v31 : IVec S1x512x512x64 1 := cmpf .olt main_v29 main_v30
  let main_c_11 : IVec S_ 1 := constantI S_ 1 1#1
  let main_v32 : IVec S_ 1 := (fun x v => Host.reduce IntOp.andi x v reducesTo_S1x512x512x64_S_d0_1_2_3 h_S_) main_v31 main_c_11
  let main_v33 : IVec S_ 1 := andi main_v28 main_v32
  main_v33

def fn {F : FTy → Type} [FloatOps F] (main_arg0 : FVec F S4096x512 .f32) (main_arg1 : FVec F S64x512 .f32) (main_arg2 : FVec F S64 .f32) (main_arg3 : FVec F S512x512x64 .f32) (main_arg4 : FVec F S512x512x64 .f32) (main_arg5 : FVec F S512x512 .f32) (main_arg6 : FVec F S1x512x512x64 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S512x512x64 .f32 := Host.absf main_arg3
  let main_cst_4 : FVec F S_ .f32 := constant S_ .f32 0x7F800000#32
  let main_v15 : FVec F S512x512x64 .f32 := broadcastInDim S512x512x64 ![] bcast_S_S512x512x64 main_cst_4
  let main_v16 : IVec S512x512x64 1 := cmpf .olt main_v14 main_v15
  fn_part1 (F := F) main_arg4 main_arg5 main_arg6 main_v13 main_v16
-- ==== Kernel.lean ====
abbrev S4096x512 : Shape := ⟨2, ![4096, 512]⟩
abbrev S64x512 : Shape := ⟨2, ![64, 512]⟩
abbrev S64 : Shape := ⟨1, ![64]⟩
abbrev S512x512x64 : Shape := ⟨3, ![512, 512, 64]⟩
abbrev S512x512 : Shape := ⟨2, ![512, 512]⟩
abbrev S1x512x512x64 : Shape := ⟨4, ![1, 512, 512, 64]⟩
abbrev S512x64 : Shape := ⟨2, ![512, 64]⟩
abbrev S1x512 : Shape := ⟨2, ![1, 512]⟩
abbrev S64x128x64 : Shape := ⟨3, ![64, 128, 64]⟩
abbrev S128x64 : Shape := ⟨2, ![128, 64]⟩
abbrev S1x128 : Shape := ⟨2, ![1, 128]⟩
abbrev S64x128 : Shape := ⟨2, ![64, 128]⟩
abbrev S128 : Shape := ⟨1, ![128]⟩
abbrev S_ : Shape := ⟨0, ![]⟩
abbrev S1x64 : Shape := ⟨2, ![1, 64]⟩
abbrev S1024x512 : Shape := ⟨2, ![1024, 512]⟩
abbrev S1024 : Shape := ⟨1, ![1024]⟩
abbrev S1024x1 : Shape := ⟨2, ![1024, 1]⟩
abbrev S1024x64 : Shape := ⟨2, ![1024, 64]⟩

abbrev nBuf : Space → Nat
  | .hbm => 20
  | .vmem => 21
  | .smem => 0
  | _ => 0

abbrev bufTy : (tb : Table) → Fin (tcTables nBuf tb) → BufTy
  | .hbm, ⟨0, _⟩ => ⟨S4096x512, .f32⟩
  | .hbm, ⟨1, _⟩ => ⟨S64x512, .f32⟩
  | .hbm, ⟨2, _⟩ => ⟨S64, .f32⟩
  | .hbm, ⟨3, _⟩ => ⟨S512x512x64, .f32⟩
  | .hbm, ⟨4, _⟩ => ⟨S512x512x64, .f32⟩
  | .hbm, ⟨5, _⟩ => ⟨S512x512, .f32⟩
  | .hbm, ⟨6, _⟩ => ⟨S1x512x512x64, .f32⟩
  | .hbm, ⟨7, _⟩ => ⟨S512x512x64, .f32⟩
  | .hbm, ⟨8, _⟩ => ⟨S512x64, .f32⟩
  | .hbm, ⟨9, _⟩ => ⟨S1x512, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1x64, .f32⟩
  | .hbm, ⟨15, _⟩ => ⟨S64x512, .f32⟩
  | .hbm, ⟨16, _⟩ => ⟨S_, .f32⟩
  | .hbm, ⟨17, _⟩ => ⟨S64, .f32⟩
  | .hbm, ⟨18, _⟩ => ⟨S1x64, .f32⟩
  | .hbm, ⟨19, _⟩ => ⟨S4096x512, .f32⟩
  | .local _ .vmem, ⟨0, _⟩ => ⟨S64x128x64, .f32⟩
  | .local _ .vmem, ⟨1, _⟩ => ⟨S64x128x64, .f32⟩
  | .local _ .vmem, ⟨2, _⟩ => ⟨S64x128x64, .f32⟩
  | .local _ .vmem, ⟨3, _⟩ => ⟨S64x128x64, .f32⟩
  | .local _ .vmem, ⟨4, _⟩ => ⟨S64x128x64, .f32⟩
  | .local _ .vmem, ⟨5, _⟩ => ⟨S64x128x64, .f32⟩
  | .local _ .vmem, ⟨6, _⟩ => ⟨S128x64, .f32⟩
  | .local _ .vmem, ⟨7, _⟩ => ⟨S128x64, .f32⟩
  | .local _ .vmem, ⟨8, _⟩ => ⟨S1x128, .f32⟩
  | .local _ .vmem, ⟨9, _⟩ => ⟨S1x128, .f32⟩
  | .local _ .vmem, ⟨10, _⟩ => ⟨S128x64, .f32⟩
  | .local _ .vmem, ⟨11, _⟩ => ⟨S1x128, .f32⟩
  | .local _ .vmem, ⟨12, _⟩ => ⟨S1024x512, .f32⟩
  | .local _ .vmem, ⟨13, _⟩ => ⟨S1024x512, .f32⟩
  | .local _ .vmem, ⟨14, _⟩ => ⟨S64x512, .f32⟩
  | .local _ .vmem, ⟨15, _⟩ => ⟨S1x64, .f32⟩
  | .local _ .vmem, ⟨16, _⟩ => ⟨S1x64, .f32⟩
  | .local _ .vmem, ⟨17, _⟩ => ⟨S512x64, .f32⟩
  | .local _ .vmem, ⟨18, _⟩ => ⟨S512x512, .f32⟩
  | .local _ .vmem, ⟨19, _⟩ => ⟨S1024x512, .f32⟩
  | .local _ .vmem, ⟨20, _⟩ => ⟨S1024x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg6_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v32 : BitVec 1 := Scalar.cmpi .eq arg1 c7_i32
  let v33 : BitVec 32 := Scalar.extui v32
  let c0_i32_21 : BitVec 32 := 0#32
  let v34 : BitVec 1 := Scalar.cmpi .ne v33 c0_i32_21
  v34

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S64x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1024x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S1x512x512x64_S512x512x64 : S1x512x512x64.ShapeCasts S512x512x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S64x128x64_S64x128x64_0_0_0 : ∀ a, (![0, 0, 0] : Fin 3 → Nat) a + S64x128x64.size a ≤ S64x128x64.size a
  h_S64x128x64 : 0 < S64x128x64.numel
  shapeCasts_S64x128x64_S64x128x64 : S64x128x64.ShapeCasts S64x128x64
  reduces_S64x128x64_S128x64 : S64x128x64.Reduces [0] S128x64
  reduces_S64x128x64_S64x128 : S64x128x64.Reduces [2] S64x128
  reduces_S64x128_S128 : S64x128.Reduces [0] S128
  shapeCasts_S128_S1x128 : S128.ShapeCasts S1x128
  reducesTo_S1x512_S_d0_1 : S1x512.ReducesTo [0, 1] S_
  h_S_ : 0 < S_.numel
  shapeCasts_S64_S1x64 : S64.ShapeCasts S1x64
  reducesTo_S64x512_S64_d1 : S64x512.ReducesTo [1] S64
  bcast_S64_S1x64_1 : S64.BroadcastsInDim S1x64 (![1] : Fin 1 → Fin S1x64.rank)
  inb_S1024x512_S1024x512_0_0 : ∀ a, (![0, 0] : Fin 2 → Nat) a + S1024x512.size a ≤ S1024x512.size a
  h_S1024x512 : 0 < S1024x512.numel
  inb_S64x512_S64x512_0_0 : ∀ a, (![0, 0] : Fin 2 → Nat) a + S64x512.size a ≤ S64x512.size a
  h_S64x512 : 0 < S64x512.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S512x512_S512x512_0_0 : ∀ a, (![0, 0] : Fin 2 → Nat) a + S512x512.size a ≤ S512x512.size a
  h_S512x512 : 0 < S512x512.numel
  reduces_S1024x512_S1024 : S1024x512.Reduces [1] S1024
  shapeCasts_S1024_S1024x1 : S1024.ShapeCasts S1024x1
  bitsLt_bf16_f32 : FTy.bits .bf16 < FTy.bits .f32
  broadcasts_S1024x1_S1024x64 : S1024x1.Broadcasts S1024x64
  broadcasts_S1x64_S1024x64 : S1x64.Broadcasts S1024x64
  dot_S1024x512_S64x512_S1024x64_1_1_0_0_n_n_wf : DotDims.WF S1024x512 S64x512 S1024x64 [1] [1] [0] [0] [] []
  dot_S1024x64_S512x64_S1024x512_1_1_0_0_n_n_wf : DotDims.WF S1024x64 S512x64 S1024x512 [1] [1] [0] [0] [] []
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128x64.size a ≤ S512x512x64.size a
  hwx0_0 : ∀ i : grid0.Coords, EltTy.bits .f32 = 32 ∨ (Rect.block (s := S512x512x64) S64x128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128x64.size a ≤ S512x512x64.size a
  hwx0_1 : ∀ i : grid0.Coords, EltTy.bits .f32 = 32 ∨ (Rect.block (s := S512x512x64) S64x128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x128x64.size a ≤ S512x512x64.size a
  hwx0_2 : ∀ i : grid0.Coords, EltTy.bits .f32 = 32 ∨ (Rect.block (s := S512x512x64) S64x128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S512x64.size a
  hwx0_3 : ∀ i : grid0.Coords, EltTy.bits .f32 = 32 ∨ (Rect.block (s := S512x64) S128x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x512.size a
  hwx0_4 : ∀ i : grid0.Coords, EltTy.bits .f32 = 32 ∨ (Rect.block (s := S1x512) S1x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S4096x512.size a
  hwx1_0 : ∀ i : grid1.Coords, EltTy.bits .f32 = 32 ∨ (Rect.block (s := S4096x512) S1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x512.size a ≤ S64x512.size a
  hwx1_1 : ∀ i : grid1.Coords, EltTy.bits .f32 = 32 ∨ (Rect.block (s := S64x512) S64x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x64.size a ≤ S512x64.size a
  hwx1_4 : ∀ i : grid1.Coords, EltTy.bits .f32 = 32 ∨ (Rect.block (s := S512x64) S512x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S512x512.size a
  hwx1_5 : ∀ i : grid1.Coords, EltTy.bits .f32 = 32 ∨ (Rect.block (s := S512x512) S512x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x512.size a ≤ S4096x512.size a
  hwx1_6 : ∀ i : grid1.Coords, EltTy.bits .f32 = 32 ∨ (Rect.block (s := S4096x512) S1024x512.size (cc1_transform_6 i) (hinb1_6 i)).WholeWords (EltTy.packing .f32)

variable [Facts₀]

def dot_S1024x512_S64x512_S1024x64_1_1_0_0_n_n : DotDims S1024x512 S64x512 S1024x64 where
  lhsContracting := [1]
  rhsContracting := [1]
  lhsNonContracting := [0]
  rhsNonContracting := [0]
  lhsBatch := []
  rhsBatch := []
  wf := dot_S1024x512_S64x512_S1024x64_1_1_0_0_n_n_wf
def dot_S1024x64_S512x64_S1024x512_1_1_0_0_n_n : DotDims S1024x64 S512x64 S1024x512 where
  lhsContracting := [1]
  rhsContracting := [1]
  lhsNonContracting := [0]
  rhsNonContracting := [0]
  lhsBatch := []
  rhsBatch := []
  wf := dot_S1024x64_S512x64_S1024x512_1_1_0_0_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg3) S64x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x128x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S128x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S64x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1_0) S512x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S512x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v8) S1024x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S4096x512 : Shape := ⟨2, ![4096, 512]⟩
abbrev S64x512 : Shape := ⟨2, ![64, 512]⟩
abbrev S64 : Shape := ⟨1, ![64]⟩
abbrev S512x512x64 : Shape := ⟨3, ![512, 512, 64]⟩
abbrev S512x512 : Shape := ⟨2, ![512, 512]⟩
abbrev S1x512x512x64 : Shape := ⟨4, ![1, 512, 512, 64]⟩
abbrev S4096x1x512 : Shape := ⟨3, ![4096, 1, 512]⟩
abbrev S1x64x512 : Shape := ⟨3, ![1, 64, 512]⟩
abbrev S4096x64x512 : Shape := ⟨3, ![4096, 64, 512]⟩
abbrev S_ : Shape := ⟨0, ![]⟩
abbrev S4096x64 : Shape := ⟨2, ![4096, 64]⟩
abbrev S1x64 : Shape := ⟨2, ![1, 64]⟩
abbrev S1x512x64 : Shape := ⟨3, ![1, 512, 64]⟩
abbrev S512x64 : Shape := ⟨2, ![512, 64]⟩

abbrev nBuf : Space → Nat
  | .hbm => 57
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S64x512, .f32⟩
  | .hbm, ⟨2, _⟩ => ⟨S64, .f32⟩
  | .hbm, ⟨3, _⟩ => ⟨S512x512x64, .f32⟩
  | .hbm, ⟨4, _⟩ => ⟨S512x512x64, .f32⟩
  | .hbm, ⟨5, _⟩ => ⟨S512x512, .f32⟩
  | .hbm, ⟨6, _⟩ => ⟨S1x512x512x64, .f32⟩
  | .hbm, ⟨7, _⟩ => ⟨S4096x1x512, .f32⟩
  | .hbm, ⟨8, _⟩ => ⟨S1x64x512, .f32⟩
  | .hbm, ⟨9, _⟩ => ⟨S4096x64x512, .f32⟩
  | .hbm, ⟨10, _⟩ => ⟨S4096x64x512, .f32⟩
  | .hbm, ⟨11, _⟩ => ⟨S4096x64x512, .f32⟩
  | .hbm, ⟨12, _⟩ => ⟨S4096x64x512, .f32⟩
  | .hbm, ⟨13, _⟩ => ⟨S_, .f32⟩
  | .hbm, ⟨14, _⟩ => ⟨S4096x64, .f32⟩
  | .hbm, ⟨15, _⟩ => ⟨S64, .f32⟩
  | .hbm, ⟨16, _⟩ => ⟨S4096x64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S1x64, .f32⟩
  | .hbm, ⟨25, _⟩ => ⟨S4096x64, .f32⟩
  | .hbm, ⟨26, _⟩ => ⟨S4096x64, .f32⟩
  | .hbm, ⟨27, _⟩ => ⟨S4096x64, .f32⟩
  | .hbm, ⟨28, _⟩ => ⟨S_, .f32⟩
  | .hbm, ⟨29, _⟩ => ⟨S512x512x64, .f32⟩
  | .hbm, ⟨30, _⟩ => ⟨S512x512x64, .f32⟩
  | .hbm, ⟨31, _⟩ => ⟨S512x512x64, .f32⟩
  | .hbm, ⟨32, _⟩ => ⟨S1x512x512x64, .f32⟩
  | .hbm, ⟨33, _⟩ => ⟨S1x512x512x64, .f32⟩
  | .hbm, ⟨34, _⟩ => ⟨S1x512x512x64, .f32⟩
  | .hbm, ⟨35, _⟩ => ⟨S1x512x512x64, .f32⟩
  | .hbm, ⟨36, _⟩ => ⟨S_, .f32⟩
  | .hbm, ⟨37, _⟩ => ⟨S1x512x64, .f32⟩
  | .hbm, ⟨38, _⟩ => ⟨S_, .f32⟩
  | .hbm, ⟨39, _⟩ => ⟨S512x64, .f32⟩
  | .hbm, ⟨40, _⟩ => ⟨S4096x512, .f32⟩
  | .hbm, ⟨41, _⟩ => ⟨S_, .f32⟩
  | .hbm, ⟨42, _⟩ => ⟨S4096x512, .f32⟩
  | .hbm, ⟨43, _⟩ => ⟨S4096x512, .f32⟩
  | .hbm, ⟨44, _⟩ => ⟨S4096x512, .f32⟩
  | .hbm, ⟨45, _⟩ => ⟨S4096x512, .f32⟩
  | .hbm, ⟨46, _⟩ => ⟨S512x512x64, .f32⟩
  | .hbm, ⟨47, _⟩ => ⟨S512x512x64, .f32⟩
  | .hbm, ⟨48, _⟩ => ⟨S512x512x64, .f32⟩
  | .hbm, ⟨49, _⟩ => ⟨S_, .f32⟩
  | .hbm, ⟨50, _⟩ => ⟨S512x512x64, .f32⟩
  | .hbm, ⟨51, _⟩ => ⟨S512x512x64, .f32⟩
  | .hbm, ⟨52, _⟩ => ⟨S512x512x64, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩

abbrev nD : Nat := 1
abbrev τ : Topo := Topo.v7x

variable {F : FTy → Type} [FloatOps F]

class Facts₀ : Prop where
  bcast_S4096x512_S4096x1x512_0_2 : S4096x512.BroadcastsInDim S4096x1x512 (![0, 2] : Fin 2 → Fin S4096x1x512.rank)
  bcast_S64x512_S1x64x512_1_2 : S64x512.BroadcastsInDim S1x64x512 (![1, 2] : Fin 2 → Fin S1x64x512.rank)
  bcast_S4096x1x512_S4096x64x512_0_1_2 : S4096x1x512.BroadcastsInDim S4096x64x512 (![0, 1, 2] : Fin 3 → Fin S4096x64x512.rank)
  bcast_S1x64x512_S4096x64x512_0_1_2 : S1x64x512.BroadcastsInDim S4096x64x512 (![0, 1, 2] : Fin 3 → Fin S4096x64x512.rank)
  reducesTo_S4096x64x512_S4096x64_d2 : S4096x64x512.ReducesTo [2] S4096x64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S_S512x512x64 : S_.BroadcastsInDim S512x512x64 (![] : Fin 0 → Fin S512x512x64.rank)
  bcast_S512x512x64_S1x512x512x64_1_2_3 : S512x512x64.BroadcastsInDim S1x512x512x64 (![1, 2, 3] : Fin 3 → Fin S1x512x512x64.rank)
  reducesTo_S1x512x512x64_S1x512x64_d1 : S1x512x512x64.ReducesTo [1] S1x512x64
  reducesTo_S1x512x64_S512x64_d0 : S1x512x64.ReducesTo [0] S512x64
  bcast_S_S4096x512 : S_.BroadcastsInDim S4096x512 (![] : Fin 0 → Fin S4096x512.rank)
  reducesTo_S512x512x64_S_d0_1_2 : S512x512x64.ReducesTo [0, 1, 2] S_
  dot_S4096x64_S512x64_S4096x512_1_1_0_0_n_n_wf : DotDims.WF S4096x64 S512x64 S4096x512 [1] [1] [0] [0] [] []
  dot_S4096x512_S512x512_S4096x512_1_0_0_1_n_n_wf : DotDims.WF S4096x512 S512x512 S4096x512 [1] [0] [0] [1] [] []

variable [Facts₀]

def dot_S4096x64_S512x64_S4096x512_1_1_0_0_n_n : DotDims S4096x64 S512x64 S4096x512 where
  lhsContracting := [1]
  rhsContracting := [1]
  lhsNonContracting := [0]
  rhsNonContracting := [0]
  lhsBatch := []
  rhsBatch := []
  wf := dot_S4096x64_S512x64_S4096x512_1_1_0_0_n_n_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf

class Facts : Prop extends Facts₀ where

variable [Facts]
-- ==== Proof.KernelR0.lean ====
import proofs.«149921_j80719615361567_1_alg».proof.Proof.Gen.Kernel.Launch
import proofs.«149921_j80719615361567_1_alg».proof.Proof.Gen.Kernel.Skeleton
import proofs.«149921_j80719615361567_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The first kernel region: the sampled coefficients summed over the input features, and the divergence's partial sums

The grid is 4 × 8: coordinate 0 picks a run of 128 output features, coordinate 1 a run of 64 input features. The body
keeps two accumulators in scratch: it clears them where coordinate 1 is 0, adds this point's partial sums to them, and
copies them to the two output blocks where coordinate 1 is 7. Everything is stated at a parameter `V`: the buffer
contents when the region is entered. -/

/-- "This is the first run of input features": the body's first branch condition, as it computes it. -/
abbrev condFirst (i : grid0.Coords) : Prop := (Scalar.cmpi .ne (Scalar.extui (Scalar.cmpi .eq (BitVec.ofNat 32 (i 1).val) 0#32)) 0#32) = 1#1
/-- "This is the last run of input features": the body's second branch condition. -/
abbrev condLast (i : grid0.Coords) : Prop := k0_cond2 i = 1#1

theorem hcondFirst : ∀ t : Fin cfg0.N, condFirst (grid0.coords t) ↔ t.val % 8 = 0 :=
  (by decide +kernel : ∀ t : Fin grid0.N, condFirst (grid0.coords t) ↔ t.val % 8 = 0)
theorem hcondLast : ∀ t : Fin cfg0.N, condLast (grid0.coords t) ↔ t.val % 8 = 7 :=
  (by decide +kernel : ∀ t : Fin grid0.N, condLast (grid0.coords t) ↔ t.val % 8 = 7)

theorem hz2 : (![0, 0] : Fin 2 → Nat) = fun _ => 0 := by funext a; fin_cases a <;> rfl
theorem hz3 : (![0, 0, 0] : Fin 3 → Nat) = fun _ => 0 := by funext a; fin_cases a <;> rfl

/-- The whole-shape rectangle at zero offsets holds every index. -/
theorem mem_unit_zero {S : Shape} {off : Fin S.rank → Nat} (h : off = fun _ => 0) (inb : ∀ a, off a + S.size a ≤ S.size a) (y : S.Idx) :
    y ∈ (Rect.unit off S.size inb).set := by
  subst h; show y ∈ (Rect.whole S).set; rw [Rect.set_whole]; exact Finset.mem_univ y

/-- A list of stores whose LAST store is over the whole accumulator covers it. -/
theorem coverC (p0 : Vec F S128x64 .f32) (L : List (View.Piece (Elt F) S128x64 .f32)) (y : S128x64.Idx) :
    ∃ pc ∈ ((⟨Rect.unit (s := S128x64) ![0, 0] S128x64.size inb_S128x64_S128x64_0_0, p0⟩ : View.Piece (Elt F) S128x64 .f32) :: L), y ∈ pc.1.set :=
  ⟨_, List.mem_cons_self, mem_unit_zero hz2 inb_S128x64_S128x64_0_0 y⟩
theorem coverK (p0 : Vec F S1x128 .f32) (L : List (View.Piece (Elt F) S1x128 .f32)) (y : S1x128.Idx) :
    ∃ pc ∈ ((⟨Rect.unit (s := S1x128) ![0, 0] S1x128.size inb_S1x128_S1x128_0_0, p0⟩ : View.Piece (Elt F) S1x128 .f32) :: L), y ∈ pc.1.set :=
  ⟨_, List.mem_cons_self, mem_unit_zero hz2 inb_S1x128_S1x128_0_0 y⟩

set_option maxHeartbeats 2000000 in
/-- A point that neither clears nor copies out: both accumulators take this point's partial sums; the two output
    blocks come back untouched. -/
theorem bodyMid (c : Dev nD) (E : Set ℕ) (i : grid0.Coords) (a2 : Memref sig .tc .vmem S64x128x64 .f32) (h2 : a2.IsWhole) (a3 : Memref sig .tc .vmem S64x128x64 .f32) (h3 : a3.IsWhole) (a4 : Memref sig .tc .vmem S64x128x64 .f32) (h4 : a4.IsWhole) (a5 : Memref sig .tc .vmem S128x64 .f32) (h5 : a5.IsWhole) (a6 : Memref sig .tc .vmem S1x128 .f32) (h6 : a6.IsWhole) (a7 : Memref sig .tc .vmem S128x64 .f32) (h7 : a7.IsWhole) (a8 : Memref sig .tc .vmem S1x128 .f32) (h8 : a8.IsWhole)
    (hc0 : ¬condFirst i) (hc1 : ¬condLast i)
    (x0 x1 x2 : Vec F S64x128x64 .f32) (y5 : Vec F S128x64 .f32) (y6 : Vec F S1x128 .f32) (s0 : Vec F S128x64 .f32) (s1 : Vec F S1x128 .f32)
    (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare y5 ∗ owns (c : Thread nD τ) a6 fullShare y6 ∗ owns (c : Thread nD τ) a7 fullShare s0 ∗ owns (c : Thread nD τ) a8 fullShare s1
        ∗ (iprop(owns (c : Thread nD τ) a2 fullShare x0 ∗ owns (c : Thread nD τ) a3 fullShare x1 ∗ owns (c : Thread nD τ) a4 fullShare x2 ∗ owns (c : Thread nD τ) a5 fullShare y5 ∗ owns (c : Thread nD τ) a6 fullShare y6
            ∗ owns (c : Thread nD τ) a7 fullShare (k0_pay3 x0 x1 x2 s0) ∗ owns (c : Thread nD τ) a8 fullShare (k0_pay4 x0 x1 s1)) -∗ K ⟨⟩))
      ⊢ wp frame (wpE (defs₀ (F := F)) Variants.none c none) E (cc0__coeff_kernel i a2 h2 a3 h3 a4 h4 a5 h5 a6 h6 a7 h7 a8 h8) K := by
  simp only [cc0__coeff_kernel_eq_skeleton]; unfold cc0__coeff_kernel_skel
  unfold owns
  iintro ⟨⟨%f0, %hf0, H0⟩, ⟨%f1, %hf1, H1⟩, ⟨%f2, %hf2, H2⟩, ⟨%f5, %hf5, H5⟩, ⟨%f6, %hf6, H6⟩, ⟨%f7, %hf7, H7⟩, ⟨%f8, %hf8, H8⟩, Hk⟩
  subst hf0; subst hf1; subst hf2; subst hf5; subst hf6; subst hf7; subst hf8
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_words
    rw [View.read_writes_eq_canon _ _ _ (coverC _ _), View.canon_unit_zero hz2]
    simp only [View.readAt_eq_ld, View.ld_unit_zero (S := S64x128x64) hz3, View.ld_unit_zero (S := S128x64) hz2]
  iexists _; isplitr
  swap; · iexact H8
  ipureintro
  sl_unfold_words
  rw [View.read_writes_eq_canon _ _ _ (coverK _ _), View.canon_unit_zero hz2]
  simp only [View.readAt_eq_ld, View.ld_unit_zero (S := S64x128x64) hz3, View.ld_unit_zero (S := S1x128) hz2]

set_option maxHeartbeats 2000000 in
/-- A point that clears: whatever the accumulators held, they end at this point's partial sums over zero; the two
    output blocks come back untouched. -/
theorem bodyFirst (c : Dev nD) (E : Set ℕ) (i : grid0.Coords) (a2 : Memref sig .tc .vmem S64x128x64 .f32) (h2 : a2.IsWhole) (a3 : Memref sig .tc .vmem S64x128x64 .f32) (h3 : a3.IsWhole) (a4 : Memref sig .tc .vmem S64x128x64 .f32) (h4 : a4.IsWhole) (a5 : Memref sig .tc .vmem S128x64 .f32) (h5 : a5.IsWhole) (a6 : Memref sig .tc .vmem S1x128 .f32) (h6 : a6.IsWhole) (a7 : Memref sig .tc .vmem S128x64 .f32) (h7 : a7.IsWhole) (a8 : Memref sig .tc .vmem S1x128 .f32) (h8 : a8.IsWhole)
    (hc0 : condFirst i) (hc1 : ¬condLast i)
    (x0 x1 x2 : Vec F S64x128x64 .f32) (y5 : Vec F S128x64 .f32) (y6 : Vec F S1x128 .f32)
    (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare y5 ∗ owns (c : Thread nD τ) a6 fullShare y6 ∗ (∃ d, owns (c : Thread nD τ) a7 fullShare d) ∗ (∃ d, owns (c : Thread nD τ) a8 fullShare d)
        ∗ (iprop(owns (c : Thread nD τ) a2 fullShare x0 ∗ owns (c : Thread nD τ) a3 fullShare x1 ∗ owns (c : Thread nD τ) a4 fullShare x2 ∗ owns (c : Thread nD τ) a5 fullShare y5 ∗ owns (c : Thread nD τ) a6 fullShare y6
            ∗ owns (c : Thread nD τ) a7 fullShare (k0_pay3 x0 x1 x2 k0_pay1) ∗ owns (c : Thread nD τ) a8 fullShare (k0_pay4 x0 x1 k0_pay2)) -∗ K ⟨⟩))
      ⊢ wp frame (wpE (defs₀ (F := F)) Variants.none c none) E (cc0__coeff_kernel i a2 h2 a3 h3 a4 h4 a5 h5 a6 h6 a7 h7 a8 h8) K := by
  simp only [cc0__coeff_kernel_eq_skeleton]; unfold cc0__coeff_kernel_skel
  unfold owns
  iintro ⟨⟨%f0, %hf0, H0⟩, ⟨%f1, %hf1, H1⟩, ⟨%f2, %hf2, H2⟩, ⟨%f5, %hf5, H5⟩, ⟨%f6, %hf6, H6⟩, ⟨%d7, %f7, -, H7⟩, ⟨%d8, %f8, -, H8⟩, Hk⟩
  subst hf0; subst hf1; subst hf2; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_words
    rw [View.read_writes_eq_canon _ _ _ (coverC _ _), View.canon_cons_unit_zero hz2]
    simp only [View.readAt_eq_ld, View.ld_unit_zero (S := S64x128x64) hz3, View.ld_unit_zero (S := S128x64) hz2, View.ld_unit_zero (S := S1x128) hz2,
      View.readCov_unit_zero (S := S128x64) _ hz2, View.readCov_unit_zero (S := S1x128) _ hz2]
  iexists _; isplitr
  swap; · iexact H8
  ipureintro
  sl_unfold_words
  rw [View.read_writes_eq_canon _ _ _ (coverK _ _), View.canon_cons_unit_zero hz2]
  simp only [View.readAt_eq_ld, View.ld_unit_zero (S := S64x128x64) hz3, View.ld_unit_zero (S := S128x64) hz2, View.ld_unit_zero (S := S1x128) hz2,
      View.readCov_unit_zero (S := S128x64) _ hz2, View.readCov_unit_zero (S := S1x128) _ hz2]

set_option maxHeartbeats 2000000 in
/-- A point that copies out: the accumulators take this point's partial sums, and the two output blocks end holding
    the accumulators' new contents. -/
theorem bodyLast (c : Dev nD) (E : Set ℕ) (i : grid0.Coords) (a2 : Memref sig .tc .vmem S64x128x64 .f32) (h2 : a2.IsWhole) (a3 : Memref sig .tc .vmem S64x128x64 .f32) (h3 : a3.IsWhole) (a4 : Memref sig .tc .vmem S64x128x64 .f32) (h4 : a4.IsWhole) (a5 : Memref sig .tc .vmem S128x64 .f32) (h5 : a5.IsWhole) (a6 : Memref sig .tc .vmem S1x128 .f32) (h6 : a6.IsWhole) (a7 : Memref sig .tc .vmem S128x64 .f32) (h7 : a7.IsWhole) (a8 : Memref sig .tc .vmem S1x128 .f32) (h8 : a8.IsWhole)
    (hc0 : ¬condFirst i) (hc1 : condLast i)
    (x0 x1 x2 : Vec F S64x128x64 .f32) (s0 : Vec F S128x64 .f32) (s1 : Vec F S1x128 .f32)
    (K : PUnit → sProp 𝕄) :
    iprop(owns (c : Thread nD τ) a2 fullShare x0 ∗ owns (c : Thread nD τ) a3 fullShare x1 ∗ owns (c : Thread nD τ) a4 fullShare x2 ∗ (∃ d, owns (c : Thread nD τ) a5 fullShare d) ∗ (∃ d, owns (c : Thread nD τ) a6 fullShare d) ∗ owns (c : Thread nD τ) a7 fullShare s0 ∗ owns (c : Thread nD τ) a8 fullShare s1
        ∗ (iprop(owns (c : Thread nD τ) a2 fullShare x0 ∗ owns (c : Thread nD τ) a3 fullShare x1 ∗ owns (c : Thread nD τ) a4 fullShare x2 ∗ owns (c : Thread nD τ) a5 fullShare (k0_pay3 x0 x1 x2 s0) ∗ owns (c : Thread nD τ) a6 fullShare (k0_pay4 x0 x1 s1)
            ∗ owns (c : Thread nD τ) a7 fullShare (k0_pay3 x0 x1 x2 s0) ∗ owns (c : Thread nD τ) a8 fullShare (k0_pay4 x0 x1 s1)) -∗ K ⟨⟩))
      ⊢ wp frame (wpE (defs₀ (F := F)) Variants.none c none) E (cc0__coeff_kernel i a2 h2 a3 h3 a4 h4 a5 h5 a6 h6 a7 h7 a8 h8) K := by
  simp only [cc0__coeff_kernel_eq_skeleton]; unfold cc0__coeff_kernel_skel
  unfold owns
  iintro ⟨⟨%f0, %hf0, H0⟩, ⟨%f1, %hf1, H1⟩, ⟨%f2, %hf2, H2⟩, ⟨%d5, %f5, -, H5⟩, ⟨%d6, %f6, -, H6⟩, ⟨%f7, %hf7, H7⟩, ⟨%f8, %hf8, H8⟩, Hk⟩
  subst hf0; subst hf1; subst hf2; subst hf7; subst hf8
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    sl_unfold_words
    rw [View.read_writes_eq_canon _ _ _ (coverC _ _), View.canon_unit_zero hz2]
    simp only [View.readAt_eq_ld, View.ld_unit_zero (S := S64x128x64) hz3, View.ld_unit_zero (S := S128x64) hz2, View.ld_unit_zero (S := S1x128) hz2,
      View.readCov_unit_zero (S := S128x64) _ hz2, View.readCov_unit_zero (S := S1x128) _ hz2]
  isplitl [H6]
  · iexists _; isplitr
    swap; · iexact H6
    ipureintro
    sl_unfold_words
    rw [View.read_writes_eq_canon _ _ _ (coverK _ _), View.canon_unit_zero hz2]
    simp only [View.readAt_eq_ld, View.ld_unit_zero (S := S64x128x64) hz3, View.ld_unit_zero (S := S128x64) hz2, View.ld_unit_zero (S := S1x128) hz2,
      View.readCov_unit_zero (S := S128x64) _ hz2, View.readCov_unit_zero (S := S1x128) _ hz2]
  isplitl [H7]
  · iexists _; isplitr
    swap; · iexact H7
    ipureintro
    sl_unfold_words
    rw [View.read_writes_eq_canon _ _ _ (coverC _ _), View.canon_unit_zero hz2]
    simp only [View.readAt_eq_ld, View.ld_unit_zero (S := S64x128x64) hz3, View.ld_unit_zero (S := S128x64) hz2, View.ld_unit_zero (S := S1x128) hz2,
      View.readCov_unit_zero (S := S128x64) _ hz2, View.readCov_unit_zero (S := S1x128) _ hz2]
  iexists _; isplitr
  swap; · iexact H8
  ipureintro
  sl_unfold_words
  rw [View.read_writes_eq_canon _ _ _ (coverK _ _), View.canon_unit_zero hz2]
  simp only [View.readAt_eq_ld, View.ld_unit_zero (S := S64x128x64) hz3, View.ld_unit_zero (S := S128x64) hz2, View.ld_unit_zero (S := S1x128) hz2,
      View.readCov_unit_zero (S := S128x64) _ hz2, View.readCov_unit_zero (S := S1x128) _ hz2]

/-! ## The windows' blocks, and what the accumulators hold after each point -/

variable (V : (c : Dev nD) → (b : Ref sig .tc) → Buf (Elt F) ((c : Thread nD τ).loc b))

/-- Window `w`'s block at grid point `t`, cut out of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point. -/
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The two accumulators after grid point `n` (points in row-major order, eight per run of output features): at the
    first point of a run, this point's partial sums over zero; otherwise this point's partial sums over what the point
    before left. -/
def accAt (c : Dev nD) : (n : ℕ) → n < cfg0.N → Vec F S128x64 .f32 × Vec F S1x128 .f32
  | 0, hn => (k0_pay3 (iblk V c 0 ⟨0, hn⟩) (iblk V c 1 ⟨0, hn⟩) (iblk V c 2 ⟨0, hn⟩) k0_pay1,
              k0_pay4 (iblk V c 0 ⟨0, hn⟩) (iblk V c 1 ⟨0, hn⟩) k0_pay2)
  | n + 1, hn =>
    if (n + 1) % 8 = 0 then
      (k0_pay3 (iblk V c 0 ⟨n + 1, hn⟩) (iblk V c 1 ⟨n + 1, hn⟩) (iblk V c 2 ⟨n + 1, hn⟩) k0_pay1,
       k0_pay4 (iblk V c 0 ⟨n + 1, hn⟩) (iblk V c 1 ⟨n + 1, hn⟩) k0_pay2)
    else
      (k0_pay3 (iblk V c 0 ⟨n + 1, hn⟩) (iblk V c 1 ⟨n + 1, hn⟩) (iblk V c 2 ⟨n + 1, hn⟩) (accAt c n (Nat.lt_of_succ_lt hn)).1,
       k0_pay4 (iblk V c 0 ⟨n + 1, hn⟩) (iblk V c 1 ⟨n + 1, hn⟩) (accAt c n (Nat.lt_of_succ_lt hn)).2)

/-- At the first point of a run of output features. -/
theorem accAt_first (c : Dev nD) (t : Fin cfg0.N) (h0 : t.val % 8 = 0) :
    accAt V c t.val t.isLt = (k0_pay3 (iblk V c 0 t) (iblk V c 1 t) (iblk V c 2 t) k0_pay1, k0_pay4 (iblk V c 0 t) (iblk V c 1 t) k0_pay2) := by
  obtain ⟨n, hn⟩ := t
  cases n with
  | zero => rfl
  | succ n => exact (if_pos h0)

/-- At any other point: over what the point before left. -/
theorem accAt_next (c : Dev nD) (t : Fin cfg0.N) (h0 : ¬t.val % 8 = 0) :
    accAt V c t.val t.isLt
      = (k0_pay3 (iblk V c 0 t) (iblk V c 1 t) (iblk V c 2 t) (accAt V c (t.val - 1) (Nat.lt_of_le_of_lt (Nat.sub_le _ _) t.isLt)).1,
         k0_pay4 (iblk V c 0 t) (iblk V c 1 t) (accAt V c (t.val - 1) (Nat.lt_of_le_of_lt (Nat.sub_le _ _) t.isLt)).2) := by
  obtain ⟨n, hn⟩ := t
  cases n with
  | zero => exact absurd (Nat.zero_mod _) h0
  | succ n => exact (if_neg h0)

/-! ## The invariant between points -/

abbrev scC : Memref sig .tc .vmem S128x64 .f32 := Memref.whole cc0_scratch0
abbrev scK : Memref sig .tc .vmem S1x128 .f32 := Memref.whole cc0_scratch1

/-- The scoped buffers this region neither stages nor uses as scratch, each whole at some contents. -/
def rest (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- What the launch hands the region between points, with the two scratch accumulators split out. -/
theorem PhiA_eq (c : Dev nD) :
    (Pipeline.ΦA spec0 c : sProp 𝕄)
      = iprop(iprop((∃ d, owns (c : Thread nD τ) scC fullShare d) ∗ (∃ d, owns (c : Thread nD τ) scK fullShare d) ∗ rest c) ∗ (∃ r, prngReg c r)) := by
  unfold Pipeline.ΦA rest; rw [scopedRest0_eq]; simp only [scC, scK, owns_whole]; try rfl

/-- Before the first point: the launch's own invariant (the accumulators hold anything). After point `n`: the
    accumulators hold `accAt n`. -/
def Phi (c : Dev nD) : (n : ℕ) → n ≤ cfg0.N → sProp 𝕄
  | 0, _ => Pipeline.ΦA spec0 c
  | n + 1, hn => iprop(iprop(owns (c : Thread nD τ) scC fullShare (accAt V c n hn).1 ∗ owns (c : Thread nD τ) scK fullShare (accAt V c n hn).2 ∗ rest c) ∗ (∃ r, prngReg c r))

theorem Phi_zero (c : Dev nD) (n : ℕ) (h : n ≤ cfg0.N) (hz : n = 0) : Phi V c n h = Pipeline.ΦA spec0 c := by
  subst hz; rfl
theorem Phi_succ (c : Dev nD) (n : ℕ) (hn : n < cfg0.N) :
    Phi V c (n + 1) hn = iprop(iprop(owns (c : Thread nD τ) scC fullShare (accAt V c n hn).1 ∗ owns (c : Thread nD τ) scK fullShare (accAt V c n hn).2 ∗ rest c) ∗ (∃ r, prngReg c r)) := rfl
theorem Phi_pos (c : Dev nD) (n : ℕ) (h : n ≤ cfg0.N) (hz : n ≠ 0) :
    Phi V c n h = iprop(iprop(owns (c : Thread nD τ) scC fullShare (accAt V c (n - 1) (by omega)).1 ∗ owns (c : Thread nD τ) scK fullShare (accAt V c (n - 1) (by omega)).2 ∗ rest c) ∗ (∃ r, prngReg c r)) := by
  cases n with
  | zero => exact absurd rfl hz
  | succ n => rfl

/-! ## The proof data -/

/-- Region 0's proof data on core `c`: inputs left in place; each output block, where it is written, the matching
    accumulator; the invariant `Phi`; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => (accAt V c t.val t.isLt).1
    | ⟨4, _⟩ => (accAt V c t.val t.isLt).2
  Φ t := Phi V c t.val (Nat.le_of_lt_succ t.isLt)
  q _ := fullShare
  owed _ := 0

theorem A_eq (c : Dev nD) (w : Fin cfg0.W) : (dat V c).A w = V c (Pipeline.arrRef spec0 w) := by
  dsimp only [dat]
theorem Phi_castSucc (c : Dev nD) (t : Fin cfg0.N) : (dat V c).Φ t.castSucc = Phi V c t.val (Nat.le_of_lt t.isLt) := by
  dsimp only [dat]; simp only [Fin.coe_castSucc]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = (accAt V c t.val t.isLt).1 := by dsimp only [dat]
theorem after_4 (c : Dev nD) (t : Fin cfg0.N) : (dat V c).after 4 t = (accAt V c t.val t.isLt).2 := by dsimp only [dat]
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem idle_3 : ∀ t : Fin cfg0.N, ¬condLast (grid0.coords t) → cfg0.idle 3 (grid0.coords t) = true := by decide +kernel
theorem noFlush_3 : ∀ t : Fin cfg0.N, ¬condLast (grid0.coords t) → (cfg0.win 3).flush t = false := by decide +kernel
theorem live_3 : ∀ t : Fin cfg0.N, condLast (grid0.coords t) → cfg0.idle 3 (grid0.coords t) = false := by decide +kernel
theorem idle_4 : ∀ t : Fin cfg0.N, ¬condLast (grid0.coords t) → cfg0.idle 4 (grid0.coords t) = true := by decide +kernel
theorem noFlush_4 : ∀ t : Fin cfg0.N, ¬condLast (grid0.coords t) → (cfg0.win 4).flush t = false := by decide +kernel
theorem live_4 : ∀ t : Fin cfg0.N, condLast (grid0.coords t) → cfg0.idle 4 (grid0.coords t) = false := by decide +kernel

end Cert.Kernel.R0

end
-- ==== Proof.KernelR0Body.lean ====
import proofs.«149921_j80719615361567_1_alg».proof.Proof.Gen.Kernel.Launch
import proofs.«149921_j80719615361567_1_alg».proof.Proof.Gen.Kernel.Skeleton
import proofs.«149921_j80719615361567_1_alg».proof.Proof.Gen.Kernel.Points
import proofs.«149921_j80719615361567_1_alg».proof.Proof.KernelR0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The first kernel region's body obligation

At every grid point the body is handed the invariant (the two accumulators at what the point before left, or at
anything before a run's first point), the three input blocks, and the two output blocks' staging buffers; which of the
three runs of the body applies is decided by the point's position in its run of eight. -/

variable (V : (c : Dev nD) → (b : Ref sig .tc) → Buf (Elt F) ((c : Thread nD τ).loc b))

/-- What the body is handed at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- and what it hands back. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl]
  rw [show (dat V c).Φ t.succ = Phi V c (t.val + 1) t.isLt from rfl, Phi_succ]
  have hN : t.val < 32 := lt_of_lt_of_eq t.isLt (show cfg0.N = 32 from N_0)
  by_cases h0 : t.val % 8 = 0
  · -- a run's first point: the accumulators are cleared first
    have hl : ¬condLast (grid0.coords t) := fun h => by have := (hcondLast t).mp h; omega
    rw [show (dat V c).leavesExact 0 t = owns (c : Thread nD τ) (st0_0 t) fullShare ((dat V c).after 0 t) from by
      unfold Dat.leavesExact; rw [live_0 t], after_0]
    rw [show (dat V c).leavesExact 1 t = owns (c : Thread nD τ) (st0_1 t) fullShare ((dat V c).after 1 t) from by
      unfold Dat.leavesExact; rw [live_1 t], after_1]
    rw [show (dat V c).leavesExact 2 t = owns (c : Thread nD τ) (st0_2 t) fullShare ((dat V c).after 2 t) from by
      unfold Dat.leavesExact; rw [live_2 t], after_2]
    rw [Dat.leavesExact_idle (dat V c) 3 t (idle_3 t hl) (noFlush_3 t hl)]
    rw [Dat.leavesExact_idle (dat V c) 4 t (idle_4 t hl) (noFlush_4 t hl)]
    rw [accAt_first V c t h0]
    by_cases hz : t.val = 0
    · rw [Phi_castSucc V c t, Phi_zero V c _ _ hz, PhiA_eq]
      iintro ⟨⟨⟨HC, HK, HR⟩, Hg⟩, Ho, ⟨%d0, H0⟩, ⟨%d1, H1⟩, ⟨%d2, H2⟩, ⟨%d3, H3⟩, ⟨%d4, H4⟩⟩
      iapply (bodyFirst c Set.univ (grid0.coords t) _ _ _ _ _ _ _ _ _ _ _ _ _ _ ((hcondFirst t).mpr h0) hl (iblk V c 0 t) (iblk V c 1 t) (iblk V c 2 t) _ _ _)
      isplitl [H0]; · iexact H0
      isplitl [H1]; · iexact H1
      isplitl [H2]; · iexact H2
      isplitl [H3]; · iexact H3
      isplitl [H4]; · iexact H4
      isplitl [HC]; · iexact HC
      isplitl [HK]; · iexact HK
      iintro ⟨H0, H1, H2, H3, H4, HC, HK⟩
      isplitl [HC HK HR Hg]
      · isplitl [HC HK HR]
        · isplitl [HC]; · iexact HC
          isplitl [HK]; · iexact HK
          iexact HR
        iexact Hg
      isplitl [Ho]; · iexact Ho
      isplitl [H0]; · iexact H0
      isplitl [H1]; · iexact H1
      isplitl [H2]; · iexact H2
      isplitl [H3]; · iexists _; iexact H3
      iexists _; iexact H4
    · rw [Phi_castSucc V c t, Phi_pos V c _ _ hz]
      iintro ⟨⟨⟨HC, HK, HR⟩, Hg⟩, Ho, ⟨%d0, H0⟩, ⟨%d1, H1⟩, ⟨%d2, H2⟩, ⟨%d3, H3⟩, ⟨%d4, H4⟩⟩
      iapply (bodyFirst c Set.univ (grid0.coords t) _ _ _ _ _ _ _ _ _ _ _ _ _ _ ((hcondFirst t).mpr h0) hl (iblk V c 0 t) (iblk V c 1 t) (iblk V c 2 t) _ _ _)
      isplitl [H0]; · iexact H0
      isplitl [H1]; · iexact H1
      isplitl [H2]; · iexact H2
      isplitl [H3]; · iexact H3
      isplitl [H4]; · iexact H4
      isplitl [HC]; · iexists _; iexact HC
      isplitl [HK]; · iexists _; iexact HK
      iintro ⟨H0, H1, H2, H3, H4, HC, HK⟩
      isplitl [HC HK HR Hg]
      · isplitl [HC HK HR]
        · isplitl [HC]; · iexact HC
          isplitl [HK]; · iexact HK
          iexact HR
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun h => h0 (by rw [h])
    have hf : ¬condFirst (grid0.coords t) := fun h => h0 ((hcondFirst t).mp h)
    by_cases h1 : t.val % 8 = 7
    · -- a run's last point: the accumulators are copied out
      have hl : condLast (grid0.coords t) := (hcondLast t).mpr h1
      rw [show (dat V c).leavesExact 0 t = owns (c : Thread nD τ) (st0_0 t) fullShare ((dat V c).after 0 t) from by
        unfold Dat.leavesExact; rw [live_0 t], after_0]
      rw [show (dat V c).leavesExact 1 t = owns (c : Thread nD τ) (st0_1 t) fullShare ((dat V c).after 1 t) from by
        unfold Dat.leavesExact; rw [live_1 t], after_1]
      rw [show (dat V c).leavesExact 2 t = owns (c : Thread nD τ) (st0_2 t) fullShare ((dat V c).after 2 t) from by
        unfold Dat.leavesExact; rw [live_2 t], after_2]
      rw [show (dat V c).leavesExact 3 t = owns (c : Thread nD τ) (st0_3 t) fullShare ((dat V c).after 3 t) from by
        unfold Dat.leavesExact; rw [live_3 t hl], after_3]
      rw [show (dat V c).leavesExact 4 t = owns (c : Thread nD τ) (st0_4 t) fullShare ((dat V c).after 4 t) from by
        unfold Dat.leavesExact; rw [live_4 t hl], after_4]
      rw [accAt_next V c t h0]
      rw [Phi_castSucc V c t, Phi_pos V c _ _ hz]
      iintro ⟨⟨⟨HC, HK, HR⟩, Hg⟩, Ho, ⟨%d0, H0⟩, ⟨%d1, H1⟩, ⟨%d2, H2⟩, ⟨%d3, H3⟩, ⟨%d4, H4⟩⟩
      iapply (bodyLast c Set.univ (grid0.coords t) _ _ _ _ _ _ _ _ _ _ _ _ _ _ hf hl (iblk V c 0 t) (iblk V c 1 t) (iblk V c 2 t) _ _ _)
      isplitl [H0]; · iexact H0
      isplitl [H1]; · iexact H1
      isplitl [H2]; · iexact H2
      isplitl [H3]; · iexists _; iexact H3
      isplitl [H4]; · iexists _; iexact H4
      isplitl [HC]; · iexact HC
      isplitl [HK]; · iexact HK
      iintro ⟨H0, H1, H2, H3, H4, HC, HK⟩
      isplitl [HC HK HR Hg]
      · isplitl [HC HK HR]
        · isplitl [HC]; · iexact HC
          isplitl [HK]; · iexact HK
          iexact HR
        iexact Hg
      isplitl [Ho]; · iexact Ho
      isplitl [H0]; · iexact H0
      isplitl [H1]; · iexact H1
      isplitl [H2]; · iexact H2
      isplitl [H3]; · iexact H3
      iexact H4
    · -- a point inside a run
      have hl : ¬condLast (grid0.coords t) := fun h => h1 ((hcondLast t).mp h)
      rw [show (dat V c).leavesExact 0 t = owns (c : Thread nD τ) (st0_0 t) fullShare ((dat V c).after 0 t) from by
        unfold Dat.leavesExact; rw [live_0 t], after_0]
      rw [show (dat V c).leavesExact 1 t = owns (c : Thread nD τ) (st0_1 t) fullShare ((dat V c).after 1 t) from by
        unfold Dat.leavesExact; rw [live_1 t], after_1]
      rw [show (dat V c).leavesExact 2 t = owns (c : Thread nD τ) (st0_2 t) fullShare ((dat V c).after 2 t) from by
        unfold Dat.leavesExact; rw [live_2 t], after_2]
      rw [Dat.leavesExact_idle (dat V c) 3 t (idle_3 t hl) (noFlush_3 t hl)]
      rw [Dat.leavesExact_idle (dat V c) 4 t (idle_4 t hl) (noFlush_4 t hl)]
      rw [accAt_next V c t h0]
      rw [Phi_castSucc V c t, Phi_pos V c _ _ hz]
      iintro ⟨⟨⟨HC, HK, HR⟩, Hg⟩, Ho, ⟨%d0, H0⟩, ⟨%d1, H1⟩, ⟨%d2, H2⟩, ⟨%d3, H3⟩, ⟨%d4, H4⟩⟩
      iapply (bodyMid c Set.univ (grid0.coords t) _ _ _ _ _ _ _ _ _ _ _ _ _ _ hf hl (iblk V c 0 t) (iblk V c 1 t) (iblk V c 2 t) _ _ _ _ _)
      isplitl [H0]; · iexact H0
      isplitl [H1]; · iexact H1
      isplitl [H2]; · iexact H2
      isplitl [H3]; · iexact H3
      isplitl [H4]; · iexact H4
      isplitl [HC]; · iexact HC
      isplitl [HK]; · iexact HK
      iintro ⟨H0, H1, H2, H3, H4, HC, HK⟩
      isplitl [HC HK HR Hg]
      · isplitl [HC HK HR]
        · isplitl [HC]; · iexact HC
          isplitl [HK]; · iexact HK
          iexact HR
        iexact Hg
      isplitl [Ho]; · iexact Ho
      isplitl [H0]; · iexact H0
      isplitl [H1]; · iexact H1
      isplitl [H2]; · iexact H2
      isplitl [H3]; · iexists _; iexact H3
      iexists _; iexact H4

/-- The body obligation of region 0, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = Phi V c 0 (Nat.zero_le _) from rfl, Phi_zero V c 0 _ rfl]

/-- After the last point the invariant gives the launch's back: what the accumulators hold is forgotten. -/
theorem hout (c : Dev nD) : (dat V c).Φ (Fin.last cfg0.N) ⊢ Pipeline.ΦA spec0 c := by
  rw [show (dat V c).Φ (Fin.last cfg0.N) = Phi V c (Fin.last cfg0.N).val (Nat.le_of_lt_succ (Fin.last cfg0.N).isLt) from rfl,
    Phi_pos V c _ _ (by rw [Fin.val_last]; have : cfg0.N = 32 := N_0; omega), PhiA_eq]
  iintro ⟨⟨HC, HK, HR⟩, Hg⟩
  isplitl [HC HK HR]
  · isplitl [HC]; · iexists _; iexact HC
    isplitl [HK]; · iexists _; iexact HK
    iexact HR
  iexact Hg

end Cert.Kernel.R0

end
-- ==== Proof.KernelR1.lean ====
import proofs.«149921_j80719615361567_1_alg».proof.Proof.Gen.Kernel.Launch
import proofs.«149921_j80719615361567_1_alg».proof.Proof.Gen.Kernel.Skeleton
import proofs.«149921_j80719615361567_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The second kernel region: the radial-basis mix and the base product, one row block per grid point

The body reads its six input blocks whole, computes one value (the skeleton's payload `k1_pay1`) and stores it
over the whole output block. Everything is stated at a parameter `V`: the buffer contents when the region is entered. -/

variable (V : (c : Dev nD) → (b : Ref sig .tc) → Buf (Elt F) ((c : Thread nD τ).loc b))

/-- Window `w`'s block at grid point `t`, cut out of its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rX : Rect S1024x512 := Rect.unit (s := S1024x512) ![0, 0] S1024x512.size inb_S1024x512_S1024x512_0_0
abbrev rC : Rect S64x512 := Rect.unit (s := S64x512) ![0, 0] S64x512.size inb_S64x512_S64x512_0_0
abbrev rN : Rect S1x64 := Rect.unit (s := S1x64) ![0, 0] S1x64.size inb_S1x64_S1x64_0_0
abbrev rS : Rect S512x64 := Rect.unit (s := S512x64) ![0, 0] S512x64.size inb_S512x64_S512x64_0_0
abbrev rB : Rect S512x512 := Rect.unit (s := S512x512) ![0, 0] S512x512.size inb_S512x512_S512x512_0_0

/-- What the body leaves in the output block, from the six input blocks: one store of the payload over the whole block. -/
def outBlk (x0 : Vec F S1024x512 .f32) (x1 : Vec F S64x512 .f32) (x2 x3 : Vec F S1x64 .f32) (x4 : Vec F S512x64 .f32) (x5 : Vec F S512x512 .f32) :
    Vec F S1024x512 .f32 :=
  View.canon [⟨rX, k1_pay1 (View.ld x0 rX) (View.ld x1 rC) (View.ld x2 rN) (View.ld x3 rN) (View.ld x4 rS) (View.ld x5 rB)⟩]

theorem cover_out (p0 : Vec F S1024x512 .f32) (y : S1024x512.Idx) :
    ∃ pc ∈ ([⟨rX, p0⟩] : List (View.Piece (Elt F) S1024x512 .f32)), y ∈ pc.1.set :=
  View.cover_of_tiled [⟨rX, p0⟩] S1024x512.size (by rfl) y

set_option maxHeartbeats 2000000 in
/-- The body on whole staging memrefs: the inputs come back as they were, the output block holds `outBlk` of them. -/
theorem body (c : Dev nD) (E : Set ℕ) (i : grid1.Coords) (a1 : Memref sig .tc .vmem S1024x512 .f32) (h1 : a1.IsWhole) (a2 : Memref sig .tc .vmem S64x512 .f32) (h2 : a2.IsWhole) (a3 : Memref sig .tc .vmem S1x64 .f32) (h3 : a3.IsWhole) (a4 : Memref sig .tc .vmem S1x64 .f32) (h4 : a4.IsWhole) (a5 : Memref sig .tc .vmem S512x64 .f32) (h5 : a5.IsWhole) (a6 : Memref sig .tc .vmem S512x512 .f32) (h6 : a6.IsWhole) (a7 : Memref sig .tc .vmem S1024x512 .f32) (h7 : a7.IsWhole)
    (x0 : Vec F S1024x512 .f32) (x1 : Vec F S64x512 .f32) (x2 x3 : Vec F S1x64 .f32) (x4 : Vec F S512x64 .f32) (x5 : Vec F S512x512 .f32)
    (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ (∃ d, owns (c : Thread nD τ) a7 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare (outBlk x0 x1 x2 x3 x4 x5)) -∗ K ⟨⟩))
      ⊢ wp frame (wpE (defs₀ (F := F)) Variants.none c none) E (cc1__main_kernel i a1 h1 a2 h2 a3 h3 a4 h4 a5 h5 a6 h6 a7 h7) K := by
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_out _)

/-! ## The proof data: every input block in place, the output block at `outBlk` of the six input blocks -/

/-- Input window 0's staging buffer holds its block at every point (its block index moves only when it is fetched). -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point (its block index moves only when it is fetched). -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point (its block index moves only when it is fetched). -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point (its block index moves only when it is fetched). -/
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point (its block index moves only when it is fetched). -/
theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point (its block index moves only when it is fetched). -/
theorem before_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Region 1's proof data on core `c`: arrays as the region finds them; inputs left in place, the output block the
    body's value; nothing kept between points beyond the scoped rest and the generator register; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => outBlk (iblk V c 0 t) (iblk V c 1 t) (iblk V c 2 t) (iblk V c 3 t) (iblk V c 4 t) (iblk V c 5 t)
  Φ _ := Pipeline.ΦA spec1 c
  q _ := fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) :
    (dat V c).after 6 t = outBlk (iblk V c 0 t) (iblk V c 1 t) (iblk V c 2 t) (iblk V c 3 t) (iblk V c 4 t) (iblk V c 5 t) := by dsimp only [dat]
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d
theorem before_4 (c : Dev nD) (t : Fin cfg1.N) (d) : (dat V c).before 4 t d = iblk V c 4 t :=
  before_4_of V (dat V c) (A_eq V c 4) (after_4 V c) t d
theorem before_5 (c : Dev nD) (t : Fin cfg1.N) (d) : (dat V c).before 5 t d = iblk V c 5 t :=
  before_5_of V (dat V c) (A_eq V c 5) (after_5 V c) t d

/-- What the body is handed at point `t`, window by window, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d)))

/-- and what it hands back. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dat V c).Φ t.succ = (dat V c).Φ t.castSucc from rfl,
    show (dat V c).owesAt () t.succ = (dat V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body c Set.univ _ _ _ _ _ _ _ _ _ _ _ _ _ _ _ (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of region 1, at every point. -/
theorem body_obligation (c : Dev nD) : BodyObligation (dat (F := F) V c) (defs₀ (F := F)) Variants.none () Set.univ := fun t => by
  rw [bigSep_W1, bigSep_W1]
  exact sound_body V c t

end Cert.Kernel.R1

end
-- ==== Proof.KernelRun.lean ====
import proofs.«149921_j80719615361567_1_alg».proof.Proof.Gen.Kernel.Launch
import proofs.«149921_j80719615361567_1_alg».proof.Proof.Gen.Kernel.Skeleton
import proofs.«149921_j80719615361567_1_alg».proof.Proof.Gen.Kernel.Points
import proofs.«149921_j80719615361567_1_alg».proof.Proof.KernelR0Body
import proofs.«149921_j80719615361567_1_alg».proof.Proof.KernelR1
import proofs.«149921_j80719615361567_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The whole run: host operations, the first region, host operations, the second region

The buffer contents at each boundary are a fold from the launch memory: a stretch of host operations applies them; a
region leaves its output arrays at what its write-backs produce and everything else as it found it. The run ends with
every unscoped buffer at the last boundary's contents, from which the results and the unchanged arguments are read. -/

variable (m : (ℓ : Loc nD τ sig) → Buf (Elt F) ℓ)

/-- At launch. -/
abbrev W0 : Dev nD → Valuation τ sig (Elt F) := fun c b => m (c, b)
/-- After the first stretch of host operations: the first region's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first region. -/
def W2 (c : Dev nD) : Valuation τ sig (Elt F) :=
  Pipeline.withArrays spec0 c (W1 m c) fun w => (R0.dat (V1 m) c).arrAt w cfg0.N
theorem W2_arr (c : Dev nD) (w : Fin cfg0.W) :
    W2 m c (Proc.devRef .tc (Pipeline.arrRef spec0 w)) = (R0.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (R0.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the second stretch of host operations: the second region's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the second region: the end. -/
def W4 (c : Dev nD) : Valuation τ sig (Elt F) :=
  Pipeline.withArrays spec1 c (W3 m c) fun w => (R1.dat (V3 m) c).arrAt w cfg1.N
theorem W4_arr (c : Dev nD) (w : Fin cfg1.W) :
    W4 m c (Proc.devRef .tc (Pipeline.arrRef spec1 w)) = (R1.dat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (R1.dat (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The arguments reach the end as launched: no host operation writes one, and a region only reads one -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := (W4_arr m c 0).trans (((R1.dat (V3 m) c).arrAt_in 0 rfl _).trans (R1.A_eq (V3 m) c 0))
    _ = W2 m c (Proc.devRef .tc main_arg0) := StableHlo.after_of_writes_sub hostOps1 _ hostOps1_writes (r := main_arg0) (by decide)
    _ = W1 m c (Proc.devRef .tc main_arg0) := W2_of_ne m c main_arg0 (by decide)
    _ = W0 m c (Proc.devRef .tc main_arg0) := StableHlo.after_of_writes_sub hostOps0 _ hostOps0_writes (r := main_arg0) (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := (W4_arr m c 1).trans (((R1.dat (V3 m) c).arrAt_in 1 rfl _).trans (R1.A_eq (V3 m) c 1))
    _ = W2 m c (Proc.devRef .tc main_arg1) := StableHlo.after_of_writes_sub hostOps1 _ hostOps1_writes (r := main_arg1) (by decide)
    _ = W1 m c (Proc.devRef .tc main_arg1) := W2_of_ne m c main_arg1 (by decide)
    _ = W0 m c (Proc.devRef .tc main_arg1) := StableHlo.after_of_writes_sub hostOps0 _ hostOps0_writes (r := main_arg1) (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (r := main_arg2) (by decide)
    _ = W1 m c (Proc.devRef .tc main_arg2) := W2_of_ne m c main_arg2 (by decide)
    _ = W0 m c (Proc.devRef .tc main_arg2) := StableHlo.after_of_writes_sub hostOps0 _ hostOps0_writes (r := main_arg2) (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (r := main_arg3) (by decide)
    _ = W1 m c (Proc.devRef .tc main_arg3) := (W2_arr m c 0).trans (((R0.dat (V1 m) c).arrAt_in 0 rfl _).trans (R0.A_eq (V1 m) c 0))
    _ = W0 m c (Proc.devRef .tc main_arg3) := StableHlo.after_of_writes_sub hostOps0 _ hostOps0_writes (r := main_arg3) (by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (r := main_arg4) (by decide)
    _ = W1 m c (Proc.devRef .tc main_arg4) := (W2_arr m c 1).trans (((R0.dat (V1 m) c).arrAt_in 1 rfl _).trans (R0.A_eq (V1 m) c 1))
    _ = W0 m c (Proc.devRef .tc main_arg4) := StableHlo.after_of_writes_sub hostOps0 _ hostOps0_writes (r := main_arg4) (by decide)
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := (W4_arr m c 5).trans (((R1.dat (V3 m) c).arrAt_in 5 rfl _).trans (R1.A_eq (V3 m) c 5))
    _ = W2 m c (Proc.devRef .tc main_arg5) := StableHlo.after_of_writes_sub hostOps1 _ hostOps1_writes (r := main_arg5) (by decide)
    _ = W1 m c (Proc.devRef .tc main_arg5) := W2_of_ne m c main_arg5 (by decide)
    _ = W0 m c (Proc.devRef .tc main_arg5) := StableHlo.after_of_writes_sub hostOps0 _ hostOps0_writes (r := main_arg5) (by decide)
    _ = m ((c : Thread nD τ).loc main_arg5) := rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := StableHlo.after_of_writes_sub hostOps1 _ hostOps1_writes (r := main_arg6) (by decide)
    _ = W1 m c (Proc.devRef .tc main_arg6) := W2_of_ne m c main_arg6 (by decide)
    _ = W0 m c (Proc.devRef .tc main_arg6) := StableHlo.after_of_writes_sub hostOps0 _ hostOps0_writes (r := main_arg6) (by decide)
    _ = m ((c : Thread nD τ).loc main_arg6) := rfl

/-! ## The two results at the end -/

/-- The first result is the second region's output array. -/
theorem W4_main_v8 (c : Dev nD) : W4 m c (Proc.devRef .tc main_v8) = (R1.dat (V3 m) c).arrAt 6 cfg1.N := W4_arr m c 6
/-- The second result is written by the host operations between the regions; the second region leaves it alone. -/
theorem W4_main_v3 (c : Dev nD) : W4 m c (Proc.devRef .tc main_v3) = W3 m c (Proc.devRef .tc main_v3) := W4_of_ne m c main_v3 (by decide)

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => R0.dat (V1 m) c
  | ⟨1, _⟩ => fun c => R1.dat (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

set_option backward.isDefEq.respectTransparency.types false in
/-- Region 0 as a segment of @main: entered with every unscoped buffer at `W1`, left with them at `W2`. Its arrays
    are split out of the unscoped buffers on entry and put back at their final contents on exit; the generator register
    goes into the region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (R0.hin (V1 m) c)
    unfold Pipeline.ΦA
    iintro ⟨Hp, -, Hr⟩
    isplitl [Hr]; · iexact Hr
    iexact Hp
  hout c := by
    refine BIBase.Entails.trans (R0.hout (V1 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of @main: entered with every unscoped buffer at `W3`, left with them at `W4`. Its arrays
    are split out of the unscoped buffers on entry and put back at their final contents on exit; the generator register
    goes into the region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its four segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

variable (ρ : Dev nD → PrngReg)

set_option backward.isDefEq.respectTransparency.types false in
/-- THE RUN. From any memory with zero counters every weakly fair execution of @main terminates without a fault, and in
    every final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c)⟩) (run_all m ρ)

end Cert.Kernel.Run

end
-- ==== Proof.KernelIdealR0.lean ====
import proofs.«149921_j80719615361567_1_alg».proof.Proof.Gen.KernelIdeal.Launch
import proofs.«149921_j80719615361567_1_alg».proof.Proof.Gen.KernelIdeal.Skeleton
import proofs.«149921_j80719615361567_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The first kernel region: the sampled coefficients summed over the input features, and the divergence's partial sums

The grid is 4 × 8: coordinate 0 picks a run of 128 output features, coordinate 1 a run of 64 input features. The body
keeps two accumulators in scratch: it clears them where coordinate 1 is 0, adds this point's partial sums to them, and
copies them to the two output blocks where coordinate 1 is 7. Everything is stated at a parameter `V`: the buffer
contents when the region is entered. -/

/-- "This is the first run of input features": the body's first branch condition, as it computes it. -/
abbrev condFirst (i : grid0.Coords) : Prop := (Scalar.cmpi .ne (Scalar.extui (Scalar.cmpi .eq (BitVec.ofNat 32 (i 1).val) 0#32)) 0#32) = 1#1
/-- "This is the last run of input features": the body's second branch condition. -/
abbrev condLast (i : grid0.Coords) : Prop := k0_cond2 i = 1#1

theorem hcondFirst : ∀ t : Fin cfg0.N, condFirst (grid0.coords t) ↔ t.val % 8 = 0 :=
  (by decide +kernel : ∀ t : Fin grid0.N, condFirst (grid0.coords t) ↔ t.val % 8 = 0)
theorem hcondLast : ∀ t : Fin cfg0.N, condLast (grid0.coords t) ↔ t.val % 8 = 7 :=
  (by decide +kernel : ∀ t : Fin grid0.N, condLast (grid0.coords t) ↔ t.val % 8 = 7)

theorem hz2 : (![0, 0] : Fin 2 → Nat) = fun _ => 0 := by funext a; fin_cases a <;> rfl
theorem hz3 : (![0, 0, 0] : Fin 3 → Nat) = fun _ => 0 := by funext a; fin_cases a <;> rfl

/-- The whole-shape rectangle at zero offsets holds every index. -/
theorem mem_unit_zero {S : Shape} {off : Fin S.rank → Nat} (h : off = fun _ => 0) (inb : ∀ a, off a + S.size a ≤ S.size a) (y : S.Idx) :
    y ∈ (Rect.unit off S.size inb).set := by
  subst h; show y ∈ (Rect.whole S).set; rw [Rect.set_whole]; exact Finset.mem_univ y

/-- A list of stores whose LAST store is over the whole accumulator covers it. -/
theorem coverC (p0 : Vec F S128x64 .f32) (L : List (View.Piece (Elt F) S128x64 .f32)) (y : S128x64.Idx) :
    ∃ pc ∈ ((⟨Rect.unit (s := S128x64) ![0, 0] S128x64.size inb_S128x64_S128x64_0_0, p0⟩ : View.Piece (Elt F) S128x64 .f32) :: L), y ∈ pc.1.set :=
  ⟨_, List.mem_cons_self, mem_unit_zero hz2 inb_S128x64_S128x64_0_0 y⟩
theorem coverK (p0 : Vec F S1x128 .f32) (L : List (View.Piece (Elt F) S1x128 .f32)) (y : S1x128.Idx) :
    ∃ pc ∈ ((⟨Rect.unit (s := S1x128) ![0, 0] S1x128.size inb_S1x128_S1x128_0_0, p0⟩ : View.Piece (Elt F) S1x128 .f32) :: L), y ∈ pc.1.set :=
  ⟨_, List.mem_cons_self, mem_unit_zero hz2 inb_S1x128_S1x128_0_0 y⟩

set_option maxHeartbeats 2000000 in
/-- A point that neither clears nor copies out: both accumulators take this point's partial sums; the two output
    blocks come back untouched. -/
theorem bodyMid (c : Dev nD) (E : Set ℕ) (i : grid0.Coords) (a2 : Memref sig .tc .vmem S64x128x64 .f32) (h2 : a2.IsWhole) (a3 : Memref sig .tc .vmem S64x128x64 .f32) (h3 : a3.IsWhole) (a4 : Memref sig .tc .vmem S64x128x64 .f32) (h4 : a4.IsWhole) (a5 : Memref sig .tc .vmem S128x64 .f32) (h5 : a5.IsWhole) (a6 : Memref sig .tc .vmem S1x128 .f32) (h6 : a6.IsWhole) (a7 : Memref sig .tc .vmem S128x64 .f32) (h7 : a7.IsWhole) (a8 : Memref sig .tc .vmem S1x128 .f32) (h8 : a8.IsWhole)
    (hc0 : ¬condFirst i) (hc1 : ¬condLast i)
    (x0 x1 x2 : Vec F S64x128x64 .f32) (y5 : Vec F S128x64 .f32) (y6 : Vec F S1x128 .f32) (s0 : Vec F S128x64 .f32) (s1 : Vec F S1x128 .f32)
    (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare y5 ∗ owns (c : Thread nD τ) a6 fullShare y6 ∗ owns (c : Thread nD τ) a7 fullShare s0 ∗ owns (c : Thread nD τ) a8 fullShare s1
        ∗ (iprop(owns (c : Thread nD τ) a2 fullShare x0 ∗ owns (c : Thread nD τ) a3 fullShare x1 ∗ owns (c : Thread nD τ) a4 fullShare x2 ∗ owns (c : Thread nD τ) a5 fullShare y5 ∗ owns (c : Thread nD τ) a6 fullShare y6
            ∗ owns (c : Thread nD τ) a7 fullShare (k0_pay3 x0 x1 x2 s0) ∗ owns (c : Thread nD τ) a8 fullShare (k0_pay4 x0 x1 s1)) -∗ K ⟨⟩))
      ⊢ wp frame (wpE (defs₀ (F := F)) Variants.none c none) E (cc0__coeff_kernel i a2 h2 a3 h3 a4 h4 a5 h5 a6 h6 a7 h7 a8 h8) K := by
  simp only [cc0__coeff_kernel_eq_skeleton]; unfold cc0__coeff_kernel_skel
  unfold owns
  iintro ⟨⟨%f0, %hf0, H0⟩, ⟨%f1, %hf1, H1⟩, ⟨%f2, %hf2, H2⟩, ⟨%f5, %hf5, H5⟩, ⟨%f6, %hf6, H6⟩, ⟨%f7, %hf7, H7⟩, ⟨%f8, %hf8, H8⟩, Hk⟩
  subst hf0; subst hf1; subst hf2; subst hf5; subst hf6; subst hf7; subst hf8
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_words
    rw [View.read_writes_eq_canon _ _ _ (coverC _ _), View.canon_unit_zero hz2]
    simp only [View.readAt_eq_ld, View.ld_unit_zero (S := S64x128x64) hz3, View.ld_unit_zero (S := S128x64) hz2]
  iexists _; isplitr
  swap; · iexact H8
  ipureintro
  sl_unfold_words
  rw [View.read_writes_eq_canon _ _ _ (coverK _ _), View.canon_unit_zero hz2]
  simp only [View.readAt_eq_ld, View.ld_unit_zero (S := S64x128x64) hz3, View.ld_unit_zero (S := S1x128) hz2]

set_option maxHeartbeats 2000000 in
/-- A point that clears: whatever the accumulators held, they end at this point's partial sums over zero; the two
    output blocks come back untouched. -/
theorem bodyFirst (c : Dev nD) (E : Set ℕ) (i : grid0.Coords) (a2 : Memref sig .tc .vmem S64x128x64 .f32) (h2 : a2.IsWhole) (a3 : Memref sig .tc .vmem S64x128x64 .f32) (h3 : a3.IsWhole) (a4 : Memref sig .tc .vmem S64x128x64 .f32) (h4 : a4.IsWhole) (a5 : Memref sig .tc .vmem S128x64 .f32) (h5 : a5.IsWhole) (a6 : Memref sig .tc .vmem S1x128 .f32) (h6 : a6.IsWhole) (a7 : Memref sig .tc .vmem S128x64 .f32) (h7 : a7.IsWhole) (a8 : Memref sig .tc .vmem S1x128 .f32) (h8 : a8.IsWhole)
    (hc0 : condFirst i) (hc1 : ¬condLast i)
    (x0 x1 x2 : Vec F S64x128x64 .f32) (y5 : Vec F S128x64 .f32) (y6 : Vec F S1x128 .f32)
    (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare y5 ∗ owns (c : Thread nD τ) a6 fullShare y6 ∗ (∃ d, owns (c : Thread nD τ) a7 fullShare d) ∗ (∃ d, owns (c : Thread nD τ) a8 fullShare d)
        ∗ (iprop(owns (c : Thread nD τ) a2 fullShare x0 ∗ owns (c : Thread nD τ) a3 fullShare x1 ∗ owns (c : Thread nD τ) a4 fullShare x2 ∗ owns (c : Thread nD τ) a5 fullShare y5 ∗ owns (c : Thread nD τ) a6 fullShare y6
            ∗ owns (c : Thread nD τ) a7 fullShare (k0_pay3 x0 x1 x2 k0_pay1) ∗ owns (c : Thread nD τ) a8 fullShare (k0_pay4 x0 x1 k0_pay2)) -∗ K ⟨⟩))
      ⊢ wp frame (wpE (defs₀ (F := F)) Variants.none c none) E (cc0__coeff_kernel i a2 h2 a3 h3 a4 h4 a5 h5 a6 h6 a7 h7 a8 h8) K := by
  simp only [cc0__coeff_kernel_eq_skeleton]; unfold cc0__coeff_kernel_skel
  unfold owns
  iintro ⟨⟨%f0, %hf0, H0⟩, ⟨%f1, %hf1, H1⟩, ⟨%f2, %hf2, H2⟩, ⟨%f5, %hf5, H5⟩, ⟨%f6, %hf6, H6⟩, ⟨%d7, %f7, -, H7⟩, ⟨%d8, %f8, -, H8⟩, Hk⟩
  subst hf0; subst hf1; subst hf2; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_words
    rw [View.read_writes_eq_canon _ _ _ (coverC _ _), View.canon_cons_unit_zero hz2]
    simp only [View.readAt_eq_ld, View.ld_unit_zero (S := S64x128x64) hz3, View.ld_unit_zero (S := S128x64) hz2, View.ld_unit_zero (S := S1x128) hz2,
      View.readCov_unit_zero (S := S128x64) _ hz2, View.readCov_unit_zero (S := S1x128) _ hz2]
  iexists _; isplitr
  swap; · iexact H8
  ipureintro
  sl_unfold_words
  rw [View.read_writes_eq_canon _ _ _ (coverK _ _), View.canon_cons_unit_zero hz2]
  simp only [View.readAt_eq_ld, View.ld_unit_zero (S := S64x128x64) hz3, View.ld_unit_zero (S := S128x64) hz2, View.ld_unit_zero (S := S1x128) hz2,
      View.readCov_unit_zero (S := S128x64) _ hz2, View.readCov_unit_zero (S := S1x128) _ hz2]

set_option maxHeartbeats 2000000 in
/-- A point that copies out: the accumulators take this point's partial sums, and the two output blocks end holding
    the accumulators' new contents. -/
theorem bodyLast (c : Dev nD) (E : Set ℕ) (i : grid0.Coords) (a2 : Memref sig .tc .vmem S64x128x64 .f32) (h2 : a2.IsWhole) (a3 : Memref sig .tc .vmem S64x128x64 .f32) (h3 : a3.IsWhole) (a4 : Memref sig .tc .vmem S64x128x64 .f32) (h4 : a4.IsWhole) (a5 : Memref sig .tc .vmem S128x64 .f32) (h5 : a5.IsWhole) (a6 : Memref sig .tc .vmem S1x128 .f32) (h6 : a6.IsWhole) (a7 : Memref sig .tc .vmem S128x64 .f32) (h7 : a7.IsWhole) (a8 : Memref sig .tc .vmem S1x128 .f32) (h8 : a8.IsWhole)
    (hc0 : ¬condFirst i) (hc1 : condLast i)
    (x0 x1 x2 : Vec F S64x128x64 .f32) (s0 : Vec F S128x64 .f32) (s1 : Vec F S1x128 .f32)
    (K : PUnit → sProp 𝕄) :
    iprop(owns (c : Thread nD τ) a2 fullShare x0 ∗ owns (c : Thread nD τ) a3 fullShare x1 ∗ owns (c : Thread nD τ) a4 fullShare x2 ∗ (∃ d, owns (c : Thread nD τ) a5 fullShare d) ∗ (∃ d, owns (c : Thread nD τ) a6 fullShare d) ∗ owns (c : Thread nD τ) a7 fullShare s0 ∗ owns (c : Thread nD τ) a8 fullShare s1
        ∗ (iprop(owns (c : Thread nD τ) a2 fullShare x0 ∗ owns (c : Thread nD τ) a3 fullShare x1 ∗ owns (c : Thread nD τ) a4 fullShare x2 ∗ owns (c : Thread nD τ) a5 fullShare (k0_pay3 x0 x1 x2 s0) ∗ owns (c : Thread nD τ) a6 fullShare (k0_pay4 x0 x1 s1)
            ∗ owns (c : Thread nD τ) a7 fullShare (k0_pay3 x0 x1 x2 s0) ∗ owns (c : Thread nD τ) a8 fullShare (k0_pay4 x0 x1 s1)) -∗ K ⟨⟩))
      ⊢ wp frame (wpE (defs₀ (F := F)) Variants.none c none) E (cc0__coeff_kernel i a2 h2 a3 h3 a4 h4 a5 h5 a6 h6 a7 h7 a8 h8) K := by
  simp only [cc0__coeff_kernel_eq_skeleton]; unfold cc0__coeff_kernel_skel
  unfold owns
  iintro ⟨⟨%f0, %hf0, H0⟩, ⟨%f1, %hf1, H1⟩, ⟨%f2, %hf2, H2⟩, ⟨%d5, %f5, -, H5⟩, ⟨%d6, %f6, -, H6⟩, ⟨%f7, %hf7, H7⟩, ⟨%f8, %hf8, H8⟩, Hk⟩
  subst hf0; subst hf1; subst hf2; subst hf7; subst hf8
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    sl_unfold_words
    rw [View.read_writes_eq_canon _ _ _ (coverC _ _), View.canon_unit_zero hz2]
    simp only [View.readAt_eq_ld, View.ld_unit_zero (S := S64x128x64) hz3, View.ld_unit_zero (S := S128x64) hz2, View.ld_unit_zero (S := S1x128) hz2,
      View.readCov_unit_zero (S := S128x64) _ hz2, View.readCov_unit_zero (S := S1x128) _ hz2]
  isplitl [H6]
  · iexists _; isplitr
    swap; · iexact H6
    ipureintro
    sl_unfold_words
    rw [View.read_writes_eq_canon _ _ _ (coverK _ _), View.canon_unit_zero hz2]
    simp only [View.readAt_eq_ld, View.ld_unit_zero (S := S64x128x64) hz3, View.ld_unit_zero (S := S128x64) hz2, View.ld_unit_zero (S := S1x128) hz2,
      View.readCov_unit_zero (S := S128x64) _ hz2, View.readCov_unit_zero (S := S1x128) _ hz2]
  isplitl [H7]
  · iexists _; isplitr
    swap; · iexact H7
    ipureintro
    sl_unfold_words
    rw [View.read_writes_eq_canon _ _ _ (coverC _ _), View.canon_unit_zero hz2]
    simp only [View.readAt_eq_ld, View.ld_unit_zero (S := S64x128x64) hz3, View.ld_unit_zero (S := S128x64) hz2, View.ld_unit_zero (S := S1x128) hz2,
      View.readCov_unit_zero (S := S128x64) _ hz2, View.readCov_unit_zero (S := S1x128) _ hz2]
  iexists _; isplitr
  swap; · iexact H8
  ipureintro
  sl_unfold_words
  rw [View.read_writes_eq_canon _ _ _ (coverK _ _), View.canon_unit_zero hz2]
  simp only [View.readAt_eq_ld, View.ld_unit_zero (S := S64x128x64) hz3, View.ld_unit_zero (S := S128x64) hz2, View.ld_unit_zero (S := S1x128) hz2,
      View.readCov_unit_zero (S := S128x64) _ hz2, View.readCov_unit_zero (S := S1x128) _ hz2]

/-! ## The windows' blocks, and what the accumulators hold after each point -/

variable (V : (c : Dev nD) → (b : Ref sig .tc) → Buf (Elt F) ((c : Thread nD τ).loc b))

/-- Window `w`'s block at grid point `t`, cut out of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point. -/
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The two accumulators after grid point `n` (points in row-major order, eight per run of output features): at the
    first point of a run, this point's partial sums over zero; otherwise this point's partial sums over what the point
    before left. -/
def accAt (c : Dev nD) : (n : ℕ) → n < cfg0.N → Vec F S128x64 .f32 × Vec F S1x128 .f32
  | 0, hn => (k0_pay3 (iblk V c 0 ⟨0, hn⟩) (iblk V c 1 ⟨0, hn⟩) (iblk V c 2 ⟨0, hn⟩) k0_pay1,
              k0_pay4 (iblk V c 0 ⟨0, hn⟩) (iblk V c 1 ⟨0, hn⟩) k0_pay2)
  | n + 1, hn =>
    if (n + 1) % 8 = 0 then
      (k0_pay3 (iblk V c 0 ⟨n + 1, hn⟩) (iblk V c 1 ⟨n + 1, hn⟩) (iblk V c 2 ⟨n + 1, hn⟩) k0_pay1,
       k0_pay4 (iblk V c 0 ⟨n + 1, hn⟩) (iblk V c 1 ⟨n + 1, hn⟩) k0_pay2)
    else
      (k0_pay3 (iblk V c 0 ⟨n + 1, hn⟩) (iblk V c 1 ⟨n + 1, hn⟩) (iblk V c 2 ⟨n + 1, hn⟩) (accAt c n (Nat.lt_of_succ_lt hn)).1,
       k0_pay4 (iblk V c 0 ⟨n + 1, hn⟩) (iblk V c 1 ⟨n + 1, hn⟩) (accAt c n (Nat.lt_of_succ_lt hn)).2)

/-- At the first point of a run of output features. -/
theorem accAt_first (c : Dev nD) (t : Fin cfg0.N) (h0 : t.val % 8 = 0) :
    accAt V c t.val t.isLt = (k0_pay3 (iblk V c 0 t) (iblk V c 1 t) (iblk V c 2 t) k0_pay1, k0_pay4 (iblk V c 0 t) (iblk V c 1 t) k0_pay2) := by
  obtain ⟨n, hn⟩ := t
  cases n with
  | zero => rfl
  | succ n => exact (if_pos h0)

/-- At any other point: over what the point before left. -/
theorem accAt_next (c : Dev nD) (t : Fin cfg0.N) (h0 : ¬t.val % 8 = 0) :
    accAt V c t.val t.isLt
      = (k0_pay3 (iblk V c 0 t) (iblk V c 1 t) (iblk V c 2 t) (accAt V c (t.val - 1) (Nat.lt_of_le_of_lt (Nat.sub_le _ _) t.isLt)).1,
         k0_pay4 (iblk V c 0 t) (iblk V c 1 t) (accAt V c (t.val - 1) (Nat.lt_of_le_of_lt (Nat.sub_le _ _) t.isLt)).2) := by
  obtain ⟨n, hn⟩ := t
  cases n with
  | zero => exact absurd (Nat.zero_mod _) h0
  | succ n => exact (if_neg h0)

/-! ## The invariant between points -/

abbrev scC : Memref sig .tc .vmem S128x64 .f32 := Memref.whole cc0_scratch0
abbrev scK : Memref sig .tc .vmem S1x128 .f32 := Memref.whole cc0_scratch1

/-- The scoped buffers this region neither stages nor uses as scratch, each whole at some contents. -/
def rest (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- What the launch hands the region between points, with the two scratch accumulators split out. -/
theorem PhiA_eq (c : Dev nD) :
    (Pipeline.ΦA spec0 c : sProp 𝕄)
      = iprop(iprop((∃ d, owns (c : Thread nD τ) scC fullShare d) ∗ (∃ d, owns (c : Thread nD τ) scK fullShare d) ∗ rest c) ∗ (∃ r, prngReg c r)) := by
  unfold Pipeline.ΦA rest; rw [scopedRest0_eq]; simp only [scC, scK, owns_whole]; try rfl

/-- Before the first point: the launch's own invariant (the accumulators hold anything). After point `n`: the
    accumulators hold `accAt n`. -/
def Phi (c : Dev nD) : (n : ℕ) → n ≤ cfg0.N → sProp 𝕄
  | 0, _ => Pipeline.ΦA spec0 c
  | n + 1, hn => iprop(iprop(owns (c : Thread nD τ) scC fullShare (accAt V c n hn).1 ∗ owns (c : Thread nD τ) scK fullShare (accAt V c n hn).2 ∗ rest c) ∗ (∃ r, prngReg c r))

theorem Phi_zero (c : Dev nD) (n : ℕ) (h : n ≤ cfg0.N) (hz : n = 0) : Phi V c n h = Pipeline.ΦA spec0 c := by
  subst hz; rfl
theorem Phi_succ (c : Dev nD) (n : ℕ) (hn : n < cfg0.N) :
    Phi V c (n + 1) hn = iprop(iprop(owns (c : Thread nD τ) scC fullShare (accAt V c n hn).1 ∗ owns (c : Thread nD τ) scK fullShare (accAt V c n hn).2 ∗ rest c) ∗ (∃ r, prngReg c r)) := rfl
theorem Phi_pos (c : Dev nD) (n : ℕ) (h : n ≤ cfg0.N) (hz : n ≠ 0) :
    Phi V c n h = iprop(iprop(owns (c : Thread nD τ) scC fullShare (accAt V c (n - 1) (by omega)).1 ∗ owns (c : Thread nD τ) scK fullShare (accAt V c (n - 1) (by omega)).2 ∗ rest c) ∗ (∃ r, prngReg c r)) := by
  cases n with
  | zero => exact absurd rfl hz
  | succ n => rfl

/-! ## The proof data -/

/-- Region 0's proof data on core `c`: inputs left in place; each output block, where it is written, the matching
    accumulator; the invariant `Phi`; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => (accAt V c t.val t.isLt).1
    | ⟨4, _⟩ => (accAt V c t.val t.isLt).2
  Φ t := Phi V c t.val (Nat.le_of_lt_succ t.isLt)
  q _ := fullShare
  owed _ := 0

theorem A_eq (c : Dev nD) (w : Fin cfg0.W) : (dat V c).A w = V c (Pipeline.arrRef spec0 w) := by
  dsimp only [dat]
theorem Phi_castSucc (c : Dev nD) (t : Fin cfg0.N) : (dat V c).Φ t.castSucc = Phi V c t.val (Nat.le_of_lt t.isLt) := by
  dsimp only [dat]; simp only [Fin.coe_castSucc]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = (accAt V c t.val t.isLt).1 := by dsimp only [dat]
theorem after_4 (c : Dev nD) (t : Fin cfg0.N) : (dat V c).after 4 t = (accAt V c t.val t.isLt).2 := by dsimp only [dat]
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem idle_3 : ∀ t : Fin cfg0.N, ¬condLast (grid0.coords t) → cfg0.idle 3 (grid0.coords t) = true := by decide +kernel
theorem noFlush_3 : ∀ t : Fin cfg0.N, ¬condLast (grid0.coords t) → (cfg0.win 3).flush t = false := by decide +kernel
theorem live_3 : ∀ t : Fin cfg0.N, condLast (grid0.coords t) → cfg0.idle 3 (grid0.coords t) = false := by decide +kernel
theorem idle_4 : ∀ t : Fin cfg0.N, ¬condLast (grid0.coords t) → cfg0.idle 4 (grid0.coords t) = true := by decide +kernel
theorem noFlush_4 : ∀ t : Fin cfg0.N, ¬condLast (grid0.coords t) → (cfg0.win 4).flush t = false := by decide +kernel
theorem live_4 : ∀ t : Fin cfg0.N, condLast (grid0.coords t) → cfg0.idle 4 (grid0.coords t) = false := by decide +kernel

end Cert.KernelIdeal.R0

end
-- ==== Proof.KernelIdealR0Body.lean ====
import proofs.«149921_j80719615361567_1_alg».proof.Proof.Gen.KernelIdeal.Launch
import proofs.«149921_j80719615361567_1_alg».proof.Proof.Gen.KernelIdeal.Skeleton
import proofs.«149921_j80719615361567_1_alg».proof.Proof.Gen.KernelIdeal.Points
import proofs.«149921_j80719615361567_1_alg».proof.Proof.KernelIdealR0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The first kernel region's body obligation

At every grid point the body is handed the invariant (the two accumulators at what the point before left, or at
anything before a run's first point), the three input blocks, and the two output blocks' staging buffers; which of the
three runs of the body applies is decided by the point's position in its run of eight. -/

variable (V : (c : Dev nD) → (b : Ref sig .tc) → Buf (Elt F) ((c : Thread nD τ).loc b))

/-- What the body is handed at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- and what it hands back. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl]
  rw [show (dat V c).Φ t.succ = Phi V c (t.val + 1) t.isLt from rfl, Phi_succ]
  have hN : t.val < 32 := lt_of_lt_of_eq t.isLt (show cfg0.N = 32 from N_0)
  by_cases h0 : t.val % 8 = 0
  · -- a run's first point: the accumulators are cleared first
    have hl : ¬condLast (grid0.coords t) := fun h => by have := (hcondLast t).mp h; omega
    rw [show (dat V c).leavesExact 0 t = owns (c : Thread nD τ) (st0_0 t) fullShare ((dat V c).after 0 t) from by
      unfold Dat.leavesExact; rw [live_0 t], after_0]
    rw [show (dat V c).leavesExact 1 t = owns (c : Thread nD τ) (st0_1 t) fullShare ((dat V c).after 1 t) from by
      unfold Dat.leavesExact; rw [live_1 t], after_1]
    rw [show (dat V c).leavesExact 2 t = owns (c : Thread nD τ) (st0_2 t) fullShare ((dat V c).after 2 t) from by
      unfold Dat.leavesExact; rw [live_2 t], after_2]
    rw [Dat.leavesExact_idle (dat V c) 3 t (idle_3 t hl) (noFlush_3 t hl)]
    rw [Dat.leavesExact_idle (dat V c) 4 t (idle_4 t hl) (noFlush_4 t hl)]
    rw [accAt_first V c t h0]
    by_cases hz : t.val = 0
    · rw [Phi_castSucc V c t, Phi_zero V c _ _ hz, PhiA_eq]
      iintro ⟨⟨⟨HC, HK, HR⟩, Hg⟩, Ho, ⟨%d0, H0⟩, ⟨%d1, H1⟩, ⟨%d2, H2⟩, ⟨%d3, H3⟩, ⟨%d4, H4⟩⟩
      iapply (bodyFirst c Set.univ (grid0.coords t) _ _ _ _ _ _ _ _ _ _ _ _ _ _ ((hcondFirst t).mpr h0) hl (iblk V c 0 t) (iblk V c 1 t) (iblk V c 2 t) _ _ _)
      isplitl [H0]; · iexact H0
      isplitl [H1]; · iexact H1
      isplitl [H2]; · iexact H2
      isplitl [H3]; · iexact H3
      isplitl [H4]; · iexact H4
      isplitl [HC]; · iexact HC
      isplitl [HK]; · iexact HK
      iintro ⟨H0, H1, H2, H3, H4, HC, HK⟩
      isplitl [HC HK HR Hg]
      · isplitl [HC HK HR]
        · isplitl [HC]; · iexact HC
          isplitl [HK]; · iexact HK
          iexact HR
        iexact Hg
      isplitl [Ho]; · iexact Ho
      isplitl [H0]; · iexact H0
      isplitl [H1]; · iexact H1
      isplitl [H2]; · iexact H2
      isplitl [H3]; · iexists _; iexact H3
      iexists _; iexact H4
    · rw [Phi_castSucc V c t, Phi_pos V c _ _ hz]
      iintro ⟨⟨⟨HC, HK, HR⟩, Hg⟩, Ho, ⟨%d0, H0⟩, ⟨%d1, H1⟩, ⟨%d2, H2⟩, ⟨%d3, H3⟩, ⟨%d4, H4⟩⟩
      iapply (bodyFirst c Set.univ (grid0.coords t) _ _ _ _ _ _ _ _ _ _ _ _ _ _ ((hcondFirst t).mpr h0) hl (iblk V c 0 t) (iblk V c 1 t) (iblk V c 2 t) _ _ _)
      isplitl [H0]; · iexact H0
      isplitl [H1]; · iexact H1
      isplitl [H2]; · iexact H2
      isplitl [H3]; · iexact H3
      isplitl [H4]; · iexact H4
      isplitl [HC]; · iexists _; iexact HC
      isplitl [HK]; · iexists _; iexact HK
      iintro ⟨H0, H1, H2, H3, H4, HC, HK⟩
      isplitl [HC HK HR Hg]
      · isplitl [HC HK HR]
        · isplitl [HC]; · iexact HC
          isplitl [HK]; · iexact HK
          iexact HR
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun h => h0 (by rw [h])
    have hf : ¬condFirst (grid0.coords t) := fun h => h0 ((hcondFirst t).mp h)
    by_cases h1 : t.val % 8 = 7
    · -- a run's last point: the accumulators are copied out
      have hl : condLast (grid0.coords t) := (hcondLast t).mpr h1
      rw [show (dat V c).leavesExact 0 t = owns (c : Thread nD τ) (st0_0 t) fullShare ((dat V c).after 0 t) from by
        unfold Dat.leavesExact; rw [live_0 t], after_0]
      rw [show (dat V c).leavesExact 1 t = owns (c : Thread nD τ) (st0_1 t) fullShare ((dat V c).after 1 t) from by
        unfold Dat.leavesExact; rw [live_1 t], after_1]
      rw [show (dat V c).leavesExact 2 t = owns (c : Thread nD τ) (st0_2 t) fullShare ((dat V c).after 2 t) from by
        unfold Dat.leavesExact; rw [live_2 t], after_2]
      rw [show (dat V c).leavesExact 3 t = owns (c : Thread nD τ) (st0_3 t) fullShare ((dat V c).after 3 t) from by
        unfold Dat.leavesExact; rw [live_3 t hl], after_3]
      rw [show (dat V c).leavesExact 4 t = owns (c : Thread nD τ) (st0_4 t) fullShare ((dat V c).after 4 t) from by
        unfold Dat.leavesExact; rw [live_4 t hl], after_4]
      rw [accAt_next V c t h0]
      rw [Phi_castSucc V c t, Phi_pos V c _ _ hz]
      iintro ⟨⟨⟨HC, HK, HR⟩, Hg⟩, Ho, ⟨%d0, H0⟩, ⟨%d1, H1⟩, ⟨%d2, H2⟩, ⟨%d3, H3⟩, ⟨%d4, H4⟩⟩
      iapply (bodyLast c Set.univ (grid0.coords t) _ _ _ _ _ _ _ _ _ _ _ _ _ _ hf hl (iblk V c 0 t) (iblk V c 1 t) (iblk V c 2 t) _ _ _)
      isplitl [H0]; · iexact H0
      isplitl [H1]; · iexact H1
      isplitl [H2]; · iexact H2
      isplitl [H3]; · iexists _; iexact H3
      isplitl [H4]; · iexists _; iexact H4
      isplitl [HC]; · iexact HC
      isplitl [HK]; · iexact HK
      iintro ⟨H0, H1, H2, H3, H4, HC, HK⟩
      isplitl [HC HK HR Hg]
      · isplitl [HC HK HR]
        · isplitl [HC]; · iexact HC
          isplitl [HK]; · iexact HK
          iexact HR
        iexact Hg
      isplitl [Ho]; · iexact Ho
      isplitl [H0]; · iexact H0
      isplitl [H1]; · iexact H1
      isplitl [H2]; · iexact H2
      isplitl [H3]; · iexact H3
      iexact H4
    · -- a point inside a run
      have hl : ¬condLast (grid0.coords t) := fun h => h1 ((hcondLast t).mp h)
      rw [show (dat V c).leavesExact 0 t = owns (c : Thread nD τ) (st0_0 t) fullShare ((dat V c).after 0 t) from by
        unfold Dat.leavesExact; rw [live_0 t], after_0]
      rw [show (dat V c).leavesExact 1 t = owns (c : Thread nD τ) (st0_1 t) fullShare ((dat V c).after 1 t) from by
        unfold Dat.leavesExact; rw [live_1 t], after_1]
      rw [show (dat V c).leavesExact 2 t = owns (c : Thread nD τ) (st0_2 t) fullShare ((dat V c).after 2 t) from by
        unfold Dat.leavesExact; rw [live_2 t], after_2]
      rw [Dat.leavesExact_idle (dat V c) 3 t (idle_3 t hl) (noFlush_3 t hl)]
      rw [Dat.leavesExact_idle (dat V c) 4 t (idle_4 t hl) (noFlush_4 t hl)]
      rw [accAt_next V c t h0]
      rw [Phi_castSucc V c t, Phi_pos V c _ _ hz]
      iintro ⟨⟨⟨HC, HK, HR⟩, Hg⟩, Ho, ⟨%d0, H0⟩, ⟨%d1, H1⟩, ⟨%d2, H2⟩, ⟨%d3, H3⟩, ⟨%d4, H4⟩⟩
      iapply (bodyMid c Set.univ (grid0.coords t) _ _ _ _ _ _ _ _ _ _ _ _ _ _ hf hl (iblk V c 0 t) (iblk V c 1 t) (iblk V c 2 t) _ _ _ _ _)
      isplitl [H0]; · iexact H0
      isplitl [H1]; · iexact H1
      isplitl [H2]; · iexact H2
      isplitl [H3]; · iexact H3
      isplitl [H4]; · iexact H4
      isplitl [HC]; · iexact HC
      isplitl [HK]; · iexact HK
      iintro ⟨H0, H1, H2, H3, H4, HC, HK⟩
      isplitl [HC HK HR Hg]
      · isplitl [HC HK HR]
        · isplitl [HC]; · iexact HC
          isplitl [HK]; · iexact HK
          iexact HR
        iexact Hg
      isplitl [Ho]; · iexact Ho
      isplitl [H0]; · iexact H0
      isplitl [H1]; · iexact H1
      isplitl [H2]; · iexact H2
      isplitl [H3]; · iexists _; iexact H3
      iexists _; iexact H4

/-- The body obligation of region 0, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = Phi V c 0 (Nat.zero_le _) from rfl, Phi_zero V c 0 _ rfl]

/-- After the last point the invariant gives the launch's back: what the accumulators hold is forgotten. -/
theorem hout (c : Dev nD) : (dat V c).Φ (Fin.last cfg0.N) ⊢ Pipeline.ΦA spec0 c := by
  rw [show (dat V c).Φ (Fin.last cfg0.N) = Phi V c (Fin.last cfg0.N).val (Nat.le_of_lt_succ (Fin.last cfg0.N).isLt) from rfl,
    Phi_pos V c _ _ (by rw [Fin.val_last]; have : cfg0.N = 32 := N_0; omega), PhiA_eq]
  iintro ⟨⟨HC, HK, HR⟩, Hg⟩
  isplitl [HC HK HR]
  · isplitl [HC]; · iexists _; iexact HC
    isplitl [HK]; · iexists _; iexact HK
    iexact HR
  iexact Hg

end Cert.KernelIdeal.R0

end
-- ==== Proof.KernelIdealR1.lean ====
import proofs.«149921_j80719615361567_1_alg».proof.Proof.Gen.KernelIdeal.Launch
import proofs.«149921_j80719615361567_1_alg».proof.Proof.Gen.KernelIdeal.Skeleton
import proofs.«149921_j80719615361567_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The second kernel region: the radial-basis mix and the base product, one row block per grid point

The body reads its six input blocks whole, computes one value (the skeleton's payload `k1_pay1`) and stores it
over the whole output block. Everything is stated at a parameter `V`: the buffer contents when the region is entered. -/

variable (V : (c : Dev nD) → (b : Ref sig .tc) → Buf (Elt F) ((c : Thread nD τ).loc b))

/-- Window `w`'s block at grid point `t`, cut out of its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rX : Rect S1024x512 := Rect.unit (s := S1024x512) ![0, 0] S1024x512.size inb_S1024x512_S1024x512_0_0
abbrev rC : Rect S64x512 := Rect.unit (s := S64x512) ![0, 0] S64x512.size inb_S64x512_S64x512_0_0
abbrev rN : Rect S1x64 := Rect.unit (s := S1x64) ![0, 0] S1x64.size inb_S1x64_S1x64_0_0
abbrev rS : Rect S512x64 := Rect.unit (s := S512x64) ![0, 0] S512x64.size inb_S512x64_S512x64_0_0
abbrev rB : Rect S512x512 := Rect.unit (s := S512x512) ![0, 0] S512x512.size inb_S512x512_S512x512_0_0

/-- What the body leaves in the output block, from the six input blocks: one store of the payload over the whole block. -/
def outBlk (x0 : Vec F S1024x512 .f32) (x1 : Vec F S64x512 .f32) (x2 x3 : Vec F S1x64 .f32) (x4 : Vec F S512x64 .f32) (x5 : Vec F S512x512 .f32) :
    Vec F S1024x512 .f32 :=
  View.canon [⟨rX, k1_pay1 (View.ld x0 rX) (View.ld x1 rC) (View.ld x2 rN) (View.ld x3 rN) (View.ld x4 rS) (View.ld x5 rB)⟩]

theorem cover_out (p0 : Vec F S1024x512 .f32) (y : S1024x512.Idx) :
    ∃ pc ∈ ([⟨rX, p0⟩] : List (View.Piece (Elt F) S1024x512 .f32)), y ∈ pc.1.set :=
  View.cover_of_tiled [⟨rX, p0⟩] S1024x512.size (by rfl) y

set_option maxHeartbeats 2000000 in
/-- The body on whole staging memrefs: the inputs come back as they were, the output block holds `outBlk` of them. -/
theorem body (c : Dev nD) (E : Set ℕ) (i : grid1.Coords) (a1 : Memref sig .tc .vmem S1024x512 .f32) (h1 : a1.IsWhole) (a2 : Memref sig .tc .vmem S64x512 .f32) (h2 : a2.IsWhole) (a3 : Memref sig .tc .vmem S1x64 .f32) (h3 : a3.IsWhole) (a4 : Memref sig .tc .vmem S1x64 .f32) (h4 : a4.IsWhole) (a5 : Memref sig .tc .vmem S512x64 .f32) (h5 : a5.IsWhole) (a6 : Memref sig .tc .vmem S512x512 .f32) (h6 : a6.IsWhole) (a7 : Memref sig .tc .vmem S1024x512 .f32) (h7 : a7.IsWhole)
    (x0 : Vec F S1024x512 .f32) (x1 : Vec F S64x512 .f32) (x2 x3 : Vec F S1x64 .f32) (x4 : Vec F S512x64 .f32) (x5 : Vec F S512x512 .f32)
    (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ (∃ d, owns (c : Thread nD τ) a7 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare (outBlk x0 x1 x2 x3 x4 x5)) -∗ K ⟨⟩))
      ⊢ wp frame (wpE (defs₀ (F := F)) Variants.none c none) E (cc1__main_kernel i a1 h1 a2 h2 a3 h3 a4 h4 a5 h5 a6 h6 a7 h7) K := by
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_out _)

/-! ## The proof data: every input block in place, the output block at `outBlk` of the six input blocks -/

/-- Input window 0's staging buffer holds its block at every point (its block index moves only when it is fetched). -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point (its block index moves only when it is fetched). -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point (its block index moves only when it is fetched). -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point (its block index moves only when it is fetched). -/
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point (its block index moves only when it is fetched). -/
theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point (its block index moves only when it is fetched). -/
theorem before_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Region 1's proof data on core `c`: arrays as the region finds them; inputs left in place, the output block the
    body's value; nothing kept between points beyond the scoped rest and the generator register; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => outBlk (iblk V c 0 t) (iblk V c 1 t) (iblk V c 2 t) (iblk V c 3 t) (iblk V c 4 t) (iblk V c 5 t)
  Φ _ := Pipeline.ΦA spec1 c
  q _ := fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) :
    (dat V c).after 6 t = outBlk (iblk V c 0 t) (iblk V c 1 t) (iblk V c 2 t) (iblk V c 3 t) (iblk V c 4 t) (iblk V c 5 t) := by dsimp only [dat]
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d
theorem before_4 (c : Dev nD) (t : Fin cfg1.N) (d) : (dat V c).before 4 t d = iblk V c 4 t :=
  before_4_of V (dat V c) (A_eq V c 4) (after_4 V c) t d
theorem before_5 (c : Dev nD) (t : Fin cfg1.N) (d) : (dat V c).before 5 t d = iblk V c 5 t :=
  before_5_of V (dat V c) (A_eq V c 5) (after_5 V c) t d

/-- What the body is handed at point `t`, window by window, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d)))

/-- and what it hands back. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dat V c).Φ t.succ = (dat V c).Φ t.castSucc from rfl,
    show (dat V c).owesAt () t.succ = (dat V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body c Set.univ _ _ _ _ _ _ _ _ _ _ _ _ _ _ _ (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of region 1, at every point. -/
theorem body_obligation (c : Dev nD) : BodyObligation (dat (F := F) V c) (defs₀ (F := F)) Variants.none () Set.univ := fun t => by
  rw [bigSep_W1, bigSep_W1]
  exact sound_body V c t

end Cert.KernelIdeal.R1

end
-- ==== Proof.KernelIdealRun.lean ====
import proofs.«149921_j80719615361567_1_alg».proof.Proof.Gen.KernelIdeal.Launch
import proofs.«149921_j80719615361567_1_alg».proof.Proof.Gen.KernelIdeal.Skeleton
import proofs.«149921_j80719615361567_1_alg».proof.Proof.Gen.KernelIdeal.Points
import proofs.«149921_j80719615361567_1_alg».proof.Proof.KernelIdealR0Body
import proofs.«149921_j80719615361567_1_alg».proof.Proof.KernelIdealR1
import proofs.«149921_j80719615361567_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The whole run: host operations, the first region, host operations, the second region

The buffer contents at each boundary are a fold from the launch memory: a stretch of host operations applies them; a
region leaves its output arrays at what its write-backs produce and everything else as it found it. The run ends with
every unscoped buffer at the last boundary's contents, from which the results and the unchanged arguments are read. -/

variable (m : (ℓ : Loc nD τ sig) → Buf (Elt F) ℓ)

/-- At launch. -/
abbrev W0 : Dev nD → Valuation τ sig (Elt F) := fun c b => m (c, b)
/-- After the first stretch of host operations: the first region's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first region. -/
def W2 (c : Dev nD) : Valuation τ sig (Elt F) :=
  Pipeline.withArrays spec0 c (W1 m c) fun w => (R0.dat (V1 m) c).arrAt w cfg0.N
theorem W2_arr (c : Dev nD) (w : Fin cfg0.W) :
    W2 m c (Proc.devRef .tc (Pipeline.arrRef spec0 w)) = (R0.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (R0.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the second stretch of host operations: the second region's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the second region: the end. -/
def W4 (c : Dev nD) : Valuation τ sig (Elt F) :=
  Pipeline.withArrays spec1 c (W3 m c) fun w => (R1.dat (V3 m) c).arrAt w cfg1.N
theorem W4_arr (c : Dev nD) (w : Fin cfg1.W) :
    W4 m c (Proc.devRef .tc (Pipeline.arrRef spec1 w)) = (R1.dat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (R1.dat (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The arguments reach the end as launched: no host operation writes one, and a region only reads one -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := (W4_arr m c 0).trans (((R1.dat (V3 m) c).arrAt_in 0 rfl _).trans (R1.A_eq (V3 m) c 0))
    _ = W2 m c (Proc.devRef .tc main_arg0) := StableHlo.after_of_writes_sub hostOps1 _ hostOps1_writes (r := main_arg0) (by decide)
    _ = W1 m c (Proc.devRef .tc main_arg0) := W2_of_ne m c main_arg0 (by decide)
    _ = W0 m c (Proc.devRef .tc main_arg0) := StableHlo.after_of_writes_sub hostOps0 _ hostOps0_writes (r := main_arg0) (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := (W4_arr m c 1).trans (((R1.dat (V3 m) c).arrAt_in 1 rfl _).trans (R1.A_eq (V3 m) c 1))
    _ = W2 m c (Proc.devRef .tc main_arg1) := StableHlo.after_of_writes_sub hostOps1 _ hostOps1_writes (r := main_arg1) (by decide)
    _ = W1 m c (Proc.devRef .tc main_arg1) := W2_of_ne m c main_arg1 (by decide)
    _ = W0 m c (Proc.devRef .tc main_arg1) := StableHlo.after_of_writes_sub hostOps0 _ hostOps0_writes (r := main_arg1) (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (r := main_arg2) (by decide)
    _ = W1 m c (Proc.devRef .tc main_arg2) := W2_of_ne m c main_arg2 (by decide)
    _ = W0 m c (Proc.devRef .tc main_arg2) := StableHlo.after_of_writes_sub hostOps0 _ hostOps0_writes (r := main_arg2) (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (r := main_arg3) (by decide)
    _ = W1 m c (Proc.devRef .tc main_arg3) := (W2_arr m c 0).trans (((R0.dat (V1 m) c).arrAt_in 0 rfl _).trans (R0.A_eq (V1 m) c 0))
    _ = W0 m c (Proc.devRef .tc main_arg3) := StableHlo.after_of_writes_sub hostOps0 _ hostOps0_writes (r := main_arg3) (by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (r := main_arg4) (by decide)
    _ = W1 m c (Proc.devRef .tc main_arg4) := (W2_arr m c 1).trans (((R0.dat (V1 m) c).arrAt_in 1 rfl _).trans (R0.A_eq (V1 m) c 1))
    _ = W0 m c (Proc.devRef .tc main_arg4) := StableHlo.after_of_writes_sub hostOps0 _ hostOps0_writes (r := main_arg4) (by decide)
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := (W4_arr m c 5).trans (((R1.dat (V3 m) c).arrAt_in 5 rfl _).trans (R1.A_eq (V3 m) c 5))
    _ = W2 m c (Proc.devRef .tc main_arg5) := StableHlo.after_of_writes_sub hostOps1 _ hostOps1_writes (r := main_arg5) (by decide)
    _ = W1 m c (Proc.devRef .tc main_arg5) := W2_of_ne m c main_arg5 (by decide)
    _ = W0 m c (Proc.devRef .tc main_arg5) := StableHlo.after_of_writes_sub hostOps0 _ hostOps0_writes (r := main_arg5) (by decide)
    _ = m ((c : Thread nD τ).loc main_arg5) := rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := StableHlo.after_of_writes_sub hostOps1 _ hostOps1_writes (r := main_arg6) (by decide)
    _ = W1 m c (Proc.devRef .tc main_arg6) := W2_of_ne m c main_arg6 (by decide)
    _ = W0 m c (Proc.devRef .tc main_arg6) := StableHlo.after_of_writes_sub hostOps0 _ hostOps0_writes (r := main_arg6) (by decide)
    _ = m ((c : Thread nD τ).loc main_arg6) := rfl

/-! ## The two results at the end -/

/-- The first result is the second region's output array. -/
theorem W4_main_v8 (c : Dev nD) : W4 m c (Proc.devRef .tc main_v8) = (R1.dat (V3 m) c).arrAt 6 cfg1.N := W4_arr m c 6
/-- The second result is written by the host operations between the regions; the second region leaves it alone. -/
theorem W4_main_v3 (c : Dev nD) : W4 m c (Proc.devRef .tc main_v3) = W3 m c (Proc.devRef .tc main_v3) := W4_of_ne m c main_v3 (by decide)

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => R0.dat (V1 m) c
  | ⟨1, _⟩ => fun c => R1.dat (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

set_option backward.isDefEq.respectTransparency.types false in
/-- Region 0 as a segment of @main: entered with every unscoped buffer at `W1`, left with them at `W2`. Its arrays
    are split out of the unscoped buffers on entry and put back at their final contents on exit; the generator register
    goes into the region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (R0.hin (V1 m) c)
    unfold Pipeline.ΦA
    iintro ⟨Hp, -, Hr⟩
    isplitl [Hr]; · iexact Hr
    iexact Hp
  hout c := by
    refine BIBase.Entails.trans (R0.hout (V1 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of @main: entered with every unscoped buffer at `W3`, left with them at `W4`. Its arrays
    are split out of the unscoped buffers on entry and put back at their final contents on exit; the generator register
    goes into the region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its four segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

variable (ρ : Dev nD → PrngReg)

set_option backward.isDefEq.respectTransparency.types false in
/-- THE RUN. From any memory with zero counters every weakly fair execution of @main terminates without a fault, and in
    every final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c)⟩) (run_all m ρ)

end Cert.KernelIdeal.Run

end
-- ==== Proof.RefRun.lean ====
import proofs.«149921_j80719615361567_1_alg».proof.Proof.Gen.ReferenceIdeal.Run
import proofs.«149921_j80719615361567_1_alg».proof.Proof.Gen.ReferenceIdeal.Read

/-! The reference program's run and its stage-by-stage reading are taken from the generated modules;
    this module only gathers them for the modules that state what the reference computes. -/
-- ==== Proof.Spec.lean ====
import Idealize.ShloMosaic.PureOps.Ideal
import Idealize.ShloMosaic.PureOps.Ideal.Laws
import Idealize.ShloMosaic.Lib.ValueIdx

/-! # What the two programs compute, over the extended reals

A radial-basis layer with sampled coefficients. For a batch row `b`, a centre `n`, an input feature `i` and an
output feature `o`:

* the sampled coefficient is `cm i o n + ep i o n * exp (clv i o n / 2)`, summed over the input features `i`;
* the squared distance of row `b` to centre `n` is `∑ k, (x b k - cen n k)²`;
* the basis value is `exp (- dist / (2 σ² + tiny))` with `σ = exp (ls n)`;
* the result is the basis values mixed by the summed coefficients plus the plain product `x · bw`;
* the second result is half the sum, over every coefficient, of `exp clv + cm² - 1 - clv`.

Two spellings are given. The first follows the textbook formula. The second is the arrangement in which a blocked
evaluation produces the same numbers: the distance expanded as `‖x‖² + ‖c‖² - 2 x·c`, the sum over the 512 input
features taken as eight runs of sixty-four, partial sums started from zero. `Cert.SpecLaws` proves them equal
(the expansion of the square needs the entries of `x` and `cen` to be real numbers). -/

noncomputable section

namespace Cert.Spec

open Idealize.ShloMosaic

/-- The four float literals the programs share, as the extended reals their words denote. -/
def half : EReal := Ideal.ofBits .f32 0x3F000000#32
def one : EReal := Ideal.ofBits .f32 0x3F800000#32
def two : EReal := Ideal.ofBits .f32 0x40000000#32
def tiny : EReal := Ideal.ofBits .f32 0x322BCC77#32

variable (x : Fin 4096 → Fin 512 → EReal) (cen : Fin 64 → Fin 512 → EReal) (ls : Fin 64 → EReal)
  (cm clv ep : Fin 512 → Fin 512 → Fin 64 → EReal) (bw : Fin 512 → Fin 512 → EReal)

/-- One sampled coefficient. -/
def coef (i o : Fin 512) (n : Fin 64) : EReal := cm i o n + ep i o n * Ideal.exp (half * clv i o n)

/-- One term of the divergence sum. -/
def klTerm (i o : Fin 512) (n : Fin 64) : EReal := Ideal.exp (clv i o n) + cm i o n * cm i o n - one - clv i o n

/-! ## The textbook spelling -/

def csum (o : Fin 512) (n : Fin 64) : EReal := ∑ i : Fin 512, coef cm clv ep i o n

def dist (b : Fin 4096) (n : Fin 64) : EReal := ∑ k : Fin 512, (x b k - cen n k) * (x b k - cen n k)

def width (n : Fin 64) : EReal := two * (Ideal.exp (ls n) * Ideal.exp (ls n)) + tiny

def rbf (b : Fin 4096) (n : Fin 64) : EReal := Ideal.exp (Ideal.div (-(dist x cen b n)) (width ls n))

def out (b : Fin 4096) (o : Fin 512) : EReal :=
  Ideal.div (∑ n : Fin 64, rbf x cen ls b n * csum cm clv ep o n) one + ∑ k : Fin 512, x b k * bw k o

def kl : EReal := half * (0 + ∑ i : Fin 512, ∑ o : Fin 512, ∑ n : Fin 64, klTerm cm clv i o n)

/-! ## The blocked spelling -/

/-- Input feature `64 k + j`: the `j`-th of the `k`-th run of sixty-four. -/
def feat (k : Fin 8) (j : Fin 64) : Fin 512 := ⟨64 * k.val + j.val, by omega⟩

def csumB (o : Fin 512) (n : Fin 64) : EReal := ∑ k : Fin 8, ∑ j : Fin 64, coef cm clv ep (feat k j) o n

def cnorm (n : Fin 64) : EReal := 0 + ∑ k : Fin 512, cen n k * cen n k

def distB (b : Fin 4096) (n : Fin 64) : EReal :=
  ((∑ k : Fin 512, x b k * x b k) + cnorm cen n) - two * ∑ k : Fin 512, x b k * cen n k

def widthB (n : Fin 64) : EReal := two * Ideal.exp (ls n) * Ideal.exp (ls n) + tiny

def rbfB (b : Fin 4096) (n : Fin 64) : EReal := Ideal.exp (Ideal.div (0 - distB x cen b n) (widthB ls n))

/-- The blocked result, over any table `cs` of summed coefficients. -/
def outB (cs : Fin 512 → Fin 64 → EReal) (b : Fin 4096) (o : Fin 512) : EReal :=
  (∑ n : Fin 64, rbfB x cen ls b n * cs o n) + ∑ k : Fin 512, x b k * bw k o

/-- The divergence's partial sum for output feature `o`. -/
def klPart (o : Fin 512) : EReal := ∑ k : Fin 8, ∑ j : Fin 64, ∑ n : Fin 64, klTerm cm clv (feat k j) o n

def klB : EReal := half * (0 + ∑ o : Fin 512, klPart cm clv o)

end Cert.Spec

end
-- ==== Proof.RefIsSpec.lean ====
import proofs.«149921_j80719615361567_1_alg».proof.Proof.RefRun
import proofs.«149921_j80719615361567_1_alg».proof.Proof.Spec
import Idealize.ShloMosaic.Lib.ValueIdx
import Idealize.ShloMosaic.PureOps.Ideal.Laws

/-! # The reference program computes the specification

Each result of the reference program, read at an index, is the textbook spelling of `Cert.Spec`: the layer's
output at a batch row and an output feature, and the divergence as one number. The reference's broadcasts only
re-index its arguments, its pointwise operations are the extended-real operations, and its sums are finite sums
started from the zero word, so the two sides meet term by term. -/

noncomputable section

namespace Cert.RefSpec

open Idealize.ShloMosaic Idealize.ShloMosaic.ValueIdx Cert.ReferenceIdeal

/-! ## A rank-3 index set is the product of its three coordinate ranges -/

def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## Where the broadcasts read their arguments -/

theorem idx_x_dist (b : Fin 4096) (n : Fin 64) (k : Fin 512) :
    Read.idx_main_v0 (Read.idx_main_v2 (Read.idx_main_v6 (ix2 b n) k)) = ix2 b k :=
  funext fun a => Fin.ext (by match a with | ⟨0, _⟩ => rfl | ⟨1, _⟩ => rfl)

theorem idx_cen_dist (b : Fin 4096) (n : Fin 64) (k : Fin 512) :
    Read.idx_main_v1 (Read.idx_main_v3 (Read.idx_main_v6 (ix2 b n) k)) = ix2 n k :=
  funext fun a => Fin.ext (by match a with | ⟨0, _⟩ => rfl | ⟨1, _⟩ => rfl)

theorem idx_ls_width (b : Fin 4096) (n : Fin 64) :
    Read.idx_main_v14 (Read.idx_main_v15 (ix2 b n)) = ix1 n :=
  funext fun a => Fin.ext (by match a with | ⟨0, _⟩ => rfl)

theorem idx_sample (o : Fin 512) (n : Fin 64) (s : Fin 1) (i : Fin 512) :
    Read.idx_main_v25 (Read.idx_main_v26 (ix2 o n) s) i = ix4 s i o n :=
  funext fun a => Fin.ext (by match a with | ⟨0, _⟩ => rfl | ⟨1, _⟩ => rfl | ⟨2, _⟩ => rfl | ⟨3, _⟩ => rfl)

theorem idx_cm_sample (s : Fin 1) (i o : Fin 512) (n : Fin 64) :
    Read.idx_main_v23 (ix4 s i o n) = ix3 i o n :=
  funext fun a => Fin.ext (by match a with | ⟨0, _⟩ => rfl | ⟨1, _⟩ => rfl | ⟨2, _⟩ => rfl)

theorem idx_clv_sample (s : Fin 1) (i o : Fin 512) (n : Fin 64) :
    Read.idx_main_v21 (ix4 s i o n) = ix3 i o n :=
  funext fun a => Fin.ext (by match a with | ⟨0, _⟩ => rfl | ⟨1, _⟩ => rfl | ⟨2, _⟩ => rfl)

theorem idx_rbf_dot (b : Fin 4096) (o : Fin 512) (n : Fin 64) :
    Read.lidx_main_v27 (ix2 b o) n = ix2 b n :=
  funext fun a => Fin.ext (by match a with | ⟨0, _⟩ => rfl | ⟨1, _⟩ => rfl)

theorem idx_csum_dot (b : Fin 4096) (o : Fin 512) (n : Fin 64) :
    Read.ridx_main_v27 (ix2 b o) n = ix2 o n :=
  funext fun a => Fin.ext (by match a with | ⟨0, _⟩ => rfl | ⟨1, _⟩ => rfl)

theorem idx_x_dot (b : Fin 4096) (o k : Fin 512) :
    Read.lidx_main_v30 (ix2 b o) k = ix2 b k :=
  funext fun a => Fin.ext (by match a with | ⟨0, _⟩ => rfl | ⟨1, _⟩ => rfl)

theorem idx_bw_dot (b : Fin 4096) (o k : Fin 512) :
    Read.ridx_main_v30 (ix2 b o) k = ix2 k o :=
  funext fun a => Fin.ext (by match a with | ⟨0, _⟩ => rfl | ⟨1, _⟩ => rfl)

/-! ## The stages of the reference, at an index -/

section
variable (x0 : (⟨S4096x512, .f32⟩ : BufTy).Contents (Elt Ideal)) (x1 : (⟨S64x512, .f32⟩ : BufTy).Contents (Elt Ideal))
  (x2 : (⟨S64, .f32⟩ : BufTy).Contents (Elt Ideal)) (x3 x4 : (⟨S512x512x64, .f32⟩ : BufTy).Contents (Elt Ideal))
  (x5 : (⟨S512x512, .f32⟩ : BufTy).Contents (Elt Ideal)) (x6 : (⟨S1x512x512x64, .f32⟩ : BufTy).Contents (Elt Ideal))

/-- The squared distance of a row to a centre. -/
theorem dist_ref (b : Fin 4096) (n : Fin 64) :
    Read.val_main_v6 (F := Ideal) x0 x1 (ix2 b n)
      = Cert.Spec.dist (fun b k => x0 (ix2 b k)) (fun n k => x1 (ix2 n k)) b n := by
  rw [Read.val_main_v6_apply]
  simp only [Read.val_main_v5_apply, Read.val_main_v4_apply, Read.val_main_v2_apply, Read.val_main_v3_apply,
    Read.val_main_v0_apply, Read.val_main_v1_apply, Read.val_main_cst_apply, idx_x_dist, idx_cen_dist,
    Ideal.mulf_def, Ideal.subf_def, Ideal.ofBits_def, Ideal.ofBits_zero_f32, zero_add, Cert.Spec.dist]

/-- The width of a centre's bump. -/
theorem width_ref (b : Fin 4096) (n : Fin 64) :
    Read.val_main_v15 (F := Ideal) x2 (ix2 b n) = Cert.Spec.width (fun n => x2 (ix1 n)) n := by
  rw [Read.val_main_v15_apply, Read.val_main_v14_apply, idx_ls_width, Read.val_main_v13_apply, Read.val_main_v11_apply,
    Read.val_main_v12_apply, Read.val_main_v10_apply, Read.val_main_v9_apply, Read.val_main_v7_apply,
    Read.val_main_cst_0_apply, Read.val_main_cst_1_apply]
  simp only [Ideal.mulf_def, Ideal.addf_def, Ideal.ofBits_def, Ideal.hostUnary_exp_def, Cert.Spec.width, Cert.Spec.two,
    Cert.Spec.tiny]

/-- The basis value of a row at a centre. -/
theorem rbf_ref (b : Fin 4096) (n : Fin 64) :
    Read.val_main_v17 (F := Ideal) x0 x1 x2 (ix2 b n)
      = Cert.Spec.rbf (fun b k => x0 (ix2 b k)) (fun n k => x1 (ix2 n k)) (fun n => x2 (ix1 n)) b n := by
  rw [Read.val_main_v17_apply, Read.val_main_v16_apply, Read.val_main_v8_apply, dist_ref, width_ref]
  simp only [Ideal.hostUnary_exp_def, Ideal.hostDivf_def, Ideal.hostNegf_def, Ideal.negf_def, Cert.Spec.rbf]

/-- The sampled coefficients summed over the input features (the sample axis has one entry). -/
theorem csum_ref (o : Fin 512) (n : Fin 64) :
    Read.val_main_v26 (F := Ideal) x3 x4 x6 (ix2 o n)
      = Cert.Spec.csum (fun i o n => x3 (ix3 i o n)) (fun i o n => x4 (ix3 i o n)) (fun i o n => x6 (ix4 0 i o n)) o n := by
  rw [Read.val_main_v26_apply, Fin.sum_univ_one, Read.val_main_v25_apply]
  simp only [Read.val_main_v24_apply, Read.val_main_v23_apply, Read.val_main_v22_apply, Read.val_main_v21_apply,
    Read.val_main_v20_apply, Read.val_main_v19_apply, Read.val_main_v18_apply, Read.val_main_cst_2_apply,
    Read.val_main_cst_3_apply, Read.val_main_cst_4_apply, idx_sample, idx_cm_sample, idx_clv_sample,
    Ideal.mulf_def, Ideal.addf_def, Ideal.ofBits_def, Ideal.hostUnary_exp_def, Ideal.ofBits_zero_f32, zero_add,
    Cert.Spec.csum, Cert.Spec.coef, Cert.Spec.half]

/-- The layer's output at a batch row and an output feature. -/
theorem out_ref (b : Fin 4096) (o : Fin 512) :
    Read.val_main_v31 (F := Ideal) x0 x1 x2 x3 x4 x5 x6 (ix2 b o)
      = Cert.Spec.out (fun b k => x0 (ix2 b k)) (fun n k => x1 (ix2 n k)) (fun n => x2 (ix1 n))
          (fun i o n => x3 (ix3 i o n)) (fun i o n => x4 (ix3 i o n)) (fun i o n => x6 (ix4 0 i o n))
          (fun k o => x5 (ix2 k o)) b o := by
  rw [Read.val_main_v31_apply, Read.val_main_v29_apply, Read.val_main_v28_apply, Read.val_main_cst_5_apply,
    Read.val_main_v27_apply, Read.val_main_v30_apply]
  simp only [idx_rbf_dot, idx_csum_dot, idx_x_dot, idx_bw_dot, rbf_ref, csum_ref, Ideal.addf_def, Ideal.hostDivf_def,
    Ideal.ofBits_def, Cert.Spec.out, Cert.Spec.one]

/-- The divergence. -/
theorem kl_ref :
    Read.val_main_v39 (F := Ideal) x3 x4 ix0
      = Cert.Spec.kl (fun i o n => x3 (ix3 i o n)) (fun i o n => x4 (ix3 i o n)) := by
  rw [Read.val_main_v39_apply, Read.val_main_v38_apply, Read.val_main_cst_8_apply, Read.val_main_cst_7_apply, sum_idx3]
  simp only [Read.val_main_v37_apply, Read.val_main_v36_apply, Read.val_main_v35_apply, Read.val_main_v34_apply,
    Read.val_main_v33_apply, Read.val_main_v32_apply, Read.val_main_cst_6_apply, Ideal.mulf_def, Ideal.addf_def,
    Ideal.subf_def, Ideal.ofBits_def, Ideal.hostUnary_exp_def, Ideal.ofBits_zero_f32, Cert.Spec.kl, Cert.Spec.klTerm,
    Cert.Spec.half, Cert.Spec.one]

end

end Cert.RefSpec

end
-- ==== Proof.SpecLaws.lean ====
import proofs.«149921_j80719615361567_1_alg».proof.Proof.Spec
import Mathlib.Algebra.BigOperators.Fin
import Mathlib.Algebra.BigOperators.Ring.Finset
import Mathlib.Logic.Equiv.Fin.Basic
import Mathlib.Data.EReal.Basic
import Mathlib.Data.EReal.Operations
import Mathlib.Tactic.Ring
import Mathlib.Tactic.NormNum

/-! # The two spellings of the specification agree

The blocked spelling of `Cert.Spec` equals the textbook one: a sum over 512 features is the sum over eight
runs of sixty-four; the expanded distance `‖x‖² + ‖c‖² - 2 x·c` is the sum of squared differences when the
entries are real numbers; the remaining differences are associativity, `0 - d = -d`, and a division by one. -/

noncomputable section

namespace Cert.SpecLaws

open Idealize.ShloMosaic
open scoped BigOperators

/-! ## General facts -/

/-- A sum over 512 indices is the sum over eight runs of sixty-four. -/
theorem sum_feat {M : Type*} [AddCommMonoid M] (f : Fin 512 → M) :
    ∑ i, f i = ∑ k : Fin 8, ∑ j : Fin 64, f (Spec.feat k j) := by
  calc ∑ i, f i = ∑ p : Fin 8 × Fin 64, f (Spec.feat p.1 p.2) := by
        refine (Fintype.sum_equiv (finProdFinEquiv (m := 8) (n := 64))
          (fun p => f (Spec.feat p.1 p.2)) f ?_).symm
        rintro ⟨k, j⟩
        congr 1
        apply Fin.ext
        simp only [Spec.feat, finProdFinEquiv_apply_val]
        omega
    _ = _ := Fintype.sum_prod_type' (fun k j => f (Spec.feat k j))

/-- The coercion of the reals into the extended reals commutes with finite sums. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-! ## The literals -/

theorem one_eq : Spec.one = ((1 : ℝ) : EReal) := by
  simp [Spec.one, Ideal.ofBits, Ideal.ieee, -EReal.coe_mul]; norm_num

theorem two_eq : Spec.two = ((2 : ℝ) : EReal) := by
  simp [Spec.two, Ideal.ofBits, Ideal.ieee, -EReal.coe_mul]; norm_num

/-- Dividing by the literal one changes nothing. -/
theorem div_one (z : EReal) : Ideal.div z Spec.one = z := by
  rw [one_eq, Ideal.div_coe one_ne_zero]
  simp

variable (x : Fin 4096 → Fin 512 → EReal) (cen : Fin 64 → Fin 512 → EReal) (ls : Fin 64 → EReal)
  (cm clv ep : Fin 512 → Fin 512 → Fin 64 → EReal) (bw : Fin 512 → Fin 512 → EReal)

/-! ## The summed coefficients -/

theorem csumB_eq (o : Fin 512) (n : Fin 64) : Spec.csumB cm clv ep o n = Spec.csum cm clv ep o n := by
  unfold Spec.csumB Spec.csum
  exact (sum_feat (fun i => Spec.coef cm clv ep i o n)).symm

/-! ## The distance -/

theorem distB_eq (b : Fin 4096) (n : Fin 64) (hx : ∀ k, ∃ r : ℝ, x b k = (r : EReal))
    (hc : ∀ k, ∃ r : ℝ, cen n k = (r : EReal)) : Spec.distB x cen b n = Spec.dist x cen b n := by
  choose xr hxr using hx
  choose cr hcr using hc
  unfold Spec.distB Spec.dist Spec.cnorm
  simp only [hxr, hcr, two_eq, zero_add]
  simp only [← EReal.coe_mul, ← EReal.coe_sub, ← coe_sum, ← EReal.coe_add]
  congr 1
  rw [Finset.mul_sum, ← Finset.sum_add_distrib, ← Finset.sum_sub_distrib]
  refine Finset.sum_congr rfl fun k _ => ?_
  ring

/-! ## The width -/

theorem widthB_eq (n : Fin 64) : Spec.widthB ls n = Spec.width ls n := by
  unfold Spec.widthB Spec.width
  rw [mul_assoc]

/-! ## The first result -/

theorem rbfB_eq (b : Fin 4096) (n : Fin 64) (hx : ∀ k, ∃ r : ℝ, x b k = (r : EReal))
    (hc : ∀ k, ∃ r : ℝ, cen n k = (r : EReal)) : Spec.rbfB x cen ls b n = Spec.rbf x cen ls b n := by
  unfold Spec.rbfB Spec.rbf
  rw [distB_eq x cen b n hx hc, widthB_eq, zero_sub]

theorem out_eq (hx : ∀ b k, ∃ r : ℝ, x b k = (r : EReal)) (hc : ∀ n k, ∃ r : ℝ, cen n k = (r : EReal))
    (b : Fin 4096) (o : Fin 512) :
    Spec.outB x cen ls bw (Spec.csumB cm clv ep) b o = Spec.out x cen ls cm clv ep bw b o := by
  unfold Spec.outB Spec.out
  rw [div_one]
  congr 1
  refine Finset.sum_congr rfl fun n _ => ?_
  rw [rbfB_eq x cen ls b n (hx b) (hc n), csumB_eq]

/-! ## The second result -/

theorem kl_eq : Spec.klB cm clv = Spec.kl cm clv := by
  have hp : ∀ o, Spec.klPart cm clv o = ∑ i : Fin 512, ∑ n : Fin 64, Spec.klTerm cm clv i o n := fun o => by
    unfold Spec.klPart
    exact (sum_feat (fun i => ∑ n : Fin 64, Spec.klTerm cm clv i o n)).symm
  unfold Spec.klB Spec.kl
  simp only [hp]
  rw [Finset.sum_comm]

end Cert.SpecLaws

end
-- ==== Proof.Finite.lean ====
import proofs.«149921_j80719615361567_1_alg».proof.Pre_finite_inputs
import Idealize.ShloMosaic.Lib.ReduceAll
import Idealize.ShloMosaic.Lib.ValueIdx
import Idealize.ShloMosaic.PureOps.Ideal
import Mathlib.Data.EReal.Basic

/-! # From the printed precondition to real entries

The precondition says that every entry of every argument has absolute value below `+∞`. An extended real
whose absolute value is below `+∞` is a real number; here that is read off for the first two arguments. -/

noncomputable section

namespace Cert.Finite

open Idealize.ShloMosaic
open Cert.Pre_finite_inputs

/-- The scalar shape has one index. -/
instance : Subsingleton S_.Idx := ⟨fun a b => funext fun d => d.elim0⟩

/-- The word `0x7F800000` is `+∞`. -/
theorem inf_eq : Ideal.ofBits .f32 0x7F800000#32 = (⊤ : EReal) := by simp [Ideal.ofBits, Ideal.ieee]

/-- An extended real whose absolute value compares below `+∞` is a real number. -/
theorem real_of_abs_lt (x : EReal)
    (h : Ideal.cmp .olt (max x (-x)) (Ideal.ofBits .f32 0x7F800000#32) = 1#1) : ∃ r : ℝ, x = (r : EReal) := by
  rw [inf_eq] at h
  induction x using EReal.rec with
  | bot => simp [Ideal.cmp] at h
  | coe r => exact ⟨r, rfl⟩
  | top => simp [Ideal.cmp] at h

/-- A conjunction of two one-bit scalars that is one has both conjuncts one. -/
theorem andi_ix0 {p q : IVec S_ 1} (h : andi p q ValueIdx.ix0 = 1#1) :
    p ValueIdx.ix0 = 1#1 ∧ q ValueIdx.ix0 = 1#1 := IntOp.andi_eq_one.1 h

theorem real_x_cen [Cert.Pre_finite_inputs.Facts]
    (a0 : (⟨S4096x512, .f32⟩ : BufTy).Contents (Elt Ideal))
    (a1 : (⟨S64x512, .f32⟩ : BufTy).Contents (Elt Ideal))
    (a2 : (⟨S64, .f32⟩ : BufTy).Contents (Elt Ideal))
    (a3 : (⟨S512x512x64, .f32⟩ : BufTy).Contents (Elt Ideal))
    (a4 : (⟨S512x512x64, .f32⟩ : BufTy).Contents (Elt Ideal))
    (a5 : (⟨S512x512, .f32⟩ : BufTy).Contents (Elt Ideal))
    (a6 : (⟨S1x512x512x64, .f32⟩ : BufTy).Contents (Elt Ideal))
    (h : Cert.Pre_finite_inputs.fn (F := Ideal) a0 a1 a2 a3 a4 a5 a6 = fun _ => 1#1) :
    (∀ i, ∃ r : ℝ, a0 i = (r : EReal)) ∧ (∀ i, ∃ r : ℝ, a1 i = (r : EReal)) := by
  have h0 := congrFun h ValueIdx.ix0
  dsimp only [fn, fn_part1] at h0
  have h28 := (andi_ix0 h0).1
  have h23 := (andi_ix0 h28).1
  have h18 := (andi_ix0 h23).1
  have h13 := (andi_ix0 h18).1
  have h8 := (andi_ix0 h13).1
  obtain ⟨h3, h7⟩ := andi_ix0 h8
  exact ⟨fun i => real_of_abs_lt (a0 i) (Host.reduce_andi_all _ _ _ _ _ h3 i),
    fun i => real_of_abs_lt (a1 i) (Host.reduce_andi_all _ _ _ _ _ h7 i)⟩

/-- The same, with the two arrays read by coordinates. -/
theorem real_x_cen_coords [Cert.Pre_finite_inputs.Facts]
    (a0 : (⟨S4096x512, .f32⟩ : BufTy).Contents (Elt Ideal))
    (a1 : (⟨S64x512, .f32⟩ : BufTy).Contents (Elt Ideal))
    (a2 : (⟨S64, .f32⟩ : BufTy).Contents (Elt Ideal))
    (a3 : (⟨S512x512x64, .f32⟩ : BufTy).Contents (Elt Ideal))
    (a4 : (⟨S512x512x64, .f32⟩ : BufTy).Contents (Elt Ideal))
    (a5 : (⟨S512x512, .f32⟩ : BufTy).Contents (Elt Ideal))
    (a6 : (⟨S1x512x512x64, .f32⟩ : BufTy).Contents (Elt Ideal))
    (h : Cert.Pre_finite_inputs.fn (F := Ideal) a0 a1 a2 a3 a4 a5 a6 = fun _ => 1#1) :
    (∀ (b : Fin 4096) (k : Fin 512), ∃ r : ℝ, a0 (ValueIdx.ix2 b k) = (r : EReal))
      ∧ (∀ (n : Fin 64) (k : Fin 512), ∃ r : ℝ, a1 (ValueIdx.ix2 n k) = (r : EReal)) :=
  ⟨fun b k => (real_x_cen a0 a1 a2 a3 a4 a5 a6 h).1 _, fun n k => (real_x_cen a0 a1 a2 a3 a4 a5 a6 h).2 _⟩

end Cert.Finite

end
-- ==== Proof.PayMath.lean ====
import proofs.«149921_j80719615361567_1_alg».proof.Proof.Gen.KernelIdeal.Skeleton
import proofs.«149921_j80719615361567_1_alg».proof.Proof.Spec
import Idealize.ShloMosaic.Lib.ValueIdx
import Idealize.ShloMosaic.Lib.ValueLayout
import Idealize.ShloMosaic.Lib.Pipeline.Value
import Idealize.ShloMosaic.PureOps.Ideal.Laws

/-! # Each body's arithmetic, read at one index

The coefficient body adds to a running table, at output feature `o` and centre `n`, the sum over sixty-four
input features of the sampled coefficient, and to a running row the sum over the same features and all centres of
the divergence term; both tables start from zero. The main body, at batch row `p` and output feature `q`, mixes
the radial basis values by the coefficient table and adds the plain product. Each theorem states one of these
values over explicit coordinates, as sums over `Fin`. -/

noncomputable section

namespace Cert.KernelIdeal.Pay

open Idealize.ShloMosaic Idealize.SL.Sem Idealize.ShloMosaic.ValueIdx
open Cert.KernelIdeal Cert.KernelIdeal.Gen

/-! ## The coefficient body -/

/-- The running table of summed coefficients starts from zero. -/
theorem pay1_apply (j : S128x64.Idx) : k0_pay1 (F := Ideal) j = 0 := by
  unfold k0_pay1
  rw [shapeCast_self]
  exact Ideal.ofBits_zero_f32

/-- The running row of the divergence starts from zero. -/
theorem pay2_apply (j : S1x128.Idx) : k0_pay2 (F := Ideal) j = 0 := by
  unfold k0_pay2
  rw [shapeCast_self]
  exact Ideal.ofBits_zero_f32

/-- The index a sum over axis 0 of a `[64, 128, 64]` array reads at `(o, n)` for the summed coordinate `j`. -/
theorem lift3_0 (o : Fin 128) (n : Fin 64) (j : Fin 64) :
    reduces_S64x128x64_S128x64.lift (ix2 o n) j = ix3 j o n :=
  funext fun a => Fin.ext (by match a with | ⟨0, _⟩ => rfl | ⟨1, _⟩ => rfl | ⟨2, _⟩ => rfl)

/-- The index a sum over axis 0 of a `[64, 128]` array reads at `o` for the summed coordinate `j`. -/
theorem lift2_0 (o : Fin 128) (j : Fin 64) :
    reduces_S64x128_S128.lift (ix1 o) j = ix2 j o :=
  funext fun a => Fin.ext (by match a with | ⟨0, _⟩ => rfl | ⟨1, _⟩ => rfl)

/-- The index a sum over axis 2 of a `[64, 128, 64]` array reads at `(j, o)` for the summed coordinate `n`. -/
theorem lift3_2 (j : Fin 64) (o : Fin 128) (n : Fin 64) :
    reduces_S64x128x64_S64x128.lift (ix2 j o) n = ix3 j o n :=
  funext fun a => Fin.ext (by match a with | ⟨0, _⟩ => rfl | ⟨1, _⟩ => rfl | ⟨2, _⟩ => rfl)

/-- One step of the coefficient table: the table so far plus the sum over the run's sixty-four input features of
    `cm + ep * exp (clv / 2)`. -/
theorem pay3_apply (v3 v4 v5 : Vec Ideal S64x128x64 .f32) (s : Vec Ideal S128x64 .f32) (o : Fin 128) (n : Fin 64) :
    k0_pay3 v3 v4 v5 s (ix2 o n)
      = s (ix2 o n) + ∑ j : Fin 64, (v3 (ix3 j o n) + v5 (ix3 j o n) * Ideal.exp (Cert.Spec.half * v4 (ix3 j o n))) := by
  unfold k0_pay3
  rw [shapeCast_self, shapeCast_self]
  refine (addf_apply _ _ _).trans ?_
  refine congrArg (s (ix2 o n) + ·) ?_
  refine (Ideal.multiReduction_add_single _ _ _ _ _ _).trans ?_
  refine Finset.sum_congr rfl fun (j : Fin 64) _ => ?_
  exact (congrArg _ (lift3_0 o n j)).trans rfl

/-- One step of the divergence row: the row so far plus the sum, over the run's input features and every centre, of
    `exp clv + cm² - 1 - clv` (the centres are summed first). -/
theorem pay4_apply (v3 v4 : Vec Ideal S64x128x64 .f32) (s : Vec Ideal S1x128 .f32) (o : Fin 128) :
    k0_pay4 v3 v4 s (ix2 0 o)
      = s (ix2 0 o) + ∑ j : Fin 64, ∑ n : Fin 64,
          (Ideal.exp (v4 (ix3 j o n)) + v3 (ix3 j o n) * v3 (ix3 j o n) - Cert.Spec.one - v4 (ix3 j o n)) := by
  unfold k0_pay4
  rw [shapeCast_self]
  refine (addf_apply _ _ _).trans ?_
  refine congrArg (s (ix2 0 o) + ·) ?_
  refine (shapeCast_a_1a_apply _ _ (0 : Fin 1) o).trans ?_
  refine (Ideal.multiReduction_add_single _ _ _ _ _ _).trans ?_
  refine Finset.sum_congr rfl fun (j : Fin 64) _ => ?_
  refine (congrArg _ (lift2_0 o j)).trans ?_
  refine (Ideal.multiReduction_add_single _ _ _ _ _ _).trans ?_
  refine Finset.sum_congr rfl fun (n : Fin 64) _ => ?_
  exact (congrArg _ (lift3_2 j o n)).trans rfl

/-! ## The main body: the layout operations it uses, read at coordinates -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The index a sum over axis 1 of a `[1024, 512]` array reads at `p` for the summed coordinate `k`. -/
theorem lift2_1 (p : Fin 1024) (k : Fin 512) :
    reduces_S1024x512_S1024.lift (ix1 p) k = ix2 p k :=
  funext fun a => Fin.ext (by match a with | ⟨0, _⟩ => rfl | ⟨1, _⟩ => rfl)

/-- A row's sum of squares, kept as a column and spread over the sixty-four centres, is that sum at every centre. -/
theorem rowsum_apply (x : FVec Ideal S1024x512 .f32) (hφ : FKind.Formats .f32)
    (hacc : (0x00000000#32 : BitVec 32) = FKind.add.neutral .f32 hφ) (p : Fin 1024) (n : Fin 64) :
    broadcastTo S1024x64 (shapeCast S1024x1 (multiReduction .add [1] S1024 x 0x00000000#32 reduces_S1024x512_S1024 hφ hacc)
        shapeCasts_S1024_S1024x1) broadcasts_S1024x1_S1024x64 (ix2 p n)
      = ∑ k : Fin 512, x (ix2 p k) := by
  refine (broadcastTo_a1_ab_apply _ _ p n).trans ?_
  refine (shapeCast_a_a1_apply _ _ p (0 : Fin 1)).trans ?_
  refine (Ideal.multiReduction_add_single _ _ _ _ _ _).trans ?_
  refine Finset.sum_congr rfl fun (k : Fin 512) _ => ?_
  exact congrArg x (lift2_1 p k)

/-! ## The three products of the main body, read at coordinates

Each contracts one axis; the operand indices at an output index and a contraction coordinate are found axis by
axis. -/

theorem lhs_mm1_0 (i : S1024x64.Idx) (q : dot_S1024x512_S64x512_S1024x64_1_1_0_0_n_n.contr.Idx) :
    (dot_S1024x512_S64x512_S1024x64_1_1_0_0_n_n.lhsIdx i q 0).val = (i 0).val := by
  unfold DotDims.lhsIdx
  rw [dif_neg (show ¬(0 : Fin S1024x512.rank) ∈ dot_S1024x512_S64x512_S1024x64_1_1_0_0_n_n.lhsBatch by decide), dif_pos (show (0 : Fin S1024x512.rank) ∈ dot_S1024x512_S64x512_S1024x64_1_1_0_0_n_n.lhsNonContracting by decide)]
  rfl
theorem lhs_mm1_1 (i : S1024x64.Idx) (q : dot_S1024x512_S64x512_S1024x64_1_1_0_0_n_n.contr.Idx) :
    (dot_S1024x512_S64x512_S1024x64_1_1_0_0_n_n.lhsIdx i q 1).val = (q ⟨0, by decide⟩).val :=
  dot_S1024x512_S64x512_S1024x64_1_1_0_0_n_n.lhsIdx_val_of_single rfl i q
theorem rhs_mm1_0 (i : S1024x64.Idx) (q : dot_S1024x512_S64x512_S1024x64_1_1_0_0_n_n.contr.Idx) :
    (dot_S1024x512_S64x512_S1024x64_1_1_0_0_n_n.rhsIdx i q 0).val = (i 1).val := by
  unfold DotDims.rhsIdx
  rw [dif_neg (show ¬(0 : Fin S64x512.rank) ∈ dot_S1024x512_S64x512_S1024x64_1_1_0_0_n_n.rhsBatch by decide), dif_pos (show (0 : Fin S64x512.rank) ∈ dot_S1024x512_S64x512_S1024x64_1_1_0_0_n_n.rhsNonContracting by decide)]
  rfl
theorem rhs_mm1_1 (i : S1024x64.Idx) (q : dot_S1024x512_S64x512_S1024x64_1_1_0_0_n_n.contr.Idx) :
    (dot_S1024x512_S64x512_S1024x64_1_1_0_0_n_n.rhsIdx i q 1).val = (q ⟨0, by decide⟩).val :=
  dot_S1024x512_S64x512_S1024x64_1_1_0_0_n_n.rhsIdx_val_of_single rfl i q

/-- The product of the rows with the centres: at `(p, n)`, the sum over the 512 features of row `p` times centre `n`. -/
theorem mm1_apply {φ₁ φ₂ : FTy} (l : FVec Ideal S1024x512 φ₁) (r : FVec Ideal S64x512 φ₂) (p : Fin 1024) (n : Fin 64) :
    matmul dot_S1024x512_S64x512_S1024x64_1_1_0_0_n_n none l r (constant (F := Ideal) S1024x64 .f32 0x00000000#32) (ix2 p n)
      = ∑ k : Fin 512, l (ix2 p k) * r (ix2 n k) := by
  simp only [matmul]
  rw [Ideal.matmul_constant_zero_apply, ← Equiv.sum_comp (contrEquiv1 dot_S1024x512_S64x512_S1024x64_1_1_0_0_n_n 512 rfl rfl).symm]
  refine Finset.sum_congr rfl fun k _ => ?_
  have hk := contrEquiv1_symm_val dot_S1024x512_S64x512_S1024x64_1_1_0_0_n_n 512 rfl rfl k
  have el : dot_S1024x512_S64x512_S1024x64_1_1_0_0_n_n.lhsIdx (ix2 p n) ((contrEquiv1 dot_S1024x512_S64x512_S1024x64_1_1_0_0_n_n 512 rfl rfl).symm k) = ix2 p k := funext fun a => Fin.ext (by
    match a with
    | ⟨0, _⟩ => exact lhs_mm1_0 _ _
    | ⟨1, _⟩ => exact (lhs_mm1_1 _ _).trans hk)
  have er : dot_S1024x512_S64x512_S1024x64_1_1_0_0_n_n.rhsIdx (ix2 p n) ((contrEquiv1 dot_S1024x512_S64x512_S1024x64_1_1_0_0_n_n 512 rfl rfl).symm k) = ix2 n k := funext fun a => Fin.ext (by
    match a with
    | ⟨0, _⟩ => exact rhs_mm1_0 _ _
    | ⟨1, _⟩ => exact (rhs_mm1_1 _ _).trans hk)
  rw [el, er]

theorem lhs_mm2_0 (i : S1024x512.Idx) (q : dot_S1024x64_S512x64_S1024x512_1_1_0_0_n_n.contr.Idx) :
    (dot_S1024x64_S512x64_S1024x512_1_1_0_0_n_n.lhsIdx i q 0).val = (i 0).val := by
  unfold DotDims.lhsIdx
  rw [dif_neg (show ¬(0 : Fin S1024x64.rank) ∈ dot_S1024x64_S512x64_S1024x512_1_1_0_0_n_n.lhsBatch by decide), dif_pos (show (0 : Fin S1024x64.rank) ∈ dot_S1024x64_S512x64_S1024x512_1_1_0_0_n_n.lhsNonContracting by decide)]
  rfl
theorem lhs_mm2_1 (i : S1024x512.Idx) (q : dot_S1024x64_S512x64_S1024x512_1_1_0_0_n_n.contr.Idx) :
    (dot_S1024x64_S512x64_S1024x512_1_1_0_0_n_n.lhsIdx i q 1).val = (q ⟨0, by decide⟩).val :=
  dot_S1024x64_S512x64_S1024x512_1_1_0_0_n_n.lhsIdx_val_of_single rfl i q
theorem rhs_mm2_0 (i : S1024x512.Idx) (q : dot_S1024x64_S512x64_S1024x512_1_1_0_0_n_n.contr.Idx) :
    (dot_S1024x64_S512x64_S1024x512_1_1_0_0_n_n.rhsIdx i q 0).val = (i 1).val := by
  unfold DotDims.rhsIdx
  rw [dif_neg (show ¬(0 : Fin S512x64.rank) ∈ dot_S1024x64_S512x64_S1024x512_1_1_0_0_n_n.rhsBatch by decide), dif_pos (show (0 : Fin S512x64.rank) ∈ dot_S1024x64_S512x64_S1024x512_1_1_0_0_n_n.rhsNonContracting by decide)]
  rfl
theorem rhs_mm2_1 (i : S1024x512.Idx) (q : dot_S1024x64_S512x64_S1024x512_1_1_0_0_n_n.contr.Idx) :
    (dot_S1024x64_S512x64_S1024x512_1_1_0_0_n_n.rhsIdx i q 1).val = (q ⟨0, by decide⟩).val :=
  dot_S1024x64_S512x64_S1024x512_1_1_0_0_n_n.rhsIdx_val_of_single rfl i q

/-- The mixing product: at `(p, q)`, the sum over the sixty-four centres of the left operand at `(p, n)` times the
    right operand at `(q, n)`. -/
theorem mm2_apply {φ₁ φ₂ : FTy} (l : FVec Ideal S1024x64 φ₁) (r : FVec Ideal S512x64 φ₂) (p : Fin 1024) (q : Fin 512) :
    matmul dot_S1024x64_S512x64_S1024x512_1_1_0_0_n_n none l r (constant (F := Ideal) S1024x512 .f32 0x00000000#32) (ix2 p q)
      = ∑ n : Fin 64, l (ix2 p n) * r (ix2 q n) := by
  simp only [matmul]
  rw [Ideal.matmul_constant_zero_apply, ← Equiv.sum_comp (contrEquiv1 dot_S1024x64_S512x64_S1024x512_1_1_0_0_n_n 64 rfl rfl).symm]
  refine Finset.sum_congr rfl fun k _ => ?_
  have hk := contrEquiv1_symm_val dot_S1024x64_S512x64_S1024x512_1_1_0_0_n_n 64 rfl rfl k
  have el : dot_S1024x64_S512x64_S1024x512_1_1_0_0_n_n.lhsIdx (ix2 p q) ((contrEquiv1 dot_S1024x64_S512x64_S1024x512_1_1_0_0_n_n 64 rfl rfl).symm k) = ix2 p k := funext fun a => Fin.ext (by
    match a with
    | ⟨0, _⟩ => exact lhs_mm2_0 _ _
    | ⟨1, _⟩ => exact (lhs_mm2_1 _ _).trans hk)
  have er : dot_S1024x64_S512x64_S1024x512_1_1_0_0_n_n.rhsIdx (ix2 p q) ((contrEquiv1 dot_S1024x64_S512x64_S1024x512_1_1_0_0_n_n 64 rfl rfl).symm k) = ix2 q k := funext fun a => Fin.ext (by
    match a with
    | ⟨0, _⟩ => exact rhs_mm2_0 _ _
    | ⟨1, _⟩ => exact (rhs_mm2_1 _ _).trans hk)
  rw [el, er]

theorem lhs_mm3_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem lhs_mm3_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
theorem rhs_mm3_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
theorem rhs_mm3_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- The plain product: at `(p, q)`, the sum over the 512 features of the left operand at `(p, k)` times the right
    operand at `(k, q)`. -/
theorem mm3_apply {φ₁ φ₂ : FTy} (l : FVec Ideal S1024x512 φ₁) (r : FVec Ideal S512x512 φ₂) (p : Fin 1024) (q : Fin 512) :
    matmul dot_S1024x512_S512x512_S1024x512_1_0_0_1_n_n none l r (constant (F := Ideal) S1024x512 .f32 0x00000000#32) (ix2 p q)
      = ∑ k : Fin 512, l (ix2 p k) * r (ix2 k q) := by
  simp only [matmul]
  rw [Ideal.matmul_constant_zero_apply, ← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 p q) ((contrEquiv1 dot_S1024x512_S512x512_S1024x512_1_0_0_1_n_n 512 rfl rfl).symm k) = ix2 p k := funext fun a => Fin.ext (by
    match a with
    | ⟨0, _⟩ => exact lhs_mm3_0 _ _
    | ⟨1, _⟩ => exact (lhs_mm3_1 _ _).trans hk)
  have er : dot_S1024x512_S512x512_S1024x512_1_0_0_1_n_n.rhsIdx (ix2 p q) ((contrEquiv1 dot_S1024x512_S512x512_S1024x512_1_0_0_1_n_n 512 rfl rfl).symm k) = ix2 k q := funext fun a => Fin.ext (by
    match a with
    | ⟨0, _⟩ => exact (rhs_mm3_0 _ _).trans hk
    | ⟨1, _⟩ => exact rhs_mm3_1 _ _)
  rw [el, er]

/-! ## The main body -/

/-- The main body's value at batch row `p` and output feature `q`: the basis values
    `exp (-(‖x‖² + ‖c‖² - 2 x·c) / (2 σ² + tiny))` mixed by the coefficient table, plus the plain product. -/
theorem pay_out_apply (v0 : Vec Ideal S1024x512 .f32) (v1 : Vec Ideal S64x512 .f32) (v2 v4 : Vec Ideal S1x64 .f32)
    (v6 : Vec Ideal S512x64 .f32) (v8 : Vec Ideal S512x512 .f32) (p : Fin 1024) (q : Fin 512) :
    k1_pay1 v0 v1 v2 v4 v6 v8 (ix2 p q)
      = (∑ n : Fin 64, Ideal.exp (Ideal.div (0 - (((∑ k : Fin 512, v0 (ix2 p k) * v0 (ix2 p k)) + v2 (ix2 0 n))
                                      - Cert.Spec.two * ∑ k : Fin 512, v0 (ix2 p k) * v1 (ix2 n k)))
                                   (Cert.Spec.two * Ideal.exp (v4 (ix2 0 n)) * Ideal.exp (v4 (ix2 0 n)) + Cert.Spec.tiny))
            * v6 (ix2 q n))
        + ∑ k : Fin 512, v0 (ix2 p k) * v8 (ix2 k q) := by
  unfold k1_pay1
  rw [shapeCast_self, shapeCast_self, shapeCast_self]
  refine (addf_apply _ _ _).trans ?_
  refine congrArg₂ (· + ·) ?_ ?_
  · refine (mm2_apply _ _ p q).trans ?_
    refine Finset.sum_congr rfl fun (n : Fin 64) _ => ?_
    refine congrArg (· * v6 (ix2 q n)) ?_
    -- the squared norm of row `p`, the squared norm of centre `n`, their product, and the width
    have hA := rowsum_apply (mulf v0 v0) (.inl rfl) rfl p n
    have hB := broadcastTo_1b_ab_apply v2 broadcasts_S1x64_S1024x64 p n
    have hC := mm1_apply (truncf .bf16 v0 bitsLt_bf16_f32) (truncf .bf16 v1 bitsLt_bf16_f32) p n
    have hD := broadcastTo_1b_ab_apply
      (addf (mulf (mulf (broadcast S1x64 (FloatOps.ofBits (F := Ideal) .f32 0x40000000#32)) (exp v4)) (exp v4))
        (broadcast S1x64 (FloatOps.ofBits (F := Ideal) .f32 0x322BCC77#32))) broadcasts_S1x64_S1024x64 p n
    exact congrArg Ideal.exp (congrArg₂ Ideal.div
      (congrArg₂ (· - ·) Ideal.ofBits_zero_f32
        (congrArg₂ (· - ·) (congrArg₂ (· + ·) hA hB) (congrArg (Cert.Spec.two * ·) hC))) hD)
  · exact mm3_apply _ _ p q

end Cert.KernelIdeal.Pay

end
-- ==== Proof.KVal1.lean ====
import proofs.«149921_j80719615361567_1_alg».proof.Proof.KernelIdealR1
import proofs.«149921_j80719615361567_1_alg».proof.Proof.PayMath
import proofs.«149921_j80719615361567_1_alg».proof.Proof.Spec
import Idealize.ShloMosaic.Lib.Pipeline.Value
import Idealize.ShloMosaic.Lib.ValueIdx
import Idealize.ShloMosaic.PureOps.Ideal.Laws

/-! # What the second region leaves in its output array

The region's grid has four points; point `t` reads rows `1024 t … 1024 t + 1023` of the batch, reads the centres,
their squared norms, the log-widths, the table of summed coefficients and the base weights whole, and writes the
same rows of the output. At batch row `b` and output feature `o` the output array ends holding the blocked
spelling of the layer's result: the radial basis values of row `b` mixed by the coefficient table, plus the plain
product of row `b` with the base weights. -/

set_option maxRecDepth 16384

noncomputable section

namespace Cert.KernelIdeal.KVal1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-! ## The body's value at a row and an output feature -/

theorem hz2 : (![0, 0] : Fin 2 → Nat) = fun _ => 0 := by funext a; fin_cases a <;> rfl

/-- The one store over the whole block leaves the payload of the six blocks, each loaded whole. -/
theorem outBlk_eq (v0 : Vec Ideal S1024x512 .f32) (v1 : Vec Ideal S64x512 .f32) (v2 v4 : Vec Ideal S1x64 .f32)
    (v6 : Vec Ideal S512x64 .f32) (v8 : Vec Ideal S512x512 .f32) :
    R1.outBlk v0 v1 v2 v4 v6 v8 = k1_pay1 v0 v1 v2 v4 v6 v8 := by
  unfold R1.outBlk
  rw [View.canon_unit_zero hz2]
  simp only [View.ld_unit_zero (S := S1024x512) hz2, View.ld_unit_zero (S := S64x512) hz2,
    View.ld_unit_zero (S := S1x64) hz2, View.ld_unit_zero (S := S512x64) hz2, View.ld_unit_zero (S := S512x512) hz2]

/-- One entry of the output block, from blocks whose entries are the named quantities: local row `p` of the batch
    block is batch row `B`; the other blocks are the whole arrays. -/
theorem point_value (x : Fin 4096 → Fin 512 → EReal) (cen : Fin 64 → Fin 512 → EReal) (ls : Fin 64 → EReal)
    (bw : Fin 512 → Fin 512 → EReal) (cs : Fin 512 → Fin 64 → EReal)
    (v0 : Vec Ideal S1024x512 .f32) (v1 : Vec Ideal S64x512 .f32) (v2 v4 : Vec Ideal S1x64 .f32)
    (v6 : Vec Ideal S512x64 .f32) (v8 : Vec Ideal S512x512 .f32) (B : Fin 4096) (p : Fin 1024) (q : Fin 512)
    (h0 : ∀ k, v0 (ix2 p k) = x B k) (h1 : ∀ n k, v1 (ix2 n k) = cen n k)
    (h2 : ∀ n, v2 (ix2 0 n) = Cert.Spec.cnorm cen n) (h4 : ∀ n, v4 (ix2 0 n) = ls n)
    (h6 : ∀ n, v6 (ix2 q n) = cs q n) (h8 : ∀ k, v8 (ix2 k q) = bw k q) :
    R1.outBlk v0 v1 v2 v4 v6 v8 (ix2 p q) = Cert.Spec.outB x cen ls bw cs B q := by
  rw [outBlk_eq, Pay.pay_out_apply]
  simp only [h0, h1, h2, h4, h6, h8, Cert.Spec.outB, Cert.Spec.rbfB, Cert.Spec.distB, Cert.Spec.widthB]

/-! ## The index maps over the grid, and what each block holds -/

variable (V : (c : Dev nD) → (b : Ref sig .tc) → Buf (Elt Ideal) ((c : Thread nD τ).loc b))

/-- The printed index maps, decided over the four points: the batch block and the output block are at block row
    `t`, every other block is the whole array. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Batch row `1024 t + p`. -/
abbrev row (t : Fin cfg1.N) (p : Fin 1024) : Fin 4096 := ⟨1024 * t.val + p.val, by have ht : t.val < 4 := t.isLt; have hp := p.isLt; omega⟩

/-- The batch block at point `t` is rows `1024 t …` of the batch. -/
theorem iblk0 (c : Dev nD) (t : Fin cfg1.N) (p : Fin 1024) (k : Fin 512) :
    (R1.iblk V c 0 t : Vec Ideal S1024x512 .f32) (ix2 p k) = V c main_arg0 (ix2 (row t p) k) := by
  obtain ⟨e0, e1, -⟩ := idx_facts t
  show V c main_arg0 (((cfg1.win 0).blk t).view.emb (ix2 p k)) = _
  refine congrArg (V c main_arg0) (funext fun a => Fin.ext ?_)
  match a with
  | ⟨0, _⟩ => show win1_0.index t (0 : Fin 2) * 1024 + 1 * p.val = 1024 * t.val + p.val; omega
  | ⟨1, _⟩ => show win1_0.index t (1 : Fin 2) * 512 + 1 * k.val = k.val; omega

/-- The centres' block is the whole array. -/
theorem iblk1 (c : Dev nD) (t : Fin cfg1.N) (n : Fin 64) (k : Fin 512) :
    (R1.iblk V c 1 t : Vec Ideal S64x512 .f32) (ix2 n k) = V c main_arg1 (ix2 n k) := by
  obtain ⟨-, -, e0, e1, -⟩ := idx_facts t
  show V c main_arg1 (((cfg1.win 1).blk t).view.emb (ix2 n k)) = _
  refine congrArg (V c main_arg1) (funext fun a => Fin.ext ?_)
  match a with
  | ⟨0, _⟩ => show win1_1.index t (0 : Fin 2) * 64 + 1 * n.val = n.val; omega
  | ⟨1, _⟩ => show win1_1.index t (1 : Fin 2) * 512 + 1 * k.val = k.val; omega

/-- The block of the centres' squared norms is the whole row. -/
theorem iblk2 (c : Dev nD) (t : Fin cfg1.N) (z : Fin 1) (n : Fin 64) :
    (R1.iblk V c 2 t : Vec Ideal S1x64 .f32) (ix2 z n) = V c main_v7 (ix2 z n) := by
  obtain ⟨-, -, -, -, e0, e1, -⟩ := idx_facts t
  show V c main_v7 (((cfg1.win 2).blk t).view.emb (ix2 z n)) = _
  refine congrArg (V c main_v7) (funext fun a => Fin.ext ?_)
  match a with
  | ⟨0, _⟩ => show win1_2.index t (0 : Fin 2) * 1 + 1 * z.val = z.val; omega
  | ⟨1, _⟩ => show win1_2.index t (1 : Fin 2) * 64 + 1 * n.val = n.val; omega

/-- The block of the log-widths is the whole row. -/
theorem iblk3 (c : Dev nD) (t : Fin cfg1.N) (z : Fin 1) (n : Fin 64) :
    (R1.iblk V c 3 t : Vec Ideal S1x64 .f32) (ix2 z n) = V c main_v4 (ix2 z n) := by
  obtain ⟨-, -, -, -, -, -, e0, e1, -⟩ := idx_facts t
  show V c main_v4 (((cfg1.win 3).blk t).view.emb (ix2 z n)) = _
  refine congrArg (V c main_v4) (funext fun a => Fin.ext ?_)
  match a with
  | ⟨0, _⟩ => show win1_3.index t (0 : Fin 2) * 1 + 1 * z.val = z.val; omega
  | ⟨1, _⟩ => show win1_3.index t (1 : Fin 2) * 64 + 1 * n.val = n.val; omega

/-- The block of summed coefficients is the whole table. -/
theorem iblk4 (c : Dev nD) (t : Fin cfg1.N) (o : Fin 512) (n : Fin 64) :
    (R1.iblk V c 4 t : Vec Ideal S512x64 .f32) (ix2 o n) = V c main_v1_0 (ix2 o n) := by
  obtain ⟨-, -, -, -, -, -, -, -, e0, e1, -⟩ := idx_facts t
  show V c main_v1_0 (((cfg1.win 4).blk t).view.emb (ix2 o n)) = _
  refine congrArg (V c main_v1_0) (funext fun a => Fin.ext ?_)
  match a with
  | ⟨0, _⟩ => show win1_4.index t (0 : Fin 2) * 512 + 1 * o.val = o.val; omega
  | ⟨1, _⟩ => show win1_4.index t (1 : Fin 2) * 64 + 1 * n.val = n.val; omega

/-- The base weights' block is the whole array. -/
theorem iblk5 (c : Dev nD) (t : Fin cfg1.N) (k o : Fin 512) :
    (R1.iblk V c 5 t : Vec Ideal S512x512 .f32) (ix2 k o) = V c main_arg5 (ix2 k o) := by
  obtain ⟨-, -, -, -, -, -, -, -, -, -, e0, e1, -⟩ := idx_facts t
  show V c main_arg5 (((cfg1.win 5).blk t).view.emb (ix2 k o)) = _
  refine congrArg (V c main_arg5) (funext fun a => Fin.ext ?_)
  match a with
  | ⟨0, _⟩ => show win1_5.index t (0 : Fin 2) * 512 + 1 * k.val = k.val; omega
  | ⟨1, _⟩ => show win1_5.index t (1 : Fin 2) * 512 + 1 * o.val = o.val; omega

/-! ## The output array -/

/-- What the output array ends holding: the blocked result at each batch row and output feature. -/
abbrev G (c : Dev nD) (ls : Fin 64 → EReal) : S4096x512.Idx → EReal := fun i =>
  Cert.Spec.outB (fun b k => V c main_arg0 (ix2 b k)) (fun n k => V c main_arg1 (ix2 n k)) ls
    (fun k o => V c main_arg5 (ix2 k o)) (fun o n => V c main_v1_0 (ix2 o n)) (i 0) (i 1)

/-- What point `t` writes back is its block of `G`. -/
theorem flushed6_eq (c : Dev nD) (ls : Fin 64 → EReal)
    (hN : ∀ n : Fin 64, V c main_v7 (ix2 0 n) = Cert.Spec.cnorm (fun n k => V c main_arg1 (ix2 n k)) n)
    (hL : ∀ n : Fin 64, V c main_v4 (ix2 0 n) = ls n) (t : Fin cfg1.N) :
    (R1.dat (F := Ideal) V c).flushed 6 t = ((cfg1.win 6).blk t).view.read (Elt Ideal) (G V c ls) := by
  obtain ⟨-, -, -, -, -, -, -, -, -, -, -, -, e0, e1⟩ := idx_facts t
  show (cfg1.win 6).cut (grid1.coords t) ((R1.dat V c).after 6 t) = _
  rw [R1.after_6]
  funext j
  obtain ⟨p, q, rfl⟩ : ∃ (p : Fin 1024) (q : Fin 512), j = ix2 p q := ⟨j 0, j 1, eq_ix2 j⟩
  have hemb : ((cfg1.win 6).blk t).view.emb (ix2 p q) = ix2 (row t p) q := funext fun a => Fin.ext (by
    match a with
    | ⟨0, _⟩ => show win1_6.index t (0 : Fin 2) * 1024 + 1 * p.val = 1024 * t.val + p.val; omega
    | ⟨1, _⟩ => show win1_6.index t (1 : Fin 2) * 512 + 1 * q.val = q.val; omega)
  show R1.outBlk (R1.iblk V c 0 t) (R1.iblk V c 1 t) (R1.iblk V c 2 t) (R1.iblk V c 3 t) (R1.iblk V c 4 t) (R1.iblk V c 5 t) (ix2 p q)
    = G V c ls (((cfg1.win 6).blk t).view.emb (ix2 p q))
  rw [hemb]
  exact point_value _ _ ls _ _ _ _ _ _ _ _ (row t p) p q (iblk0 V c t p) (iblk1 V c t)
    (fun n => (iblk2 V c t 0 n).trans (hN n)) (fun n => (iblk3 V c t 0 n).trans (hL n)) (iblk4 V c t q)
    (fun k => iblk5 V c t k q)

/-- An index of the array is in point `t`'s block iff each coordinate is in the block's range on its axis. -/
theorem mem_blk6 (t : Fin cfg1.N) (i : S4096x512.Idx) :
    i ∈ ((cfg1.win 6).blk t).view.set ↔ ∀ a : Fin 2, win1_6.index t a * S1024x512.size a ≤ (i a).val
      ∧ (i a).val < win1_6.index t a * S1024x512.size a + S1024x512.size a := by
  show i ∈ ((View.whole main_v8).slice (win1_6.rect t)).set ↔ _
  rw [View.set_slice_whole, Rect.mem_set_unit]
  exact Iff.rfl

/-- Every index of the output array is in the block of the point its row belongs to. -/
theorem covered6 (i : S4096x512.Idx) :
    ∃ t : Fin cfg1.N, (cfg1.win 6).flush t = true ∧ i ∈ ((cfg1.win 6).blk t).view.set := by
  have hi0 : (i 0).val < 4096 := (i 0).isLt
  have hi1 : (i 1).val < 512 := (i 1).isLt
  obtain ⟨t, ht⟩ : ∃ t : Fin cfg1.N, t.val = (i 0).val / 1024 := ⟨⟨(i 0).val / 1024, by show _ < 4; omega⟩, rfl⟩
  obtain ⟨-, -, -, -, -, -, -, -, -, -, -, -, e0, e1⟩ := idx_facts t
  refine ⟨t, flush1_6 t, ?_⟩
  rw [mem_blk6]
  intro a
  match a with
  | ⟨0, _⟩ =>
    show win1_6.index t (0 : Fin 2) * 1024 ≤ (i 0).val ∧ (i 0).val < win1_6.index t (0 : Fin 2) * 1024 + 1024
    omega
  | ⟨1, _⟩ =>
    show win1_6.index t (1 : Fin 2) * 512 ≤ (i 1).val ∧ (i 1).val < win1_6.index t (1 : Fin 2) * 512 + 512
    omega

/-- THE OUTPUT ARRAY after the region, at a batch row and an output feature: the blocked spelling of the result. -/
theorem out_arr (c : Dev nD) (ls : Fin 64 → EReal)
    (hN : ∀ n : Fin 64, V c main_v7 (ix2 0 n) = Cert.Spec.cnorm (fun n k => V c main_arg1 (ix2 n k)) n)
    (hL : ∀ n : Fin 64, V c main_v4 (ix2 0 n) = ls n) (b : Fin 4096) (o : Fin 512) :
    (R1.dat (F := Ideal) V c).arrAt 6 cfg1.N (ix2 b o)
      = Cert.Spec.outB (fun b k => V c main_arg0 (ix2 b k)) (fun n k => V c main_arg1 (ix2 n k)) ls
          (fun k o => V c main_arg5 (ix2 k o)) (fun o n => V c main_v1_0 (ix2 o n)) b o := by
  rw [(R1.dat (F := Ideal) V c).arrAt_eq_of_cover 6 (G V c ls) (fun t _ => flushed6_eq V c ls hN hL t) covered6]

end Cert.KernelIdeal.KVal1

end
-- ==== Proof.KVal0.lean ====
import proofs.«149921_j80719615361567_1_alg».proof.Proof.KernelIdealR0
import proofs.«149921_j80719615361567_1_alg».proof.Proof.PayMath
import proofs.«149921_j80719615361567_1_alg».proof.Proof.Spec
import Idealize.ShloMosaic.Lib.Pipeline.Value
import Idealize.ShloMosaic.Lib.ValueIdx
import Mathlib.Algebra.BigOperators.Fin
import Mathlib.Algebra.BigOperators.Intervals

set_option maxRecDepth 16384

noncomputable section

/-! # What the first region leaves in its two output arrays

After the region, the coefficient table holds, at output feature `o` and centre `n`, the sum over the eight runs of
sixty-four input features of the sampled coefficient; the divergence row holds, at output feature `o`, the sum over the
same runs and every centre of the divergence term. Both are the specification's blocked sums, index by index. The road:
each input block read at an index; one point's step of the two accumulators; the accumulators along a run of eight points,
by induction on the position in the run; the last point of each run writes its block back, and these blocks cover the
arrays. -/

namespace Cert.KernelIdeal.KVal0

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The index maps of the three input windows and the two output windows, over the grid. -/
theorem idx_facts : ∀ t : Fin cfg0.N,
    win0_0.index t (0 : Fin 3) = t.val % 8 ∧ win0_0.index t (1 : Fin 3) = t.val / 8 ∧ win0_0.index t (2 : Fin 3) = 0
    ∧ win0_1.index t (0 : Fin 3) = t.val % 8 ∧ win0_1.index t (1 : Fin 3) = t.val / 8 ∧ win0_1.index t (2 : Fin 3) = 0
    ∧ win0_2.index t (0 : Fin 3) = t.val % 8 ∧ win0_2.index t (1 : Fin 3) = t.val / 8 ∧ win0_2.index t (2 : Fin 3) = 0
    ∧ win0_3.index t (0 : Fin 2) = t.val / 8 ∧ win0_3.index t (1 : Fin 2) = 0
    ∧ win0_4.index t (0 : Fin 2) = 0 ∧ win0_4.index t (1 : Fin 2) = t.val / 8 :=
  (by decide +kernel : ∀ t : Fin grid0.N, _)

theorem N0 : cfg0.N = 32 := by decide +kernel

/-- Output feature `128 ob + oo`: the `oo`-th of the `ob`-th run of 128. -/
def orow (ob : Fin 4) (oo : Fin 128) : Fin 512 := ⟨128 * ob.val + oo.val, by omega⟩

/-- The three coefficient arrays as the region finds them, by coordinates. -/
abbrev cm (c : Dev nD) : Fin 512 → Fin 512 → Fin 64 → EReal := fun i o n => V c main_arg3 (ix3 i o n)
abbrev clv (c : Dev nD) : Fin 512 → Fin 512 → Fin 64 → EReal := fun i o n => V c main_arg4 (ix3 i o n)
abbrev ep (c : Dev nD) : Fin 512 → Fin 512 → Fin 64 → EReal := fun i o n => V c main_v0 (ix3 i o n)

/-! ## The input blocks at an index -/

theorem iblk0_apply (c : Dev nD) (t : Fin cfg0.N) (k : Fin 8) (ob : Fin 4) (hk : t.val % 8 = k.val) (hob : t.val / 8 = ob.val)
    (j : Fin 64) (oo : Fin 128) (n : Fin 64) :
    R0.iblk V c 0 t (ix3 j oo n) = cm V c (Spec.feat k j) (orow ob oo) n := by
  obtain ⟨e0, e1, e2, -⟩ := idx_facts t
  show V c main_arg3 (((cfg0.win 0).blk t).view.emb (ix3 j oo n)) = V c main_arg3 _
  congr 1
  funext a
  apply Fin.ext
  match a with
  | ⟨0, _⟩ => show win0_0.index t (0 : Fin 3) * 64 + 1 * j.val = 64 * k.val + j.val; omega
  | ⟨1, _⟩ => show win0_0.index t (1 : Fin 3) * 128 + 1 * oo.val = 128 * ob.val + oo.val; omega
  | ⟨2, _⟩ => show win0_0.index t (2 : Fin 3) * 64 + 1 * n.val = n.val; omega

theorem iblk1_apply (c : Dev nD) (t : Fin cfg0.N) (k : Fin 8) (ob : Fin 4) (hk : t.val % 8 = k.val) (hob : t.val / 8 = ob.val)
    (j : Fin 64) (oo : Fin 128) (n : Fin 64) :
    R0.iblk V c 1 t (ix3 j oo n) = clv V c (Spec.feat k j) (orow ob oo) n := by
  obtain ⟨-, -, -, e0, e1, e2, -⟩ := idx_facts t
  show V c main_arg4 (((cfg0.win 1).blk t).view.emb (ix3 j oo n)) = V c main_arg4 _
  congr 1
  funext a
  apply Fin.ext
  match a with
  | ⟨0, _⟩ => show win0_1.index t (0 : Fin 3) * 64 + 1 * j.val = 64 * k.val + j.val; omega
  | ⟨1, _⟩ => show win0_1.index t (1 : Fin 3) * 128 + 1 * oo.val = 128 * ob.val + oo.val; omega
  | ⟨2, _⟩ => show win0_1.index t (2 : Fin 3) * 64 + 1 * n.val = n.val; omega

theorem iblk2_apply (c : Dev nD) (t : Fin cfg0.N) (k : Fin 8) (ob : Fin 4) (hk : t.val % 8 = k.val) (hob : t.val / 8 = ob.val)
    (j : Fin 64) (oo : Fin 128) (n : Fin 64) :
    R0.iblk V c 2 t (ix3 j oo n) = ep V c (Spec.feat k j) (orow ob oo) n := by
  obtain ⟨-, -, -, -, -, -, e0, e1, e2, -⟩ := idx_facts t
  show V c main_v0 (((cfg0.win 2).blk t).view.emb (ix3 j oo n)) = V c main_v0 _
  congr 1
  funext a
  apply Fin.ext
  match a with
  | ⟨0, _⟩ => show win0_2.index t (0 : Fin 3) * 64 + 1 * j.val = 64 * k.val + j.val; omega
  | ⟨1, _⟩ => show win0_2.index t (1 : Fin 3) * 128 + 1 * oo.val = 128 * ob.val + oo.val; omega
  | ⟨2, _⟩ => show win0_2.index t (2 : Fin 3) * 64 + 1 * n.val = n.val; omega

/-! ## One point's step of the two accumulators -/

/-- The three input blocks at a point, at their literal type. -/
abbrev cmBlk (c : Dev nD) (t : Fin cfg0.N) : Vec Ideal S64x128x64 .f32 := R0.iblk V c 0 t
abbrev clvBlk (c : Dev nD) (t : Fin cfg0.N) : Vec Ideal S64x128x64 .f32 := R0.iblk V c 1 t
abbrev epBlk (c : Dev nD) (t : Fin cfg0.N) : Vec Ideal S64x128x64 .f32 := R0.iblk V c 2 t

theorem pay3_step (c : Dev nD) (t : Fin cfg0.N) (k : Fin 8) (ob : Fin 4) (hk : t.val % 8 = k.val) (hob : t.val / 8 = ob.val)
    (s : Vec Ideal S128x64 .f32) (oo : Fin 128) (n : Fin 64) :
    k0_pay3 (cmBlk V c t) (clvBlk V c t) (epBlk V c t) s (ix2 oo n)
      = s (ix2 oo n) + ∑ j : Fin 64, Spec.coef (cm V c) (clv V c) (ep V c) (Spec.feat k j) (orow ob oo) n := by
  refine (Pay.pay3_apply _ _ _ _ _ _).trans ?_
  refine congrArg (s (ix2 oo n) + ·) ?_
  refine Finset.sum_congr rfl fun j _ => ?_
  unfold Spec.coef
  rw [← iblk0_apply V c t k ob hk hob j oo n, ← iblk1_apply V c t k ob hk hob j oo n, ← iblk2_apply V c t k ob hk hob j oo n]

theorem pay4_step (c : Dev nD) (t : Fin cfg0.N) (k : Fin 8) (ob : Fin 4) (hk : t.val % 8 = k.val) (hob : t.val / 8 = ob.val)
    (s : Vec Ideal S1x128 .f32) (oo : Fin 128) :
    k0_pay4 (cmBlk V c t) (clvBlk V c t) s (ix2 0 oo)
      = s (ix2 0 oo) + ∑ j : Fin 64, ∑ n : Fin 64, Spec.klTerm (cm V c) (clv V c) (Spec.feat k j) (orow ob oo) n := by
  refine (Pay.pay4_apply _ _ _ _).trans ?_
  refine congrArg (s (ix2 0 oo) + ·) ?_
  refine Finset.sum_congr rfl fun j _ => Finset.sum_congr rfl fun n _ => ?_
  unfold Spec.klTerm
  rw [← iblk0_apply V c t k ob hk hob j oo n, ← iblk1_apply V c t k ob hk hob j oo n]

/-! ## The accumulators along a run of eight points -/

/-- The coefficient accumulator after the point with coordinates `(ob, k)`: the sum over the runs `0 … k` of input
    features. -/
theorem acc1_eq (c : Dev nD) (ob : Fin 4) (oo : Fin 128) (n : Fin 64) :
    ∀ (k : ℕ) (hk8 : k < 8) (t : Fin cfg0.N) (hk : t.val % 8 = k) (hob : t.val / 8 = ob.val),
      (R0.accAt V c t.val t.isLt).1 (ix2 oo n)
        = ∑ k' : Fin (k + 1), ∑ j : Fin 64,
            Spec.coef (cm V c) (clv V c) (ep V c) (Spec.feat ⟨k'.val, by omega⟩ j) (orow ob oo) n
  | 0, hk8, t, hk, hob => by
    rw [R0.accAt_first V c t hk]
    show k0_pay3 (cmBlk V c t) (clvBlk V c t) (epBlk V c t) (k0_pay1 (F := Ideal)) (ix2 oo n) = _
    rw [pay3_step V c t ⟨0, by omega⟩ ob hk hob, Pay.pay1_apply, zero_add, Fin.sum_univ_one]
    rfl
  | k + 1, hk8, t, hk, hob => by
    have hN : t.val < 32 := lt_of_lt_of_eq t.isLt N0
    have ih := acc1_eq c ob oo n k (by omega) ⟨t.val - 1, by omega⟩ (by show (t.val - 1) % 8 = k; omega)
      (by show (t.val - 1) / 8 = ob.val; omega)
    rw [R0.accAt_next V c t (by omega)]
    show k0_pay3 (cmBlk V c t) (clvBlk V c t) (epBlk V c t) (R0.accAt V c (t.val - 1) _).1 (ix2 oo n) = _
    rw [pay3_step V c t ⟨k + 1, hk8⟩ ob hk hob, Fin.sum_univ_castSucc (n := k + 1)]
    exact congrArg₂ (· + ·) ih rfl

/-- The divergence accumulator after the point with coordinates `(ob, k)`. -/
theorem acc2_eq (c : Dev nD) (ob : Fin 4) (oo : Fin 128) :
    ∀ (k : ℕ) (hk8 : k < 8) (t : Fin cfg0.N) (hk : t.val % 8 = k) (hob : t.val / 8 = ob.val),
      (R0.accAt V c t.val t.isLt).2 (ix2 0 oo)
        = ∑ k' : Fin (k + 1), ∑ j : Fin 64, ∑ n : Fin 64,
            Spec.klTerm (cm V c) (clv V c) (Spec.feat ⟨k'.val, by omega⟩ j) (orow ob oo) n
  | 0, hk8, t, hk, hob => by
    rw [R0.accAt_first V c t hk]
    show k0_pay4 (cmBlk V c t) (clvBlk V c t) (k0_pay2 (F := Ideal)) (ix2 0 oo) = _
    rw [pay4_step V c t ⟨0, by omega⟩ ob hk hob, Pay.pay2_apply, zero_add, Fin.sum_univ_one]
    rfl
  | k + 1, hk8, t, hk, hob => by
    have hN : t.val < 32 := lt_of_lt_of_eq t.isLt N0
    have ih := acc2_eq c ob oo k (by omega) ⟨t.val - 1, by omega⟩ (by show (t.val - 1) % 8 = k; omega)
      (by show (t.val - 1) / 8 = ob.val; omega)
    rw [R0.accAt_next V c t (by omega)]
    show k0_pay4 (cmBlk V c t) (clvBlk V c t) (R0.accAt V c (t.val - 1) _).2 (ix2 0 oo) = _
    rw [pay4_step V c t ⟨k + 1, hk8⟩ ob hk hob, Fin.sum_univ_castSucc (n := k + 1)]
    exact congrArg₂ (· + ·) ih rfl

/-- At the last point of a run the coefficient accumulator holds the blocked sum of the specification. -/
theorem acc1_last (c : Dev nD) (t : Fin cfg0.N) (h7 : t.val % 8 = 7) (ob : Fin 4) (hob : t.val / 8 = ob.val)
    (oo : Fin 128) (n : Fin 64) :
    (R0.accAt V c t.val t.isLt).1 (ix2 oo n) = Spec.csumB (cm V c) (clv V c) (ep V c) (orow ob oo) n :=
  acc1_eq V c ob oo n 7 (by omega) t h7 hob

/-- At the last point of a run the divergence accumulator holds the specification's partial sum. -/
theorem acc2_last (c : Dev nD) (t : Fin cfg0.N) (h7 : t.val % 8 = 7) (ob : Fin 4) (hob : t.val / 8 = ob.val)
    (oo : Fin 128) :
    (R0.accAt V c t.val t.isLt).2 (ix2 0 oo) = Spec.klPart (cm V c) (clv V c) (orow ob oo) :=
  acc2_eq V c ob oo 7 (by omega) t h7 hob

/-! ## The two output arrays after the region -/

/-- What the coefficient table ends holding, as contents of its array. -/
abbrev G3 (c : Dev nD) : S512x64.Idx → EReal := fun i => Spec.csumB (cm V c) (clv V c) (ep V c) (i 0) (i 1)
/-- What the divergence row ends holding, as contents of its array. -/
abbrev G4 (c : Dev nD) : S1x512.Idx → EReal := fun i => Spec.klPart (cm V c) (clv V c) (i 1)

/-- What a point that writes the coefficient block back writes is that block of `G3`. -/
theorem flushed3_eq (c : Dev nD) (t : Fin cfg0.N) (hf : (cfg0.win 3).flush t = true) :
    (R0.dat V c).flushed 3 t = ((cfg0.win 3).blk t).view.read (Elt Ideal) (G3 V c) := by
  have h7 : t.val % 8 = 7 := (flush0_3 t).mp hf
  have hN : t.val < 32 := lt_of_lt_of_eq t.isLt N0
  obtain ⟨-, -, -, -, -, -, -, -, -, e0, e1, -⟩ := idx_facts t
  show (cfg0.win 3).cut (grid0.coords t) ((R0.dat V c).after 3 t) = _
  rw [R0.after_3]
  funext y
  have hy0 : (y 0).val < 128 := (y 0).isLt
  have hy1 : (y 1).val < 64 := (y 1).isLt
  have hx : (cfg0.win 3).xinj (grid0.coords t) y = ix2 (⟨(y 0).val, hy0⟩ : Fin 128) (⟨(y 1).val, hy1⟩ : Fin 64) := by
    funext a; match a with | ⟨0, _⟩ => rfl | ⟨1, _⟩ => rfl
  show (R0.accAt V c t.val t.isLt).1 ((cfg0.win 3).xinj (grid0.coords t) y) = G3 V c (((cfg0.win 3).blk t).view.emb y)
  rw [hx, acc1_last V c t h7 ⟨t.val / 8, by omega⟩ rfl]
  refine congrArg₂ (Spec.csumB (cm V c) (clv V c) (ep V c)) (Fin.ext ?_) (Fin.ext ?_)
  · show 128 * (t.val / 8) + (y 0).val = win0_3.index t (0 : Fin 2) * 128 + 1 * (y 0).val; omega
  · show (y 1).val = win0_3.index t (1 : Fin 2) * 64 + 1 * (y 1).val; omega

/-- An index of the coefficient table is in point `t`'s block iff each coordinate is in the block's range. -/
theorem mem_blk3 (t : Fin cfg0.N) (i : S512x64.Idx) :
    i ∈ ((cfg0.win 3).blk t).view.set ↔ ∀ a : Fin 2, win0_3.index t a * S128x64.size a ≤ (i a).val
      ∧ (i a).val < win0_3.index t a * S128x64.size a + S128x64.size a := by
  show i ∈ ((View.whole main_v1_0).slice (win0_3.rect t)).set ↔ _
  rw [View.set_slice_whole, Rect.mem_set_unit]
  exact Iff.rfl

/-- Every index of the coefficient table is in the block of the last point of its run. -/
theorem cover3 (i : S512x64.Idx) : ∃ t : Fin cfg0.N, (cfg0.win 3).flush t = true ∧ i ∈ ((cfg0.win 3).blk t).view.set := by
  have hi0 : (i 0).val < 512 := (i 0).isLt
  have hi1 : (i 1).val < 64 := (i 1).isLt
  have hlt : 8 * ((i 0).val / 128) + 7 < cfg0.N := by rw [N0]; omega
  obtain ⟨-, -, -, -, -, -, -, -, -, e0, e1, -⟩ := idx_facts ⟨8 * ((i 0).val / 128) + 7, hlt⟩
  have e0' : win0_3.index ⟨8 * ((i 0).val / 128) + 7, hlt⟩ (0 : Fin 2) = (8 * ((i 0).val / 128) + 7) / 8 := e0
  refine ⟨⟨8 * ((i 0).val / 128) + 7, hlt⟩, (flush0_3 _).mpr (by show (8 * ((i 0).val / 128) + 7) % 8 = 7; omega), ?_⟩
  rw [mem_blk3]
  intro a
  match a with
  | ⟨0, _⟩ =>
    show win0_3.index ⟨8 * ((i 0).val / 128) + 7, hlt⟩ (0 : Fin 2) * 128 ≤ (i 0).val
      ∧ (i 0).val < win0_3.index ⟨8 * ((i 0).val / 128) + 7, hlt⟩ (0 : Fin 2) * 128 + 128
    omega
  | ⟨1, _⟩ =>
    show win0_3.index ⟨8 * ((i 0).val / 128) + 7, hlt⟩ (1 : Fin 2) * 64 ≤ (i 1).val
      ∧ (i 1).val < win0_3.index ⟨8 * ((i 0).val / 128) + 7, hlt⟩ (1 : Fin 2) * 64 + 64
    omega

/-- The coefficient table after the region, as one array. -/
theorem csum_arr_eq (c : Dev nD) : (R0.dat V c).arrAt 3 cfg0.N = G3 V c :=
  (R0.dat V c).arrAt_eq_of_cover 3 (G3 V c) (flushed3_eq V c) cover3

/-- THE COEFFICIENT TABLE after the region: the specification's blocked sum, index by index. -/
theorem csum_arr (c : Dev nD) (o : Fin 512) (n : Fin 64) :
    (R0.dat V c).arrAt 3 cfg0.N (ix2 o n) = Spec.csumB (cm V c) (clv V c) (ep V c) o n :=
  congrFun (csum_arr_eq V c) (ix2 o n)

/-- What a point that writes the divergence block back writes is that block of `G4`. -/
theorem flushed4_eq (c : Dev nD) (t : Fin cfg0.N) (hf : (cfg0.win 4).flush t = true) :
    (R0.dat V c).flushed 4 t = ((cfg0.win 4).blk t).view.read (Elt Ideal) (G4 V c) := by
  have h7 : t.val % 8 = 7 := (flush0_4 t).mp hf
  have hN : t.val < 32 := lt_of_lt_of_eq t.isLt N0
  obtain ⟨-, -, -, -, -, -, -, -, -, -, -, e0, e1⟩ := idx_facts t
  show (cfg0.win 4).cut (grid0.coords t) ((R0.dat V c).after 4 t) = _
  rw [R0.after_4]
  funext y
  have hy0 : (y 0).val < 1 := (y 0).isLt
  have hy1 : (y 1).val < 128 := (y 1).isLt
  have hx : (cfg0.win 4).xinj (grid0.coords t) y = ix2 (0 : Fin 1) (⟨(y 1).val, hy1⟩ : Fin 128) := by
    funext a
    match a with
    | ⟨0, _⟩ => exact Fin.ext (by show (y 0).val = 0; omega)
    | ⟨1, _⟩ => rfl
  show (R0.accAt V c t.val t.isLt).2 ((cfg0.win 4).xinj (grid0.coords t) y) = G4 V c (((cfg0.win 4).blk t).view.emb y)
  rw [hx, acc2_last V c t h7 ⟨t.val / 8, by omega⟩ rfl]
  refine congrArg (Spec.klPart (cm V c) (clv V c)) (Fin.ext ?_)
  show 128 * (t.val / 8) + (y 1).val = win0_4.index t (1 : Fin 2) * 128 + 1 * (y 1).val; omega

/-- An index of the divergence row is in point `t`'s block iff each coordinate is in the block's range. -/
theorem mem_blk4 (t : Fin cfg0.N) (i : S1x512.Idx) :
    i ∈ ((cfg0.win 4).blk t).view.set ↔ ∀ a : Fin 2, win0_4.index t a * S1x128.size a ≤ (i a).val
      ∧ (i a).val < win0_4.index t a * S1x128.size a + S1x128.size a := by
  show i ∈ ((View.whole main_v1_1).slice (win0_4.rect t)).set ↔ _
  rw [View.set_slice_whole, Rect.mem_set_unit]
  exact Iff.rfl

/-- Every index of the divergence row is in the block of the last point of its run. -/
theorem cover4 (i : S1x512.Idx) : ∃ t : Fin cfg0.N, (cfg0.win 4).flush t = true ∧ i ∈ ((cfg0.win 4).blk t).view.set := by
  have hi0 : (i 0).val < 1 := (i 0).isLt
  have hi1 : (i 1).val < 512 := (i 1).isLt
  have hlt : 8 * ((i 1).val / 128) + 7 < cfg0.N := by rw [N0]; omega
  obtain ⟨-, -, -, -, -, -, -, -, -, -, -, e0, e1⟩ := idx_facts ⟨8 * ((i 1).val / 128) + 7, hlt⟩
  have e1' : win0_4.index ⟨8 * ((i 1).val / 128) + 7, hlt⟩ (1 : Fin 2) = (8 * ((i 1).val / 128) + 7) / 8 := e1
  refine ⟨⟨8 * ((i 1).val / 128) + 7, hlt⟩, (flush0_4 _).mpr (by show (8 * ((i 1).val / 128) + 7) % 8 = 7; omega), ?_⟩
  rw [mem_blk4]
  intro a
  match a with
  | ⟨0, _⟩ =>
    show win0_4.index ⟨8 * ((i 1).val / 128) + 7, hlt⟩ (0 : Fin 2) * 1 ≤ (i 0).val
      ∧ (i 0).val < win0_4.index ⟨8 * ((i 1).val / 128) + 7, hlt⟩ (0 : Fin 2) * 1 + 1
    omega
  | ⟨1, _⟩ =>
    show win0_4.index ⟨8 * ((i 1).val / 128) + 7, hlt⟩ (1 : Fin 2) * 128 ≤ (i 1).val
      ∧ (i 1).val < win0_4.index ⟨8 * ((i 1).val / 128) + 7, hlt⟩ (1 : Fin 2) * 128 + 128
    omega

/-- The divergence row after the region, as one array. -/
theorem kl_arr_eq (c : Dev nD) : (R0.dat V c).arrAt 4 cfg0.N = G4 V c :=
  (R0.dat V c).arrAt_eq_of_cover 4 (G4 V c) (flushed4_eq V c) cover4

/-- THE DIVERGENCE ROW after the region: the specification's partial sum for each output feature. -/
theorem kl_arr (c : Dev nD) (o : Fin 512) :
    (R0.dat V c).arrAt 4 cfg0.N (ix2 0 o) = Spec.klPart (cm V c) (clv V c) o :=
  congrFun (kl_arr_eq V c) (ix2 0 o)

end Cert.KernelIdeal.KVal0

end
-- ==== Proof.KHost.lean ====
import proofs.«149921_j80719615361567_1_alg».proof.Proof.Gen.KernelIdeal.Launch
import proofs.«149921_j80719615361567_1_alg».proof.Proof.Gen.KernelIdeal.Regions
import proofs.«149921_j80719615361567_1_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KHost

open Idealize.ShloMosaic Idealize.SL.Sem Idealize.ShloMosaic.ValueIdx
open Cert.KernelIdeal Cert.KernelIdeal.Gen

/-! # What the host operations leave in the buffers the two regions read

Before the first region a reshape drops the leading unit axis of the noise array. Between the regions the host sums
the partial divergence row and halves it, views the log-widths as a row, and forms each centre's squared norm as a
row. Each theorem reads one of these buffers at an index, for an arbitrary valuation of the buffers before the
stretch; the last two say which buffers a stretch leaves as they were. -/

/-! ## Each buffer as the operations' term -/

theorem v0_eq (W : Valuation τ sig (Elt Ideal)) :
    (StableHlo.after (Gen.hostOps0 (F := Ideal)) W (Proc.devRef .tc main_v0) : S512x512x64.Idx → EReal)
      = shapeCast S512x512x64 (W (Proc.devRef .tc main_arg6) : S1x512x512x64.Idx → EReal)
          shapeCasts_S1x512x512x64_S512x512x64 := by
  after_results
  rfl

theorem v4_eq (W : Valuation τ sig (Elt Ideal)) :
    (StableHlo.after (Gen.hostOps1 (F := Ideal)) W (Proc.devRef .tc main_v4) : S1x64.Idx → EReal)
      = shapeCast S1x64 (W (Proc.devRef .tc main_arg2) : S64.Idx → EReal) shapeCasts_S64_S1x64 := by
  after_results
  rfl

theorem v7_eq (W : Valuation τ sig (Elt Ideal)) :
    (StableHlo.after (Gen.hostOps1 (F := Ideal)) W (Proc.devRef .tc main_v7) : S1x64.Idx → EReal)
      = broadcastInDim S1x64 ![1] bcast_S64_S1x64_1
          (Host.reduceAdd (F := Ideal)
            (mulf (W (Proc.devRef .tc main_arg1) : FVec Ideal S64x512 .f32) (W (Proc.devRef .tc main_arg1)))
            (constant (F := Ideal) S_ .f32 0x00000000#32) reducesTo_S64x512_S64_d1 h_S_) := by
  after_results

theorem v3_eq (W : Valuation τ sig (Elt Ideal)) :
    (StableHlo.after (Gen.hostOps1 (F := Ideal)) W (Proc.devRef .tc main_v3) : S_.Idx → EReal)
      = mulf (constant (F := Ideal) S_ .f32 0x3F000000#32)
          (Host.reduceAdd (F := Ideal) (W (Proc.devRef .tc main_v1_1) : FVec Ideal S1x512 .f32)
            (constant (F := Ideal) S_ .f32 0x00000000#32) reducesTo_S1x512_S_d0_1 h_S_) := by
  after_results

/-! ## The terms read at an index, over any operand -/

/-- Each centre's squared norm, as a row: zero plus the sum over the 512 features of the entry squared. -/
theorem cnorm_apply (A : FVec Ideal S64x512 .f32) (n : Fin 64) :
    broadcastInDim S1x64 ![1] bcast_S64_S1x64_1
        (Host.reduceAdd (F := Ideal) (mulf A A) (constant (F := Ideal) S_ .f32 0x00000000#32)
          reducesTo_S64x512_S64_d1 h_S_) (ix2 0 n)
      = Cert.Spec.cnorm (fun n k => A (ix2 n k)) n := by
  refine (broadcastInDim_apply _ bcast_S64_S1x64_1 _ (ix2 0 n) (ix1 n)
    (fun a => by match a with | ⟨0, _⟩ => rfl)).trans ?_
  simp only [Host.reduceAdd, Ideal.hostReduceAdd_def]
  rw [Ideal.hostReduceAdd_single reducesTo_S64x512_S64_d1 (by decide)]
  unfold Cert.Spec.cnorm
  refine congrArg₂ (· + ·) Ideal.ofBits_zero_f32 (Finset.sum_congr rfl fun (k : Fin 512) _ => ?_)
  exact (congrArg (mulf A A)
    (funext fun a => Fin.ext (by match a with | ⟨0, _⟩ => rfl | ⟨1, _⟩ => rfl))).trans rfl

/-- Half the total of a `[1, 512]` row summed over both axes from zero. -/
theorem halfsum_apply (X : FVec Ideal S1x512 .f32) :
    mulf (constant (F := Ideal) S_ .f32 0x3F000000#32)
        (Host.reduceAdd (F := Ideal) X (constant (F := Ideal) S_ .f32 0x00000000#32) reducesTo_S1x512_S_d0_1 h_S_) ix0
      = Cert.Spec.half * (0 + ∑ o : Fin 512, X (ix2 0 o)) := by
  refine (mulf_apply _ _ _).trans ?_
  refine congrArg (Cert.Spec.half * ·) ?_
  simp only [Host.reduceAdd, Ideal.hostReduceAdd_def]
  rw [Ideal.hostReduceAdd_total reducesTo_S1x512_S_d0_1 (fun b => b.elim0)]
  refine congrArg₂ (· + ·) Ideal.ofBits_zero_f32 ?_
  exact (sum_idx2 _).trans (Fin.sum_univ_one _)

/-! ## The buffers the regions read -/

/-- The noise array without its leading unit axis. -/
theorem v0_apply (W : Valuation τ sig (Elt Ideal)) (i o : Fin 512) (n : Fin 64) :
    StableHlo.after (Gen.hostOps0 (F := Ideal)) W (Proc.devRef .tc main_v0) (ix3 i o n)
      = W (Proc.devRef .tc main_arg6) (ix4 0 i o n) := by
  refine (congrFun (v0_eq W) (ix3 i o n)).trans ?_
  exact shapeCast_1abc_abc_apply _ _ i o n

/-- The log-widths as a row. -/
theorem v4_apply (W : Valuation τ sig (Elt Ideal)) (n : Fin 64) :
    StableHlo.after (Gen.hostOps1 (F := Ideal)) W (Proc.devRef .tc main_v4) (ix2 0 n)
      = W (Proc.devRef .tc main_arg2) (ix1 n) := by
  refine (congrFun (v4_eq W) (ix2 0 n)).trans ?_
  exact shapeCast_a_1a_apply _ _ (0 : Fin 1) n

/-- The centres' squared norms as a row. -/
theorem v7_apply (W : Valuation τ sig (Elt Ideal)) (n : Fin 64) :
    StableHlo.after (Gen.hostOps1 (F := Ideal)) W (Proc.devRef .tc main_v7) (ix2 0 n)
      = Cert.Spec.cnorm (fun n k => W (Proc.devRef .tc main_arg1) (ix2 n k)) n := by
  refine (congrFun (v7_eq W) (ix2 0 n)).trans ?_
  exact cnorm_apply _ n

/-- The divergence: half the total of the partial row. -/
theorem v3_apply (W : Valuation τ sig (Elt Ideal)) :
    StableHlo.after (Gen.hostOps1 (F := Ideal)) W (Proc.devRef .tc main_v3) ValueIdx.ix0
      = Cert.Spec.half * (0 + (∑ o : Fin 512, W (Proc.devRef .tc main_v1_1) (ix2 0 o) : EReal)) := by
  refine (congrFun (v3_eq W) ix0).trans ?_
  exact halfsum_apply _

/-! ## The buffers a stretch leaves as they were -/

theorem keep0 (W : Valuation τ sig (Elt Ideal)) (b : Ref sig .tc) (hb : b ∈ [main_arg3, main_arg4]) :
    StableHlo.after (Gen.hostOps0 (F := Ideal)) W (Proc.devRef .tc b) = W (Proc.devRef .tc b) :=
  StableHlo.after_of_writes_sub _ W hostOps0_writes
    ((by decide : ∀ r ∈ ([main_arg3, main_arg4] : List (Ref sig .tc)), r ∉ hostOps0_W) b hb)

theorem keep1 (W : Valuation τ sig (Elt Ideal)) (b : Ref sig .tc)
    (hb : b ∈ [main_arg0, main_arg1, main_arg5, main_v1_0]) :
    StableHlo.after (Gen.hostOps1 (F := Ideal)) W (Proc.devRef .tc b) = W (Proc.devRef .tc b) :=
  StableHlo.after_of_writes_sub _ W hostOps1_writes
    ((by decide : ∀ r ∈ ([main_arg0, main_arg1, main_arg5, main_v1_0] : List (Ref sig .tc)), r ∉ hostOps1_W) b hb)

end Cert.KernelIdeal.KHost

end
-- ==== Proof.Bridge.lean ====
import proofs.«149921_j80719615361567_1_alg».proof.Defs
import proofs.«149921_j80719615361567_1_alg».proof.Proof.Gen.KernelIdeal
import proofs.«149921_j80719615361567_1_alg».proof.Proof.Gen.ReferenceIdeal
import proofs.«149921_j80719615361567_1_alg».proof.Proof.Gen.Pre_finite_inputs
import proofs.«149921_j80719615361567_1_alg».proof.Proof.KernelIdealRun
import proofs.«149921_j80719615361567_1_alg».proof.Proof.RefIsSpec
import proofs.«149921_j80719615361567_1_alg».proof.Proof.SpecLaws
import proofs.«149921_j80719615361567_1_alg».proof.Proof.Finite
import proofs.«149921_j80719615361567_1_alg».proof.Proof.KVal1
import proofs.«149921_j80719615361567_1_alg».proof.Proof.KVal0
import proofs.«149921_j80719615361567_1_alg».proof.Proof.KHost
import Idealize.ShloMosaic.Lib.ValueIdx

/-! # The two programs compute the same two results

At the extended reals the blocked program's first result, read through its two regions and the host operations
around them, is the blocked spelling of the specification at the launch arguments; the two spellings agree when
the batch and the centres have real entries; and the reference program's first result is the textbook spelling.
The second result goes the same way and needs no hypothesis. -/

set_option maxRecDepth 16384

noncomputable section

open Idealize.ShloMosaic Idealize.ShloMosaic.TcCoe Idealize.ShloMosaic.ValueIdx Idealize.SL Idealize.SL.Sem
open Idealize.ShloMosaic.Pipeline (Dat Cfg Window)
open Cert.KernelIdeal Cert.KernelIdeal.Gen

namespace Cert.Bridge

variable (m : (ℓ : Loc nD τ sig) → Buf (Elt Ideal) ℓ) (c : Dev nD)

/-! ## The arrays the regions read are the launch arguments -/

/-- No host operation before the first region writes the coefficient means; the region finds them as launched. -/
theorem V1_arg3 : Run.V1 m c main_arg3 = m ((c.tc : Thread nD τ).loc main_arg3) :=
  StableHlo.after_of_writes_sub hostOps0 _ hostOps0_writes (r := main_arg3) (by decide)
/-- Likewise the coefficient log-variances. -/
theorem V1_arg4 : Run.V1 m c main_arg4 = m ((c.tc : Thread nD τ).loc main_arg4) :=
  StableHlo.after_of_writes_sub hostOps0 _ hostOps0_writes (r := main_arg4) (by decide)

/-- The batch reaches the second stretch of host operations as launched. -/
theorem W2_arg0 : Run.W2 m c (Proc.devRef .tc main_arg0) = m ((c.tc : Thread nD τ).loc main_arg0) :=
  (Run.W2_of_ne m c main_arg0 (by decide)).trans
    (StableHlo.after_of_writes_sub hostOps0 _ hostOps0_writes (r := main_arg0) (by decide))
/-- Likewise the centres. -/
theorem W2_arg1 : Run.W2 m c (Proc.devRef .tc main_arg1) = m ((c.tc : Thread nD τ).loc main_arg1) :=
  (Run.W2_of_ne m c main_arg1 (by decide)).trans
    (StableHlo.after_of_writes_sub hostOps0 _ hostOps0_writes (r := main_arg1) (by decide))
/-- Likewise the log-widths. -/
theorem W2_arg2 : Run.W2 m c (Proc.devRef .tc main_arg2) = m ((c.tc : Thread nD τ).loc main_arg2) :=
  (Run.W2_of_ne m c main_arg2 (by decide)).trans
    (StableHlo.after_of_writes_sub hostOps0 _ hostOps0_writes (r := main_arg2) (by decide))
/-- Likewise the base weights. -/
theorem W2_arg5 : Run.W2 m c (Proc.devRef .tc main_arg5) = m ((c.tc : Thread nD τ).loc main_arg5) :=
  (Run.W2_of_ne m c main_arg5 (by decide)).trans
    (StableHlo.after_of_writes_sub hostOps0 _ hostOps0_writes (r := main_arg5) (by decide))

/-- The second region finds the batch as launched. -/
theorem V3_arg0 : Run.V3 m c main_arg0 = m ((c.tc : Thread nD τ).loc main_arg0) :=
  (StableHlo.after_of_writes_sub hostOps1 _ hostOps1_writes (r := main_arg0) (by decide)).trans (W2_arg0 m c)
/-- Likewise the centres. -/
theorem V3_arg1 : Run.V3 m c main_arg1 = m ((c.tc : Thread nD τ).loc main_arg1) :=
  (StableHlo.after_of_writes_sub hostOps1 _ hostOps1_writes (r := main_arg1) (by decide)).trans (W2_arg1 m c)
/-- Likewise the base weights. -/
theorem V3_arg5 : Run.V3 m c main_arg5 = m ((c.tc : Thread nD τ).loc main_arg5) :=
  (StableHlo.after_of_writes_sub hostOps1 _ hostOps1_writes (r := main_arg5) (by decide)).trans (W2_arg5 m c)

/-- The noise the first region reads is the launch noise with its sample axis dropped. -/
theorem V1_v0 (i o : Fin 512) (n : Fin 64) :
    Run.V1 m c main_v0 (ix3 i o n) = m ((c.tc : Thread nD τ).loc main_arg6) (ix4 0 i o n) :=
  KHost.v0_apply (Run.W0 m c) i o n

/-- The first region's coefficient means, log-variances and noise are the launch arguments. -/
theorem cm_eq : KVal0.cm (Run.V1 m) c = fun i o n => m ((c.tc : Thread nD τ).loc main_arg3) (ix3 i o n) :=
  funext fun i => funext fun o => funext fun n => congrFun (V1_arg3 m c) (ix3 i o n)
theorem clv_eq : KVal0.clv (Run.V1 m) c = fun i o n => m ((c.tc : Thread nD τ).loc main_arg4) (ix3 i o n) :=
  funext fun i => funext fun o => funext fun n => congrFun (V1_arg4 m c) (ix3 i o n)
theorem ep_eq : KVal0.ep (Run.V1 m) c = fun i o n => m ((c.tc : Thread nD τ).loc main_arg6) (ix4 0 i o n) :=
  funext fun i => funext fun o => funext fun n => V1_v0 m c i o n

/-- The table of summed coefficients the second region reads is the first region's, in the blocked spelling at
    the launch arguments. -/
theorem V3_csum (o : Fin 512) (n : Fin 64) :
    Run.V3 m c main_v1_0 (ix2 o n)
      = Cert.Spec.csumB (fun i o n => m ((c.tc : Thread nD τ).loc main_arg3) (ix3 i o n))
          (fun i o n => m ((c.tc : Thread nD τ).loc main_arg4) (ix3 i o n))
          (fun i o n => m ((c.tc : Thread nD τ).loc main_arg6) (ix4 0 i o n)) o n := by
  have h1 : Run.V3 m c main_v1_0 = Run.W2 m c (Proc.devRef .tc main_v1_0) :=
    StableHlo.after_of_writes_sub hostOps1 _ hostOps1_writes (r := main_v1_0) (by decide)
  rw [h1, Run.W2_arr m c 3, KVal0.csum_arr (Run.V1 m) c o n, cm_eq, clv_eq, ep_eq]

/-- The squared norms the second region reads are those of the launch centres. -/
theorem V3_cnorm (n : Fin 64) :
    Run.V3 m c main_v7 (ix2 0 n) = Cert.Spec.cnorm (fun n k => Run.V3 m c main_arg1 (ix2 n k)) n := by
  rw [V3_arg1]
  exact (KHost.v7_apply (Run.W2 m c) n).trans (by rw [W2_arg1])

/-- The log-widths the second region reads are the launch log-widths, as a row. -/
theorem V3_ls (n : Fin 64) :
    Run.V3 m c main_v4 (ix2 0 n) = m ((c.tc : Thread nD τ).loc main_arg2) (ix1 n) :=
  (KHost.v4_apply (Run.W2 m c) n).trans (by rw [W2_arg2])

/-! ## The first result -/

/-- The blocked program's first result is the reference's, when the batch and the centres have real entries. -/
theorem out_eq
    (hx : ∀ (b : Fin 4096) (k : Fin 512), ∃ r : ℝ, m ((c.tc : Thread nD τ).loc main_arg0) (ix2 b k) = (r : EReal))
    (hc : ∀ (n : Fin 64) (k : Fin 512), ∃ r : ℝ, m ((c.tc : Thread nD τ).loc main_arg1) (ix2 n k) = (r : EReal)) :
    Run.W4 m c (Proc.devRef .tc main_v8)
      = Cert.ReferenceIdeal.Read.val_main_v31 (F := Ideal) (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg6)) := by
  rw [Run.W4_main_v8]
  funext i
  obtain ⟨b, o, rfl⟩ : ∃ (b : Fin 4096) (o : Fin 512), i = ix2 b o := ⟨i 0, i 1, eq_ix2 i⟩
  rw [KVal1.out_arr (Run.V3 m) c (fun n => m ((c.tc : Thread nD τ).loc main_arg2) (ix1 n)) (V3_cnorm m c) (V3_ls m c) b o,
    V3_arg0, V3_arg1, V3_arg5,
    show (fun (o : Fin 512) (n : Fin 64) => Run.V3 m c main_v1_0 (ix2 o n)) = Cert.Spec.csumB _ _ _ from
      funext fun o => funext fun n => V3_csum m c o n,
    Cert.SpecLaws.out_eq _ _ _ _ _ _ _ hx hc b o]
  exact (Cert.RefSpec.out_ref _ _ _ _ _ _ _ b o).symm

/-! ## The second result -/

/-- The blocked program's second result is the reference's. -/
theorem kl_eq :
    Run.W4 m c (Proc.devRef .tc main_v3)
      = Cert.ReferenceIdeal.Read.val_main_v39 (F := Ideal) (m ((c.tc : Thread nD τ).loc main_arg3))
          (m ((c.tc : Thread nD τ).loc main_arg4)) := by
  rw [Run.W4_main_v3]
  funext i
  obtain rfl : i = ValueIdx.ix0 := funext fun d => d.elim0
  have hp : ∀ o : Fin 512, Run.W2 m c (Proc.devRef .tc main_v1_1) (ix2 0 o)
      = Cert.Spec.klPart (fun i o n => m ((c.tc : Thread nD τ).loc main_arg3) (ix3 i o n))
          (fun i o n => m ((c.tc : Thread nD τ).loc main_arg4) (ix3 i o n)) o := fun o => by
    rw [Run.W2_arr m c 4, KVal0.kl_arr (Run.V1 m) c o, cm_eq, clv_eq]
  refine (KHost.v3_apply (Run.W2 m c)).trans ?_
  simp only [hp]
  exact (Cert.SpecLaws.kl_eq _ _).trans (Cert.RefSpec.kl_ref _ _).symm

/-! ## The claim -/

/-- From memories that agree on the seven arguments, with every entry finite, both programs run, end with equal
    results, and leave their arguments unchanged. -/
theorem algebraic : Cert.algebraic_KernelIdeal_ReferenceIdeal := by
  intro m ρ m' ρ' hpre hagree
  refine ⟨fun c => Run.W4 m c (Proc.devRef .tc main_v8), fun c => Run.W4 m c (Proc.devRef .tc main_v3), ?_, ?_⟩
  · exact (θ_run defs _ _).mono (fun r h c =>
      ⟨h c _ (Run.mem_uc main_v8 (by decide)), h c _ (Run.mem_uc main_v3 (by decide)),
        (h c _ (Run.mem_uc main_arg0 (by decide))).trans (Run.W4_main_arg0 m c),
        (h c _ (Run.mem_uc main_arg1 (by decide))).trans (Run.W4_main_arg1 m c),
        (h c _ (Run.mem_uc main_arg2 (by decide))).trans (Run.W4_main_arg2 m c),
        (h c _ (Run.mem_uc main_arg3 (by decide))).trans (Run.W4_main_arg3 m c),
        (h c _ (Run.mem_uc main_arg4 (by decide))).trans (Run.W4_main_arg4 m c),
        (h c _ (Run.mem_uc main_arg5 (by decide))).trans (Run.W4_main_arg5 m c),
        (h c _ (Run.mem_uc main_arg6 (by decide))).trans (Run.W4_main_arg6 m c)⟩) (Run.run_all m ρ)
  · refine (θ_run Cert.ReferenceIdeal.defs _ _).mono
      (fun r h c => ⟨(h c).1.trans ?_, (h c).2.1.trans ?_, (h c).2.2⟩)
      (Cert.ReferenceIdeal.Value.run (F := Ideal) m' ρ')
    · obtain ⟨h0, h1, h2, h3, h4, h5, h6⟩ := hagree c
      obtain ⟨hx, hc⟩ := Cert.Finite.real_x_cen_coords _ _ _ _ _ _ _ (hpre c)
      rw [Cert.ReferenceIdeal.Read.val_main_v31_eq, h0, h1, h2, h3, h4, h5, h6]
      exact (out_eq m c hx hc).symm
    · obtain ⟨h0, h1, h2, h3, h4, h5, h6⟩ := hagree c
      rw [Cert.ReferenceIdeal.Read.val_main_v39_eq, h3, h4]
      exact (kl_eq m c).symm

end Cert.Bridge

end
-- ==== Proof.lean ====
/-
  A radial-basis layer with sampled coefficients, written as two kernel regions, against its plain formula.

  The first region sums the sampled coefficients `cm + ep · exp (clv / 2)` over the 512 input features, eight runs of
  sixty-four accumulated in scratch, and beside them the partial sums of the divergence `exp clv + cm² - 1 - clv`;
  the second mixes the basis values `exp (-‖x - c‖² / (2σ² + tiny))`, the squared distance taken as
  `‖x‖² + ‖c‖² - 2 x·c`, by those sums and adds the plain product `x · bw`. Over the extended reals, with every entry
  of `x` and of the centres a real number (the precondition), both programs compute the same two results: the square
  expands, a sum over 512 is eight sums over 64, `(2σ)σ = 2(σσ)`, `0 - d = -d` and `z / 1 = z`.

  The frames of the two kernel programs come from one run of @main through its four segments (host operations, region,
  host operations, region) that ends with every unscoped buffer at named contents; the reference's frame is its run
  with the results dropped.
-/
import proofs.«149921_j80719615361567_1_alg».proof.Defs
import proofs.«149921_j80719615361567_1_alg».proof.Proof.Gen.Kernel
import proofs.«149921_j80719615361567_1_alg».proof.Proof.Gen.KernelIdeal
import proofs.«149921_j80719615361567_1_alg».proof.Proof.Gen.ReferenceIdeal
import proofs.«149921_j80719615361567_1_alg».proof.Proof.Gen.Pre_finite_inputs
import proofs.«149921_j80719615361567_1_alg».proof.Proof.KernelRun
import proofs.«149921_j80719615361567_1_alg».proof.Proof.KernelIdealRun
import proofs.«149921_j80719615361567_1_alg».proof.Proof.RefRun
import proofs.«149921_j80719615361567_1_alg».proof.Proof.Bridge
import Idealize.ShloMosaic.Adequacy
import Idealize.ShloMosaic.Init

noncomputable section

namespace Cert.Proof

open Idealize.ShloMosaic Idealize.SL.Sem

/-- The word-level kernel runs to the end, faults nowhere and leaves its arguments as launched. -/
theorem frame_k : Cert.frame_Kernel := fun m ρ _ => Cert.Kernel.Run.frame (F := Bits) m ρ

/-- So does the kernel read over the extended reals. -/
theorem frame_ki : Cert.frame_KernelIdeal := fun m ρ _ => Cert.KernelIdeal.Run.frame (F := Ideal) m ρ

/-- The reference is host operations only: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- No operation of the kernel was rewritten for the ideal reading. -/
theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_k, frame_ki, frame_ri, preserves, Cert.Bridge.algebraic⟩

end Cert.Proof

end
